-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x100000x16x32 : Shape := ⟨4, ![2, 100000, 16, 32]⟩
abbrev S2x192x128 : Shape := ⟨3, ![2, 192, 128]⟩
abbrev S2x128 : Shape := ⟨2, ![2, 128]⟩
abbrev S2x256x128 : Shape := ⟨3, ![2, 256, 128]⟩
abbrev S2x100000x16 : Shape := ⟨3, ![2, 100000, 16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S2x100000x16x32 : S_.BroadcastsInDim S2x100000x16x32 (![] : Fin 0 → Fin S2x100000x16x32.rank)
  reducesTo_S2x100000x16x32_S_d0_1_2_3 : S2x100000x16x32.ReducesTo [0, 1, 2, 3] S_
  bcast_S_S2x192x128 : S_.BroadcastsInDim S2x192x128 (![] : Fin 0 → Fin S2x192x128.rank)
  reducesTo_S2x192x128_S_d0_1_2 : S2x192x128.ReducesTo [0, 1, 2] S_
  bcast_S_S2x128 : S_.BroadcastsInDim S2x128 (![] : Fin 0 → Fin S2x128.rank)
  reducesTo_S2x128_S_d0_1 : S2x128.ReducesTo [0, 1] S_
  bcast_S_S2x256x128 : S_.BroadcastsInDim S2x256x128 (![] : Fin 0 → Fin S2x256x128.rank)
  reducesTo_S2x256x128_S_d0_1_2 : S2x256x128.ReducesTo [0, 1, 2] S_
  bcast_S_S2x100000x16 : S_.BroadcastsInDim S2x100000x16 (![] : Fin 0 → Fin S2x100000x16.rank)
  reducesTo_S2x100000x16_S_d0_1_2 : S2x100000x16.ReducesTo [0, 1, 2] S_

variable [Facts]

def fn_part2 {F : FTy → Type} [FloatOps F] (main_arg7 : IVec S2x100000x16 32) (main_v33 : IVec S_ 1) : IVec S_ 1 :=
  let main_c_12 : IVec S_ 32 := constantI S_ 32 4294867296#32
  let main_v34 : IVec S2x100000x16 32 := broadcastInDim S2x100000x16 ![] bcast_S_S2x100000x16 main_c_12
  let main_v35 : IVec S2x100000x16 1 := cmpi .sge main_arg7 main_v34
  let main_c_13 : IVec S_ 1 := constantI S_ 1 1#1
  let main_v36 : IVec S_ 1 := (fun x v => Host.reduce IntOp.andi x v reducesTo_S2x100000x16_S_d0_1_2 h_S_) main_v35 main_c_13
  let main_v37 : IVec S_ 1 := andi main_v33 main_v36
  let main_c_14 : IVec S_ 32 := constantI S_ 32 100000#32
  let main_v38 : IVec S2x100000x16 32 := broadcastInDim S2x100000x16 ![] bcast_S_S2x100000x16 main_c_14
  let main_v39 : IVec S2x100000x16 1 := cmpi .slt main_arg7 main_v38
  let main_c_15 : IVec S_ 1 := constantI S_ 1 1#1
  let main_v40 : IVec S_ 1 := (fun x v => Host.reduce IntOp.andi x v reducesTo_S2x100000x16_S_d0_1_2 h_S_) main_v39 main_c_15
  let main_v41 : IVec S_ 1 := andi main_v37 main_v40
  main_v41

def fn_part1 {F : FTy → Type} [FloatOps F] (main_arg4 : FVec F S2x128 .f32) (main_arg5 : FVec F S2x256x128 .f32) (main_arg6 : FVec F S2x128 .f32) (main_arg7 : IVec S2x100000x16 32) (main_v13 : IVec S_ 1) (main_v16 : IVec S2x192x128 1) : IVec S_ 1 :=
  let main_c_5 : IVec S_ 1 := constantI S_ 1 1#1
  let main_v17 : IVec S_ 1 := (fun x v => Host.reduce IntOp.andi x v reducesTo_S2x192x128_S_d0_1_2 h_S_) main_v16 main_c_5
  let main_v18 : IVec S_ 1 := andi main_v13 main_v17
  let main_v19 : FVec F S2x128 .f32 := Host.absf main_arg4
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S2x256x128 .f32 := Host.absf main_arg5
  let main_cst_8 : FVec F S_ .f32 := constant S_ .f32 0x7F800000#32
  let main_v25 : FVec F S2x256x128 .f32 := broadcastInDim S2x256x128 ![] bcast_S_S2x256x128 main_cst_8
  let main_v26 : IVec S2x256x128 1 := cmpf .olt main_v24 main_v25
  let main_c_9 : IVec S_ 1 := constantI S_ 1 1#1
  let main_v27 : IVec S_ 1 := (fun x v => Host.reduce IntOp.andi x v reducesTo_S2x256x128_S_d0_1_2 h_S_) main_v26 main_c_9
  let main_v28 : IVec S_ 1 := andi main_v23 main_v27
  let main_v29 : FVec F S2x128 .f32 := Host.absf main_arg6
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg7 main_v33

def fn {F : FTy → Type} [FloatOps F] (main_arg0 : FVec F S100000x128 .f32) (main_arg1 : FVec F S2x100000x16x32 .f32) (main_arg2 : FVec F S2x100000x16x32 .f32) (main_arg3 : FVec F S2x192x128 .f32) (main_arg4 : FVec F S2x128 .f32) (main_arg5 : FVec F S2x256x128 .f32) (main_arg6 : FVec F S2x128 .f32) (main_arg7 : IVec S2x100000x16 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S2x100000x16x32 .f32 := Host.absf main_arg1
  let main_cst_0 : FVec F S_ .f32 := constant S_ .f32 0x7F800000#32
  let main_v5 : FVec F S2x100000x16x32 .f32 := broadcastInDim S2x100000x16x32 ![] bcast_S_S2x100000x16x32 main_cst_0
  let main_v6 : IVec S2x100000x16x32 1 := cmpf .olt main_v4 main_v5
  let main_c_1 : IVec S_ 1 := constantI S_ 1 1#1
  let main_v7 : IVec S_ 1 := (fun x v => Host.reduce IntOp.andi x v reducesTo_S2x100000x16x32_S_d0_1_2_3 h_S_) main_v6 main_c_1
  let main_v8 : IVec S_ 1 := andi main_v3 main_v7
  let main_v9 : FVec F S2x100000x16x32 .f32 := Host.absf main_arg2
  let main_cst_2 : FVec F S_ .f32 := constant S_ .f32 0x7F800000#32
  let main_v10 : FVec F S2x100000x16x32 .f32 := broadcastInDim S2x100000x16x32 ![] bcast_S_S2x100000x16x32 main_cst_2
  let main_v11 : IVec S2x100000x16x32 1 := cmpf .olt main_v9 main_v10
  let main_c_3 : IVec S_ 1 := constantI S_ 1 1#1
  let main_v12 : IVec S_ 1 := (fun x v => Host.reduce IntOp.andi x v reducesTo_S2x100000x16x32_S_d0_1_2_3 h_S_) main_v11 main_c_3
  let main_v13 : IVec S_ 1 := andi main_v8 main_v12
  let main_v14 : FVec F S2x192x128 .f32 := Host.absf main_arg3
  let main_cst_4 : FVec F S_ .f32 := constant S_ .f32 0x7F800000#32
  let main_v15 : FVec F S2x192x128 .f32 := broadcastInDim S2x192x128 ![] bcast_S_S2x192x128 main_cst_4
  let main_v16 : IVec S2x192x128 1 := cmpf .olt main_v14 main_v15
  fn_part1 (F := F) main_arg4 main_arg5 main_arg6 main_arg7 main_v13 main_v16
-- ==== Kernel.lean ====
abbrev S100000x128 : Shape := ⟨2, ![100000, 128]⟩
abbrev S2x100000x16x32 : Shape := ⟨4, ![2, 100000, 16, 32]⟩
abbrev S2x192x128 : Shape := ⟨3, ![2, 192, 128]⟩
abbrev S2x128 : Shape := ⟨2, ![2, 128]⟩
abbrev S2x256x128 : Shape := ⟨3, ![2, 256, 128]⟩
abbrev S2x100000x16 : Shape := ⟨3, ![2, 100000, 16]⟩
abbrev S1x100000x16 : Shape := ⟨3, ![1, 100000, 16]⟩
abbrev S100000x16 : Shape := ⟨2, ![100000, 16]⟩
abbrev S_ : Shape := ⟨0, ![]⟩
abbrev S100000x16x1 : Shape := ⟨3, ![100000, 16, 1]⟩
abbrev S1 : Shape := ⟨1, ![1]⟩
abbrev S1x1x1 : Shape := ⟨3, ![1, 1, 1]⟩
abbrev S100000x16x128 : Shape := ⟨3, ![100000, 16, 128]⟩
abbrev S1x128x128 : Shape := ⟨3, ![1, 128, 128]⟩
abbrev S128x128 : Shape := ⟨2, ![128, 128]⟩
abbrev S1x32x128 : Shape := ⟨3, ![1, 32, 128]⟩
abbrev S32x128 : Shape := ⟨2, ![32, 128]⟩
abbrev S1x128 : Shape := ⟨2, ![1, 128]⟩
abbrev S128 : Shape := ⟨1, ![128]⟩
abbrev S1x100000x16x32 : Shape := ⟨4, ![1, 100000, 16, 32]⟩
abbrev S100000x16x32 : Shape := ⟨3, ![100000, 16, 32]⟩
abbrev S1000x128 : Shape := ⟨2, ![1000, 128]⟩
abbrev S1000x16x32 : Shape := ⟨3, ![1000, 16, 32]⟩
abbrev S1000x32 : Shape := ⟨2, ![1000, 32]⟩

abbrev nBuf : Space → Nat
  | .hbm => 100
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x100000x16x32, .f32⟩
  | .hbm, ⟨2, _⟩ => ⟨S2x100000x16x32, .f32⟩
  | .hbm, ⟨3, _⟩ => ⟨S2x192x128, .f32⟩
  | .hbm, ⟨4, _⟩ => ⟨S2x128, .f32⟩
  | .hbm, ⟨5, _⟩ => ⟨S2x256x128, .f32⟩
  | .hbm, ⟨6, _⟩ => ⟨S2x128, .f32⟩
  | .hbm, ⟨7, _⟩ => ⟨S2x100000x16, .i32⟩
  | .hbm, ⟨8, _⟩ => ⟨S1x100000x16, .i32⟩
  | .hbm, ⟨9, _⟩ => ⟨S100000x16, .i32⟩
  | .hbm, ⟨10, _⟩ => ⟨S_, .i32⟩
  | .hbm, ⟨11, _⟩ => ⟨S100000x16, .i32⟩
  | .hbm, ⟨12, _⟩ => ⟨S100000x16, .i1⟩
  | .hbm, ⟨13, _⟩ => ⟨S_, .i32⟩
  | .hbm, ⟨14, _⟩ => ⟨S100000x16, .i32⟩
  | .hbm, ⟨15, _⟩ => ⟨S100000x16, .i32⟩
  | .hbm, ⟨16, _⟩ => ⟨S100000x16, .i32⟩
  | .hbm, ⟨17, _⟩ => ⟨S100000x16x1, .i32⟩
  | .hbm, ⟨18, _⟩ => ⟨S1, .i32⟩
  | .hbm, ⟨19, _⟩ => ⟨S_, .i32⟩
  | .hbm, ⟨20, _⟩ => ⟨S100000x16x1, .i32⟩
  | .hbm, ⟨21, _⟩ => ⟨S100000x16x1, .i1⟩
  | .hbm, ⟨22, _⟩ => ⟨S1x1x1, .i32⟩
  | .hbm, ⟨23, _⟩ => ⟨S100000x16x1, .i32⟩
  | .hbm, ⟨24, _⟩ => ⟨S100000x16x1, .i1⟩
  | .hbm, ⟨25, _⟩ => ⟨S100000x16x1, .i1⟩
  | .hbm, ⟨26, _⟩ => ⟨S_, .i1⟩
  | .hbm, ⟨27, _⟩ => ⟨S100000x16, .i1⟩
  | .hbm, ⟨28, _⟩ => ⟨S100000x16x128, .f32⟩
  | .hbm, ⟨29, _⟩ => ⟨S100000x16x128, .i1⟩
  | .hbm, ⟨30, _⟩ => ⟨S_, .f32⟩
  | .hbm, ⟨31, _⟩ => ⟨S100000x16x128, .f32⟩
  | .hbm, ⟨32, _⟩ => ⟨S100000x16x128, .f32⟩
  | .hbm, ⟨33, _⟩ => ⟨S_, .f32⟩
  | .hbm, ⟨34, _⟩ => ⟨S100000x128, .f32⟩
  | .hbm, ⟨35, _⟩ => ⟨S1x128x128, .f32⟩
  | .hbm, ⟨36, _⟩ => ⟨S128x128, .f32⟩
  | .hbm, ⟨37, _⟩ => ⟨S1x32x128, .f32⟩
  | .hbm, ⟨38, _⟩ => ⟨S32x128, .f32⟩
  | .hbm, ⟨39, _⟩ => ⟨S1x32x128, .f32⟩
  | .hbm, ⟨40, _⟩ => ⟨S32x128, .f32⟩
  | .hbm, ⟨41, _⟩ => ⟨S1x128, .f32⟩
  | .hbm, ⟨42, _⟩ => ⟨S128, .f32⟩
  | .hbm, ⟨43, _⟩ => ⟨S1x128x128, .f32⟩
  | .hbm, ⟨44, _⟩ => ⟨S128x128, .f32⟩
  | .hbm, ⟨45, _⟩ => ⟨S1x128x128, .f32⟩
  | .hbm, ⟨46, _⟩ => ⟨S128x128, .f32⟩
  | .hbm, ⟨47, _⟩ => ⟨S1x128, .f32⟩
  | .hbm, ⟨48, _⟩ => ⟨S128, .f32⟩
  | .hbm, ⟨49, _⟩ => ⟨S1x100000x16x32, .f32⟩
  | .hbm, ⟨50, _⟩ => ⟨S100000x16x32, .f32⟩
  | .hbm, ⟨51, _⟩ => ⟨S1x100000x16x32, .f32⟩
  | .hbm, ⟨52, _⟩ => ⟨S100000x16x32, .f32⟩
  | .hbm, ⟨53, _⟩ => ⟨S100000x128, .f32⟩
  | .hbm, ⟨54, _⟩ => ⟨S1x100000x16, .i32⟩
  | .hbm, ⟨55, _⟩ => ⟨S100000x16, .i32⟩
  | .hbm, ⟨56, _⟩ => ⟨S_, .i32⟩
  | .hbm, ⟨57, _⟩ => ⟨S100000x16, .i32⟩
  | .hbm, ⟨58, _⟩ => ⟨S100000x16, .i1⟩
  | .hbm, ⟨59, _⟩ => ⟨S_, .i32⟩
  | .hbm, ⟨60, _⟩ => ⟨S100000x16, .i32⟩
  | .hbm, ⟨61, _⟩ => ⟨S100000x16, .i32⟩
  | .hbm, ⟨62, _⟩ => ⟨S100000x16, .i32⟩
  | .hbm, ⟨63, _⟩ => ⟨S100000x16x1, .i32⟩
  | .hbm, ⟨64, _⟩ => ⟨S1, .i32⟩
  | .hbm, ⟨65, _⟩ => ⟨S_, .i32⟩
  | .hbm, ⟨66, _⟩ => ⟨S100000x16x1, .i32⟩
  | .hbm, ⟨67, _⟩ => ⟨S100000x16x1, .i1⟩
  | .hbm, ⟨68, _⟩ => ⟨S1x1x1, .i32⟩
  | .hbm, ⟨69, _⟩ => ⟨S100000x16x1, .i32⟩
  | .hbm, ⟨70, _⟩ => ⟨S100000x16x1, .i1⟩
  | .hbm, ⟨71, _⟩ => ⟨S100000x16x1, .i1⟩
  | .hbm, ⟨72, _⟩ => ⟨S_, .i1⟩
  | .hbm, ⟨73, _⟩ => ⟨S100000x16, .i1⟩
  | .hbm, ⟨74, _⟩ => ⟨S100000x16x128, .f32⟩
  | .hbm, ⟨75, _⟩ => ⟨S100000x16x128, .i1⟩
  | .hbm, ⟨76, _⟩ => ⟨S_, .f32⟩
  | .hbm, ⟨77, _⟩ => ⟨S100000x16x128, .f32⟩
  | .hbm, ⟨78, _⟩ => ⟨S100000x16x128, .f32⟩
  | .hbm, ⟨79, _⟩ => ⟨S_, .f32⟩
  | .hbm, ⟨80, _⟩ => ⟨S100000x128, .f32⟩
  | .hbm, ⟨81, _⟩ => ⟨S1x128x128, .f32⟩
  | .hbm, ⟨82, _⟩ => ⟨S128x128, .f32⟩
  | .hbm, ⟨83, _⟩ => ⟨S1x32x128, .f32⟩
  | .hbm, ⟨84, _⟩ => ⟨S32x128, .f32⟩
  | .hbm, ⟨85, _⟩ => ⟨S1x32x128, .f32⟩
  | .hbm, ⟨86, _⟩ => ⟨S32x128, .f32⟩
  | .hbm, ⟨87, _⟩ => ⟨S1x128, .f32⟩
  | .hbm, ⟨88, _⟩ => ⟨S128, .f32⟩
  | .hbm, ⟨89, _⟩ => ⟨S1x128x128, .f32⟩
  | .hbm, ⟨90, _⟩ => ⟨S128x128, .f32⟩
  | .hbm, ⟨91, _⟩ => ⟨S1x128x128, .f32⟩
  | .hbm, ⟨92, _⟩ => ⟨S128x128, .f32⟩
  | .hbm, ⟨93, _⟩ => ⟨S1x128, .f32⟩
  | .hbm, ⟨94, _⟩ => ⟨S128, .f32⟩
  | .hbm, ⟨95, _⟩ => ⟨S1x100000x16x32, .f32⟩
  | .hbm, ⟨96, _⟩ => ⟨S100000x16x32, .f32⟩
  | .hbm, ⟨97, _⟩ => ⟨S1x100000x16x32, .f32⟩
  | .hbm, ⟨98, _⟩ => ⟨S100000x16x32, .f32⟩
  | .hbm, ⟨99, _⟩ => ⟨S100000x128, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S1000x16x32, .f32⟩
  | .local _ .vmem, ⟨5, _⟩ => ⟨S1000x16x32, .f32⟩
  | .local _ .vmem, ⟨6, _⟩ => ⟨S1000x16x32, .f32⟩
  | .local _ .vmem, ⟨7, _⟩ => ⟨S1000x16x32, .f32⟩
  | .local _ .vmem, ⟨8, _⟩ => ⟨S128x128, .f32⟩
  | .local _ .vmem, ⟨9, _⟩ => ⟨S32x128, .f32⟩
  | .local _ .vmem, ⟨10, _⟩ => ⟨S32x128, .f32⟩
  | .local _ .vmem, ⟨11, _⟩ => ⟨S128, .f32⟩
  | .local _ .vmem, ⟨12, _⟩ => ⟨S128x128, .f32⟩
  | .local _ .vmem, ⟨13, _⟩ => ⟨S128x128, .f32⟩
  | .local _ .vmem, ⟨14, _⟩ => ⟨S128, .f32⟩
  | .local _ .vmem, ⟨15, _⟩ => ⟨S1000x128, .f32⟩
  | .local _ .vmem, ⟨16, _⟩ => ⟨S1000x128, .f32⟩
  | .local _ .vmem, ⟨17, _⟩ => ⟨S1000x128, .f32⟩
  | .local _ .vmem, ⟨18, _⟩ => ⟨S1000x128, .f32⟩
  | .local _ .vmem, ⟨19, _⟩ => ⟨S1000x128, .f32⟩
  | .local _ .vmem, ⟨20, _⟩ => ⟨S1000x128, .f32⟩
  | .local _ .vmem, ⟨21, _⟩ => ⟨S1000x16x32, .f32⟩
  | .local _ .vmem, ⟨22, _⟩ => ⟨S1000x16x32, .f32⟩
  | .local _ .vmem, ⟨23, _⟩ => ⟨S1000x16x32, .f32⟩
  | .local _ .vmem, ⟨24, _⟩ => ⟨S1000x16x32, .f32⟩
  | .local _ .vmem, ⟨25, _⟩ => ⟨S128x128, .f32⟩
  | .local _ .vmem, ⟨26, _⟩ => ⟨S32x128, .f32⟩
  | .local _ .vmem, ⟨27, _⟩ => ⟨S32x128, .f32⟩
  | .local _ .vmem, ⟨28, _⟩ => ⟨S128, .f32⟩
  | .local _ .vmem, ⟨29, _⟩ => ⟨S128x128, .f32⟩
  | .local _ .vmem, ⟨30, _⟩ => ⟨S128x128, .f32⟩
  | .local _ .vmem, ⟨31, _⟩ => ⟨S128, .f32⟩
  | .local _ .vmem, ⟨32, _⟩ => ⟨S1000x128, .f32⟩
  | .local _ .vmem, ⟨33, _⟩ => ⟨S1000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v2 : Ref sig .tc := ⟨.hbm, 32, rfl⟩
abbrev main_cst : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_c_1 : Ref sig .tc := ⟨.hbm, 64, rfl⟩
abbrev main_call1_c_2 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_3 : Ref sig .tc := ⟨.hbm, 72, rfl⟩
abbrev main_call1_v12 : Ref sig .tc := ⟨.hbm, 73, rfl⟩
abbrev main_call1_v13 : Ref sig .tc := ⟨.hbm, 74, rfl⟩
abbrev main_call1_v14 : Ref sig .tc := ⟨.hbm, 75, rfl⟩
abbrev main_call1_cst : Ref sig .tc := ⟨.hbm, 76, rfl⟩
abbrev main_call1_v15 : Ref sig .tc := ⟨.hbm, 77, rfl⟩
abbrev main_v25 : Ref sig .tc := ⟨.hbm, 78, rfl⟩
abbrev main_cst_0 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg10_0 : Ref sig .tc := ⟨.vmem, 31, rfl⟩
abbrev cc1_stg11_0 : Ref sig .tc := ⟨.vmem, 32, rfl⟩
abbrev cc1_stg11_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem3_1 : DmaSem sig := 24
abbrev cc1_sem4_0 : DmaSem sig := 25
abbrev cc1_sem5_0 : DmaSem sig := 26
abbrev cc1_sem6_0 : DmaSem sig := 27
abbrev cc1_sem7_0 : DmaSem sig := 28
abbrev cc1_sem8_0 : DmaSem sig := 29
abbrev cc1_sem9_0 : DmaSem sig := 30
abbrev cc1_sem10_0 : DmaSem sig := 31
abbrev cc1_sem11_0 : DmaSem sig := 32
abbrev cc1_sem11_1 : DmaSem sig := 33

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x16x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x16x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x16x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x16x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S1000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x100000x16_S1x100000x16_0_0_0 : S2x100000x16.Slices ![0, 0, 0] S1x100000x16
  shapeCasts_S1x100000x16_S100000x16 : S1x100000x16.ShapeCasts S100000x16
  bcast_S_S100000x16 : S_.BroadcastsInDim S100000x16 (![] : Fin 0 → Fin S100000x16.rank)
  bcast_S100000x16_S100000x16x1_0_1 : S100000x16.BroadcastsInDim S100000x16x1 (![0, 1] : Fin 2 → Fin S100000x16x1.rank)
  bcast_S_S100000x16x1 : S_.BroadcastsInDim S100000x16x1 (![] : Fin 0 → Fin S100000x16x1.rank)
  bcast_S1_S1x1x1_2 : S1.BroadcastsInDim S1x1x1 (![2] : Fin 1 → Fin S1x1x1.rank)
  bcast_S1x1x1_S100000x16x1_0_1_2 : S1x1x1.BroadcastsInDim S100000x16x1 (![0, 1, 2] : Fin 3 → Fin S100000x16x1.rank)
  reducesTo_S100000x16x1_S100000x16_d2 : S100000x16x1.ReducesTo [2] S100000x16
  h_S_ : 0 < S_.numel
  bcast_S100000x16_S100000x16x128_0_1 : S100000x16.BroadcastsInDim S100000x16x128 (![0, 1] : Fin 2 → Fin S100000x16x128.rank)
  bcast_S_S100000x16x128 : S_.BroadcastsInDim S100000x16x128 (![] : Fin 0 → Fin S100000x16x128.rank)
  reducesTo_S100000x16x128_S100000x128_d1 : S100000x16x128.ReducesTo [1] S100000x128
  slices_S2x192x128_S1x128x128_0_0_0 : S2x192x128.Slices ![0, 0, 0] S1x128x128
  shapeCasts_S1x128x128_S128x128 : S1x128x128.ShapeCasts S128x128
  slices_S2x192x128_S1x32x128_0_128_0 : S2x192x128.Slices ![0, 128, 0] S1x32x128
  shapeCasts_S1x32x128_S32x128 : S1x32x128.ShapeCasts S32x128
  slices_S2x192x128_S1x32x128_0_160_0 : S2x192x128.Slices ![0, 160, 0] S1x32x128
  slices_S2x128_S1x128_0_0 : S2x128.Slices ![0, 0] S1x128
  shapeCasts_S1x128_S128 : S1x128.ShapeCasts S128
  slices_S2x256x128_S1x128x128_0_0_0 : S2x256x128.Slices ![0, 0, 0] S1x128x128
  slices_S2x256x128_S1x128x128_0_128_0 : S2x256x128.Slices ![0, 128, 0] S1x128x128
  slices_S2x100000x16x32_S1x100000x16x32_0_0_0_0 : S2x100000x16x32.Slices ![0, 0, 0, 0] S1x100000x16x32
  shapeCasts_S1x100000x16x32_S100000x16x32 : S1x100000x16x32.ShapeCasts S100000x16x32
  inb_S1000x16x32_S1000x16x32_0_0_0 : ∀ a, (![0, 0, 0] : Fin 3 → Nat) a + S1000x16x32.size a ≤ S1000x16x32.size a
  h_S1000x16x32 : 0 < S1000x16x32.numel
  shapeCasts_S1000x16x32_S1000x16x32 : S1000x16x32.ShapeCasts S1000x16x32
  reduces_S1000x16x32_S1000x32 : S1000x16x32.Reduces [1] S1000x32
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S1000x128 : S1x128.Broadcasts S1000x128
  slices_S2x100000x16_S1x100000x16_1_0_0 : S2x100000x16.Slices ![1, 0, 0] S1x100000x16
  slices_S2x192x128_S1x128x128_1_0_0 : S2x192x128.Slices ![1, 0, 0] S1x128x128
  slices_S2x192x128_S1x32x128_1_128_0 : S2x192x128.Slices ![1, 128, 0] S1x32x128
  slices_S2x192x128_S1x32x128_1_160_0 : S2x192x128.Slices ![1, 160, 0] S1x32x128
  slices_S2x128_S1x128_1_0 : S2x128.Slices ![1, 0] S1x128
  slices_S2x256x128_S1x128x128_1_0_0 : S2x256x128.Slices ![1, 0, 0] S1x128x128
  slices_S2x256x128_S1x128x128_1_128_0 : S2x256x128.Slices ![1, 128, 0] S1x128x128
  slices_S2x100000x16x32_S1x100000x16x32_1_0_0_0 : S2x100000x16x32.Slices ![1, 0, 0, 0] S1x100000x16x32
  gather_S100000x128_S100000x16x1_S100000x16x128_2_0_n_n_0_2_1128_wf : GatherDims.WF S100000x128 S100000x16x1 S100000x16x128 [2] [0] [] [0] [] 2 ![1, 128]
  dot_S1000x128_S128x128_S1000x128_1_0_0_1_n_n_wf : DotDims.WF S1000x128 S128x128 S1000x128 [1] [0] [0] [1] [] []
  dot_S1000x32_S32x128_S1000x128_1_0_0_1_n_n_wf : DotDims.WF S1000x32 S32x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S100000x128.size a
  hwx0_0 : ∀ i : grid0.Coords, EltTy.bits .f32 = 32 ∨ (Rect.block (s := S100000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S100000x128.size a
  hwx0_1 : ∀ i : grid0.Coords, EltTy.bits .f32 = 32 ∨ (Rect.block (s := S100000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x16x32.size a ≤ S100000x16x32.size a
  hwx0_2 : ∀ i : grid0.Coords, EltTy.bits .f32 = 32 ∨ (Rect.block (s := S100000x16x32) S1000x16x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x16x32.size a ≤ S100000x16x32.size a
  hwx0_3 : ∀ i : grid0.Coords, EltTy.bits .f32 = 32 ∨ (Rect.block (s := S100000x16x32) S1000x16x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .f32 = 32 ∨ (Rect.block (s := S32x128) S32x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x128.size a ≤ S32x128.size a
  hwx0_6 : ∀ i : grid0.Coords, EltTy.bits .f32 = 32 ∨ (Rect.block (s := S32x128) S32x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1000x128.size a ≤ S100000x128.size a
  hwx0_11 : ∀ i : grid0.Coords, EltTy.bits .f32 = 32 ∨ (Rect.block (s := S100000x128) S1000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S100000x128.size a
  hwx1_0 : ∀ i : grid1.Coords, EltTy.bits .f32 = 32 ∨ (Rect.block (s := S100000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S100000x128.size a
  hwx1_1 : ∀ i : grid1.Coords, EltTy.bits .f32 = 32 ∨ (Rect.block (s := S100000x128) S1000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x16x32.size a ≤ S100000x16x32.size a
  hwx1_2 : ∀ i : grid1.Coords, EltTy.bits .f32 = 32 ∨ (Rect.block (s := S100000x16x32) S1000x16x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x16x32.size a ≤ S100000x16x32.size a
  hwx1_3 : ∀ i : grid1.Coords, EltTy.bits .f32 = 32 ∨ (Rect.block (s := S100000x16x32) S1000x16x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x128.size a ≤ S32x128.size a
  hwx1_5 : ∀ i : grid1.Coords, EltTy.bits .f32 = 32 ∨ (Rect.block (s := S32x128) S32x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32x128.size a ≤ S32x128.size a
  hwx1_6 : ∀ i : grid1.Coords, EltTy.bits .f32 = 32 ∨ (Rect.block (s := S32x128) S32x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128.size a ≤ S128.size a
  hwx1_10 : ∀ i : grid1.Coords, EltTy.bits .f32 = 32 ∨ (Rect.block (s := S128) S128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1000x128.size a ≤ S100000x128.size a
  hwx1_11 : ∀ i : grid1.Coords, EltTy.bits .f32 = 32 ∨ (Rect.block (s := S100000x128) S1000x128.size (cc1_transform_11 i) (hinb1_11 i)).WholeWords (EltTy.packing .f32)

variable [Facts₀]

def gather_S100000x128_S100000x16x1_S100000x16x128_2_0_n_n_0_2_1128 : GatherDims S100000x128 S100000x16x1 S100000x16x128 where
  offsetDims := [2]
  collapsedSliceDims := [0]
  operandBatchingDims := []
  startIndicesBatchingDims := []
  startIndexMap := [0]
  indexVectorDim := 2
  sliceSizes := ![1, 128]
  wf := gather_S100000x128_S100000x16x1_S100000x16x128_2_0_n_n_0_2_1128_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x32_S32x128_S1000x128_1_0_0_1_n_n : DotDims S1000x32 S32x128 S1000x128 where
  lhsContracting := [1]
  rhsContracting := [0]
  lhsNonContracting := [0]
  rhsNonContracting := [1]
  lhsBatch := []
  rhsBatch := []
  wf := dot_S1000x32_S32x128_S1000x128_1_0_0_1_n_n_wf

abbrev win0_0 : Pipeline.Window sig grid0 :=
  Pipeline.Window.ofSpec (Memref.whole main_v3) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1000x16x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1000x16x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S32x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v22) S1000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v26) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1000x16x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1000x16x32.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v28) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S32x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S32x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v34) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v36) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v38) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v40) S128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v45) S1000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x100000x16x32 : Shape := ⟨4, ![2, 100000, 16, 32]⟩
abbrev S2x192x128 : Shape := ⟨3, ![2, 192, 128]⟩
abbrev S2x128 : Shape := ⟨2, ![2, 128]⟩
abbrev S2x256x128 : Shape := ⟨3, ![2, 256, 128]⟩
abbrev S2x100000x16 : Shape := ⟨3, ![2, 100000, 16]⟩
abbrev S1x100000x16 : Shape := ⟨3, ![1, 100000, 16]⟩
abbrev S100000x16 : Shape := ⟨2, ![100000, 16]⟩
abbrev S_ : Shape := ⟨0, ![]⟩
abbrev S100000x16x1 : Shape := ⟨3, ![100000, 16, 1]⟩
abbrev S100000x16x128 : Shape := ⟨3, ![100000, 16, 128]⟩
abbrev S1x100000x16x32 : Shape := ⟨4, ![1, 100000, 16, 32]⟩
abbrev S100000x16x32 : Shape := ⟨3, ![100000, 16, 32]⟩
abbrev S100000x32 : Shape := ⟨2, ![100000, 32]⟩
abbrev S100000x192 : Shape := ⟨2, ![100000, 192]⟩
abbrev S1x192x128 : Shape := ⟨3, ![1, 192, 128]⟩
abbrev S192x128 : Shape := ⟨2, ![192, 128]⟩
abbrev S1x128 : Shape := ⟨2, ![1, 128]⟩
abbrev S128 : Shape := ⟨1, ![128]⟩
abbrev S100000x256 : Shape := ⟨2, ![100000, 256]⟩
abbrev S1x256x128 : Shape := ⟨3, ![1, 256, 128]⟩
abbrev S256x128 : Shape := ⟨2, ![256, 128]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x100000x16x32, .f32⟩
  | .hbm, ⟨2, _⟩ => ⟨S2x100000x16x32, .f32⟩
  | .hbm, ⟨3, _⟩ => ⟨S2x192x128, .f32⟩
  | .hbm, ⟨4, _⟩ => ⟨S2x128, .f32⟩
  | .hbm, ⟨5, _⟩ => ⟨S2x256x128, .f32⟩
  | .hbm, ⟨6, _⟩ => ⟨S2x128, .f32⟩
  | .hbm, ⟨7, _⟩ => ⟨S2x100000x16, .i32⟩
  | .hbm, ⟨8, _⟩ => ⟨S1x100000x16, .i32⟩
  | .hbm, ⟨9, _⟩ => ⟨S100000x16, .i32⟩
  | .hbm, ⟨10, _⟩ => ⟨S_, .i32⟩
  | .hbm, ⟨11, _⟩ => ⟨S100000x16, .i32⟩
  | .hbm, ⟨12, _⟩ => ⟨S100000x16, .i1⟩
  | .hbm, ⟨13, _⟩ => ⟨S_, .i32⟩
  | .hbm, ⟨14, _⟩ => ⟨S100000x16, .i32⟩
  | .hbm, ⟨15, _⟩ => ⟨S100000x16, .i32⟩
  | .hbm, ⟨16, _⟩ => ⟨S100000x16, .i32⟩
  | .hbm, ⟨17, _⟩ => ⟨S100000x16x1, .i32⟩
  | .hbm, ⟨18, _⟩ => ⟨S100000x16x128, .f32⟩
  | .hbm, ⟨19, _⟩ => ⟨S_, .f32⟩
  | .hbm, ⟨20, _⟩ => ⟨S100000x128, .f32⟩
  | .hbm, ⟨21, _⟩ => ⟨S1x100000x16x32, .f32⟩
  | .hbm, ⟨22, _⟩ => ⟨S100000x16x32, .f32⟩
  | .hbm, ⟨23, _⟩ => ⟨S_, .f32⟩
  | .hbm, ⟨24, _⟩ => ⟨S100000x32, .f32⟩
  | .hbm, ⟨25, _⟩ => ⟨S1x100000x16x32, .f32⟩
  | .hbm, ⟨26, _⟩ => ⟨S100000x16x32, .f32⟩
  | .hbm, ⟨27, _⟩ => ⟨S_, .f32⟩
  | .hbm, ⟨28, _⟩ => ⟨S100000x32, .f32⟩
  | .hbm, ⟨29, _⟩ => ⟨S100000x192, .f32⟩
  | .hbm, ⟨30, _⟩ => ⟨S1x192x128, .f32⟩
  | .hbm, ⟨31, _⟩ => ⟨S192x128, .f32⟩
  | .hbm, ⟨32, _⟩ => ⟨S100000x128, .f32⟩
  | .hbm, ⟨33, _⟩ => ⟨S1x128, .f32⟩
  | .hbm, ⟨34, _⟩ => ⟨S128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S_, .f32⟩
  | .hbm, ⟨39, _⟩ => ⟨S100000x128, .f32⟩
  | .hbm, ⟨40, _⟩ => ⟨S100000x128, .f32⟩
  | .hbm, ⟨41, _⟩ => ⟨S100000x256, .f32⟩
  | .hbm, ⟨42, _⟩ => ⟨S1x256x128, .f32⟩
  | .hbm, ⟨43, _⟩ => ⟨S256x128, .f32⟩
  | .hbm, ⟨44, _⟩ => ⟨S100000x128, .f32⟩
  | .hbm, ⟨45, _⟩ => ⟨S1x128, .f32⟩
  | .hbm, ⟨46, _⟩ => ⟨S128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S1x100000x16, .i32⟩
  | .hbm, ⟨51, _⟩ => ⟨S100000x16, .i32⟩
  | .hbm, ⟨52, _⟩ => ⟨S_, .i32⟩
  | .hbm, ⟨53, _⟩ => ⟨S100000x16, .i32⟩
  | .hbm, ⟨54, _⟩ => ⟨S100000x16, .i1⟩
  | .hbm, ⟨55, _⟩ => ⟨S_, .i32⟩
  | .hbm, ⟨56, _⟩ => ⟨S100000x16, .i32⟩
  | .hbm, ⟨57, _⟩ => ⟨S100000x16, .i32⟩
  | .hbm, ⟨58, _⟩ => ⟨S100000x16, .i32⟩
  | .hbm, ⟨59, _⟩ => ⟨S100000x16x1, .i32⟩
  | .hbm, ⟨60, _⟩ => ⟨S100000x16x128, .f32⟩
  | .hbm, ⟨61, _⟩ => ⟨S_, .f32⟩
  | .hbm, ⟨62, _⟩ => ⟨S100000x128, .f32⟩
  | .hbm, ⟨63, _⟩ => ⟨S1x100000x16x32, .f32⟩
  | .hbm, ⟨64, _⟩ => ⟨S100000x16x32, .f32⟩
  | .hbm, ⟨65, _⟩ => ⟨S_, .f32⟩
  | .hbm, ⟨66, _⟩ => ⟨S100000x32, .f32⟩
  | .hbm, ⟨67, _⟩ => ⟨S1x100000x16x32, .f32⟩
  | .hbm, ⟨68, _⟩ => ⟨S100000x16x32, .f32⟩
  | .hbm, ⟨69, _⟩ => ⟨S_, .f32⟩
  | .hbm, ⟨70, _⟩ => ⟨S100000x32, .f32⟩
  | .hbm, ⟨71, _⟩ => ⟨S100000x192, .f32⟩
  | .hbm, ⟨72, _⟩ => ⟨S1x192x128, .f32⟩
  | .hbm, ⟨73, _⟩ => ⟨S192x128, .f32⟩
  | .hbm, ⟨74, _⟩ => ⟨S100000x128, .f32⟩
  | .hbm, ⟨75, _⟩ => ⟨S1x128, .f32⟩
  | .hbm, ⟨76, _⟩ => ⟨S128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S100000x128, .f32⟩
  | .hbm, ⟨82, _⟩ => ⟨S100000x128, .f32⟩
  | .hbm, ⟨83, _⟩ => ⟨S100000x256, .f32⟩
  | .hbm, ⟨84, _⟩ => ⟨S1x256x128, .f32⟩
  | .hbm, ⟨85, _⟩ => ⟨S256x128, .f32⟩
  | .hbm, ⟨86, _⟩ => ⟨S100000x128, .f32⟩
  | .hbm, ⟨87, _⟩ => ⟨S1x128, .f32⟩
  | .hbm, ⟨88, _⟩ => ⟨S128, .f32⟩
  | .hbm, ⟨89, _⟩ => ⟨S1x128, .f32⟩
  | .hbm, ⟨90, _⟩ => ⟨S100000x128, .f32⟩
  | .hbm, ⟨91, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_cst : Ref sig .tc := ⟨.hbm, 38, rfl⟩
abbrev main_call0_v0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_3 : Ref sig .tc := ⟨.hbm, 52, rfl⟩
abbrev main_v37 : Ref sig .tc := ⟨.hbm, 53, rfl⟩
abbrev main_v38 : Ref sig .tc := ⟨.hbm, 54, rfl⟩
abbrev main_c_4 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_7 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_call1_cst : Ref sig .tc := ⟨.hbm, 80, rfl⟩
abbrev main_call1_v0 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]

class Facts₀ : Prop where
  slices_S2x100000x16_S1x100000x16_0_0_0 : S2x100000x16.Slices ![0, 0, 0] S1x100000x16
  shapeCasts_S1x100000x16_S100000x16 : S1x100000x16.ShapeCasts S100000x16
  bcast_S_S100000x16 : S_.BroadcastsInDim S100000x16 (![] : Fin 0 → Fin S100000x16.rank)
  bcast_S100000x16_S100000x16x1_0_1 : S100000x16.BroadcastsInDim S100000x16x1 (![0, 1] : Fin 2 → Fin S100000x16x1.rank)
  reducesTo_S100000x16x128_S100000x128_d1 : S100000x16x128.ReducesTo [1] S100000x128
  h_S_ : 0 < S_.numel
  slices_S2x100000x16x32_S1x100000x16x32_0_0_0_0 : S2x100000x16x32.Slices ![0, 0, 0, 0] S1x100000x16x32
  shapeCasts_S1x100000x16x32_S100000x16x32 : S1x100000x16x32.ShapeCasts S100000x16x32
  reducesTo_S100000x16x32_S100000x32_d1 : S100000x16x32.ReducesTo [1] S100000x32
  concatenates_S100000x128_S100000x32_S100000x32_S100000x192_d1 : Shape.Concatenates [S100000x128, S100000x32, S100000x32] S100000x192 1
  slices_S2x192x128_S1x192x128_0_0_0 : S2x192x128.Slices ![0, 0, 0] S1x192x128
  shapeCasts_S1x192x128_S192x128 : S1x192x128.ShapeCasts S192x128
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  concatenates_S100000x128_S100000x128_S100000x256_d1 : Shape.Concatenates [S100000x128, S100000x128] S100000x256 1
  slices_S2x256x128_S1x256x128_0_0_0 : S2x256x128.Slices ![0, 0, 0] S1x256x128
  shapeCasts_S1x256x128_S256x128 : S1x256x128.ShapeCasts S256x128
  slices_S2x100000x16_S1x100000x16_1_0_0 : S2x100000x16.Slices ![1, 0, 0] S1x100000x16
  slices_S2x100000x16x32_S1x100000x16x32_1_0_0_0 : S2x100000x16x32.Slices ![1, 0, 0, 0] S1x100000x16x32
  slices_S2x192x128_S1x192x128_1_0_0 : S2x192x128.Slices ![1, 0, 0] S1x192x128
  slices_S2x128_S1x128_1_0 : S2x128.Slices ![1, 0] S1x128
  slices_S2x256x128_S1x256x128_1_0_0 : S2x256x128.Slices ![1, 0, 0] S1x256x128
  gather_S100000x128_S100000x16x1_S100000x16x128_2_0_n_n_0_2_1128_wf : GatherDims.WF S100000x128 S100000x16x1 S100000x16x128 [2] [0] [] [0] [] 2 ![1, 128]
  dot_S100000x192_S192x128_S100000x128_1_0_0_1_n_n_wf : DotDims.WF S100000x192 S192x128 S100000x128 [1] [0] [0] [1] [] []
  dot_S100000x256_S256x128_S100000x128_1_0_0_1_n_n_wf : DotDims.WF S100000x256 S256x128 S100000x128 [1] [0] [0] [1] [] []

variable [Facts₀]

def gather_S100000x128_S100000x16x1_S100000x16x128_2_0_n_n_0_2_1128 : GatherDims S100000x128 S100000x16x1 S100000x16x128 where
  offsetDims := [2]
  collapsedSliceDims := [0]
  operandBatchingDims := []
  startIndicesBatchingDims := []
  startIndexMap := [0]
  indexVectorDim := 2
  sliceSizes := ![1, 128]
  wf := gather_S100000x128_S100000x16x1_S100000x16x128_2_0_n_n_0_2_1128_wf
def dot_S100000x192_S192x128_S100000x128_1_0_0_1_n_n : DotDims S100000x192 S192x128 S100000x128 where
  lhsContracting := [1]
  rhsContracting := [0]
  lhsNonContracting := [0]
  rhsNonContracting := [1]
  lhsBatch := []
  rhsBatch := []
  wf := dot_S100000x192_S192x128_S100000x128_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.TakeRows.lean ====
/-
  The kernel's row take under its fill mask, and the index range the precondition gives.
-/
import proofs.«429829_j21174188769660_2_alg».proof.Proof.Gen.KernelIdeal
import proofs.«429829_j21174188769660_2_alg».proof.Proof.Gen.Pre_finite_inputs
import Idealize.ShloMosaic.Lib.ValueIdx
import Idealize.ShloMosaic.Lib.Pipeline.Value
import Idealize.ShloMosaic.Lib.ReduceAll
import Idealize.ShloMosaic.Lib.StableHlo.Predicate

noncomputable section

namespace Cert.KernelIdeal.Take

open Idealize.ShloMosaic Idealize.ShloMosaic.ValueIdx Cert.KernelIdeal
open Cert.KernelIdeal.Facts₀ Cert.KernelIdeal.Facts

/-- An index word names a row of a 100000-row array, counted from the front or (negative) from the back. -/
def InRange (w : BitVec 32) : Prop := -100000 ≤ w.toInt ∧ w.toInt < 100000

/-- The index words wrapped (a negative word has 100000 added) and laid out as a column of start indices. -/
def wrapCol (v : IVec S100000x16 32) : IVec S100000x16x1 32 :=
  broadcastInDim S100000x16x1 ![0, 1] bcast_S100000x16_S100000x16x1_0_1
    (select (cmpi .slt v (broadcastInDim S100000x16 ![] bcast_S_S100000x16 (constantI S_ 32 0#32)))
      (addi v (broadcastInDim S100000x16 ![] bcast_S_S100000x16 (constantI S_ 32 100000#32))) v)

/-- The fill mask of the take: a start index is kept where 0 ≤ it ≤ 99999, over the unit axis of the column, repeated
    along the 128 entries of the row. -/
def keepMask (w : IVec S100000x16x1 32) : IVec S100000x16x128 1 :=
  broadcastInDim S100000x16x128 ![0, 1] bcast_S100000x16_S100000x16x128_0_1
    (Host.reduce IntOp.andi
      (andi (cmpi .sge w (broadcastInDim S100000x16x1 ![] bcast_S_S100000x16x1 (constantI S_ 32 0#32)))
        (cmpi .sle w (broadcastInDim S100000x16x1 ![0, 1, 2] bcast_S1x1x1_S100000x16x1_0_1_2
          (broadcastInDim S1x1x1 ![2] bcast_S1_S1x1x1_2 (constantI S1 32 99999#32)))))
      (constantI S_ 1 1#1) reducesTo_S100000x16x1_S100000x16_d2 h_S_)

/-- The take as the kernel's program computes it: the gathered rows where the mask keeps them, a fill value elsewhere. -/
def takeRows (x : FVec Ideal S100000x128 .f32) (v : IVec S100000x16 32) : FVec Ideal S100000x16x128 .f32 :=
  select (keepMask (wrapCol v))
    (Host.gather gather_S100000x128_S100000x16x1_S100000x16x128_2_0_n_n_0_2_1128 x (wrapCol v))
    (broadcastInDim S100000x16x128 ![] bcast_S_S100000x16x128 (constant (F := Ideal) S_ .f32 0x7FC00000#32))

/-! ### Words: the wrapped index word passes both bounds of the mask -/

/-- Adding 100000 to a negative word no smaller than −100000 does not wrap around: the sum's signed reading is the
    sum of the signed readings, since it lies in [0, 100000). -/
theorem toInt_add_100000 (x : BitVec 32) (h1 : -100000 ≤ x.toInt) (h2 : x.toInt < 0) :
    (x + 100000#32).toInt = x.toInt + 100000 := by
  rw [BitVec.toInt_add, show (100000#32 : BitVec 32).toInt = 100000 from by decide]
  rw [Int.bmod_eq_of_le] <;> omega

/-- A word in [−100000, 100000), wrapped (100000 added when it is negative), lies in [0, 99999]: both comparisons of
    the mask hold of it. -/
theorem wrap_keep (x : BitVec 32) (hx : InRange x) :
    IntOp.andi (IntOp.cmpi .sge (Scalar.select (IntOp.cmpi .slt x 0#32) (IntOp.addi x 100000#32) x) 0#32)
      (IntOp.cmpi .sle (Scalar.select (IntOp.cmpi .slt x 0#32) (IntOp.addi x 100000#32) x) 99999#32) = 1#1 := by
  obtain ⟨h1, h2⟩ := hx
  have z0 : (0#32 : BitVec 32).toInt = 0 := by decide
  have z9 : (99999#32 : BitVec 32).toInt = 99999 := by decide
  by_cases hneg : x.toInt < 0
  · -- a negative word: the select takes x + 100000, whose signed reading is x.toInt + 100000 ∈ [0, 99999]
    have hc : IntOp.cmpi .slt x 0#32 = 1#1 := IntOp.cmpi_slt.2 (by rw [z0]; exact hneg)
    rw [hc, select_one]
    have ha : (IntOp.addi x 100000#32).toInt = x.toInt + 100000 := toInt_add_100000 x h1 hneg
    exact IntOp.andi_eq_one.2 ⟨IntOp.cmpi_sge.2 (by rw [z0, ha]; omega), IntOp.cmpi_sle.2 (by rw [z9, ha]; omega)⟩
  · -- a nonnegative word: the select keeps x, and 0 ≤ x.toInt ≤ 99999 already
    have hc : IntOp.cmpi .slt x 0#32 = 0#1 :=
      eq_zero_of_ne_one (fun e => hneg (by have := IntOp.cmpi_slt.1 e; rwa [z0] at this))
    rw [hc, select_zero]
    exact IntOp.andi_eq_one.2 ⟨IntOp.cmpi_sge.2 (by rw [z0]; omega), IntOp.cmpi_sle.2 (by rw [z9]; omega)⟩

/-! ### An and-reduction of ones is one -/

/-- A left fold by `and` from 1 over words that are all 1 is 1. -/
theorem foldl_andi_one {ι : Type} (f : ι → BitVec 1) (hf : ∀ n, f n = 1#1) :
    ∀ (l : List ι), l.foldl (fun r n => IntOp.andi r (f n)) 1#1 = 1#1
  | [] => rfl
  | a :: l => by
    rw [List.foldl_cons, hf a, show IntOp.andi 1#1 1#1 = 1#1 from by decide]
    exact foldl_andi_one f hf l

/-- An and-reduction, over any axes, of an array of ones from the initial value one is one at every result index. -/
theorem reduce_andi_one {s t u : Shape} {axes : List (Fin s.rank)} (p : s.Idx → BitVec 1) (hp : ∀ i, p i = 1#1)
    (init : u.Idx → BitVec 1) (hinit : ∀ k, init k = 1#1) (h : s.ReducesTo axes t) (hu : 0 < u.numel) (j : t.Idx) :
    Host.reduce IntOp.andi p init h hu j = 1#1 := by
  rw [Host.reduce_eq_foldl, hinit]
  exact foldl_andi_one p hp _

/-- With every index word in range the mask is 1 everywhere. The mask at an index is the and-reduction (over the unit
    axis) read at the index's first two coordinates; the reduced array at an index `k` is the two comparisons of the
    wrapped word `wrapCol v k`, which is the wrap of one entry of `v`. -/
theorem keepMask_wrapCol (v : IVec S100000x16 32) (hv : ∀ i, InRange (v i)) (i : S100000x16x128.Idx) :
    keepMask (wrapCol v) i = 1#1 := by
  show Host.reduce IntOp.andi _ _ _ _ _ = 1#1
  refine reduce_andi_one _ (fun k => ?_) _ (fun _ => rfl) _ _ _
  exact wrap_keep (v _) (hv _)

/-- With every index word in range the mask keeps every row: the take is the gather. -/
theorem takeRows_eq (x : FVec Ideal S100000x128 .f32) (v : IVec S100000x16 32) (hv : ∀ i, InRange (v i)) :
    takeRows x v = Host.gather gather_S100000x128_S100000x16x1_S100000x16x128_2_0_n_n_0_2_1128 x (wrapCol v) := by
  -- at each index the select reads the mask, which is 1: it takes the gathered element
  funext i
  unfold takeRows
  rw [select_apply, keepMask_wrapCol v hv i, select_one]

/-- Layer k's index words: slice k of the [2, 100000, 16] input, as a [100000, 16] array. -/
def idx0 (a7 : IVec S2x100000x16 32) : IVec S100000x16 32 :=
  shapeCast S100000x16 (extractStridedSlice S1x100000x16 ![0, 0, 0] a7 slices_S2x100000x16_S1x100000x16_0_0_0)
    shapeCasts_S1x100000x16_S100000x16
def idx1 (a7 : IVec S2x100000x16 32) : IVec S100000x16 32 :=
  shapeCast S100000x16 (extractStridedSlice S1x100000x16 ![1, 0, 0] a7 slices_S2x100000x16_S1x100000x16_1_0_0)
    shapeCasts_S1x100000x16_S100000x16

/-- Every entry of a layer's index words is an entry of the input. -/
theorem idx0_inRange (a7 : IVec S2x100000x16 32) (h : ∀ i, InRange (a7 i)) : ∀ i, InRange (idx0 a7 i) := by
  -- the cast of the slice reads, at `i`, the input at one index (slice offset plus the reshaped `i`)
  intro i
  exact h _
theorem idx1_inRange (a7 : IVec S2x100000x16 32) (h : ∀ i, InRange (a7 i)) : ∀ i, InRange (idx1 a7 i) := by
  intro i
  exact h _

/-- The precondition's last two conjuncts: every index word is in range. -/
theorem inRange_of_pre (a0 : FVec Ideal Cert.Pre_finite_inputs.S100000x128 .f32)
    (a1 a2 : FVec Ideal Cert.Pre_finite_inputs.S2x100000x16x32 .f32) (a3 : FVec Ideal Cert.Pre_finite_inputs.S2x192x128 .f32)
    (a4 : FVec Ideal Cert.Pre_finite_inputs.S2x128 .f32) (a5 : FVec Ideal Cert.Pre_finite_inputs.S2x256x128 .f32)
    (a6 : FVec Ideal Cert.Pre_finite_inputs.S2x128 .f32) (a7 : IVec Cert.Pre_finite_inputs.S2x100000x16 32)
    (h : Cert.Pre_finite_inputs.fn (F := Ideal) a0 a1 a2 a3 a4 a5 a6 a7 = fun _ => 1#1) :
    ∀ i, InRange (a7 i) := by
  intro i
  -- the scalar result has one index
  haveI : Subsingleton Cert.Pre_finite_inputs.S_.Idx := ⟨fun a b => funext fun d => d.elim0⟩
  have h0 := congrFun h ix0
  dsimp only [Cert.Pre_finite_inputs.fn, Cert.Pre_finite_inputs.fn_part1, Cert.Pre_finite_inputs.fn_part2] at h0
  -- the result is ((earlier conjuncts ∧ all(a7 ≥ −100000)) ∧ all(a7 < 100000))
  obtain ⟨h12, h3⟩ := IntOp.andi_eq_one.1 h0
  obtain ⟨-, h2⟩ := IntOp.andi_eq_one.1 h12
  -- each and-reduction over all three axes that is 1 had a 1 at every entry
  have hge := Host.reduce_andi_all _ _ _ _ _ h2 i
  have hlt := Host.reduce_andi_all _ _ _ _ _ h3 i
  have hge' : (4294867296#32 : BitVec 32).toInt ≤ (a7 i).toInt := IntOp.cmpi_sge.1 hge
  have hlt' : (a7 i).toInt < (100000#32 : BitVec 32).toInt := IntOp.cmpi_slt.1 hlt
  -- the word 4294867296 reads −100000 signed
  rw [show (4294867296#32 : BitVec 32).toInt = -100000 from by decide] at hge'
  rw [show (100000#32 : BitVec 32).toInt = 100000 from by decide] at hlt'
  exact ⟨hge', hlt'⟩

end Cert.KernelIdeal.Take

end
-- ==== Proof.Stretches.lean ====
/-
  The host's stretches before each kernel region, read as functions of the contents they start from.

  Before a layer's kernel region the host cuts the layer's index words out of the index input (slab k, as a
  [100000, 16] array), takes the rows of the embeddings those words name — the rows gathered at the wrapped words,
  a fill value where the fill mask drops a row —, and adds the taken rows over the 16 neighbours. Each stretch is
  read here at a float family left abstract and from any starting contents, so that nothing about the
  floats is unfolded while the operations are peeled off one by one.
-/
import proofs.«429829_j21174188769660_2_alg».proof.Proof.Gen.KernelIdeal.Frame
import proofs.«429829_j21174188769660_2_alg».proof.Proof.TakeRows
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable {F : FTy → Type} [FloatOps F]

/-- Contents moved to a typed reference's buffer type and back are the contents. -/
theorem ofBuf_toBuf {Val : EltTy → Type} {T : BufTy} (x : TRef sig T) (v : T.Contents Val) : x.ofBuf (x.toBuf v) = v := by
  obtain ⟨r, h, h1, h2⟩ := x
  subst h
  rfl

/-- The take at any float family: the gathered rows where the mask keeps them, the fill value elsewhere. -/
def takeRowsF (x : FVec F S100000x128 .f32) (v : IVec S100000x16 32) : FVec F S100000x16x128 .f32 :=
  select (Take.keepMask (Take.wrapCol v))
    (Host.gather gather_S100000x128_S100000x16x1_S100000x16x128_2_0_n_n_0_2_1128 x (Take.wrapCol v))
    (broadcastInDim S100000x16x128 ![] Gen.bcast_S_S100000x16x128 (constant (F := F) S_ .f32 0x7FC00000#32))

/-- At the extended reals it is the take of the kernel's program. -/
theorem takeRowsF_ideal (x : FVec Ideal S100000x128 .f32) (v : IVec S100000x16 32) :
    takeRowsF (F := Ideal) x v = Take.takeRows x v := rfl

/-! ## Layer 0: the index words, the take, the sum -/

/-- The first stretch cuts layer 0's index words out of the index input. -/
theorem idxStretch0 (Z : Valuation τ sig (Elt F)) :
    StableHlo.after hostOps0 Z (Proc.devRef .tc main_v1) = Take.idx0 (Z (Proc.devRef .tc main_arg7) : IVec S2x100000x16 32) := by
  simp only [hostOps0]
  after_results_simp
  rfl

/-- The second stretch is the take, from the embeddings and the index words it finds. -/
theorem takeStretch0 (Y : Valuation τ sig (Elt F)) :
    StableHlo.after hostOps0_1 Y (Proc.devRef .tc main_v2)
      = (TRef.of main_v2 : TRef sig ⟨S100000x16x128, .f32⟩).toBuf
          (takeRowsF ((TRef.of main_arg0 : TRef sig ⟨S100000x128, .f32⟩).ofBuf (Y (Proc.devRef .tc main_arg0)))
            ((TRef.of main_v1 : TRef sig ⟨S100000x16, .i32⟩).ofBuf (Y (Proc.devRef .tc main_v1)))) := by
  simp only [hostOps0_1]
  after_results_simp
  simp only [ofBuf_toBuf]
  unfold takeRowsF Take.keepMask Take.wrapCol
  rfl

/-- The third stretch adds the taken rows over the 16 neighbours. -/
theorem sumStretch0 (X : Valuation τ sig (Elt F)) :
    StableHlo.after hostOps0_2 X (Proc.devRef .tc main_v3)
      = Host.reduceAdd (X (Proc.devRef .tc main_v2) : FVec F S100000x16x128 .f32) (constant (F := F) S_ .f32 0x00000000#32)
          Gen.reducesTo_S100000x16x128_S100000x128_d1 Gen.h_S_ := by
  simp only [hostOps0_2]
  after_results_simp

/-- The casts at the take's two inputs and at its output are identities. -/
theorem ofBuf_emb0 (v : FVec F S100000x128 .f32) :
    (TRef.of main_arg0 : TRef sig ⟨S100000x128, .f32⟩).ofBuf (Val := Elt F) v = v := rfl
theorem ofBuf_idx0 (v : IVec S100000x16 32) :
    (TRef.of main_v1 : TRef sig ⟨S100000x16, .i32⟩).ofBuf (Val := Elt F) v = v := rfl
theorem toBuf_take0 (v : FVec F S100000x16x128 .f32) :
    ((TRef.of main_v2 : TRef sig ⟨S100000x16x128, .f32⟩).toBuf (Val := Elt F) v : FVec F S100000x16x128 .f32) = v := rfl

/-- The first stretch of layer 0 leaves the embeddings' buffer as it finds it. -/
theorem keepEmb0 (Z : Valuation τ sig (Elt F)) :
    StableHlo.after hostOps0 Z (Proc.devRef .tc main_arg0) = Z (Proc.devRef .tc main_arg0) := by
  simp only [hostOps0]
  after_results_simp

/-- The three stretches of layer 0 together: the neighbour sums from the embeddings and the index input they start from. -/
theorem nbrStretch0 (Z : Valuation τ sig (Elt F)) :
    StableHlo.after hostOps0_2 (StableHlo.after hostOps0_1 (StableHlo.after hostOps0 Z)) (Proc.devRef .tc main_v3)
      = Host.reduceAdd (takeRowsF (Z (Proc.devRef .tc main_arg0) : FVec F S100000x128 .f32)
          (Take.idx0 (Z (Proc.devRef .tc main_arg7) : IVec S2x100000x16 32)))
        (constant (F := F) S_ .f32 0x00000000#32) Gen.reducesTo_S100000x16x128_S100000x128_d1 Gen.h_S_ := by
  rw [sumStretch0, takeStretch0, idxStretch0, keepEmb0]
  exact congrArg (fun t => Host.reduceAdd t (constant (F := F) S_ .f32 0x00000000#32)
      Gen.reducesTo_S100000x16x128_S100000x128_d1 Gen.h_S_)
    ((toBuf_take0 _).trans (congrArg₂ takeRowsF (ofBuf_emb0 _) (ofBuf_idx0 _)))

/-! ## Layer 1: the index words, the take, the sum -/

/-- The first stretch cuts layer 1's index words out of the index input. -/
theorem idxStretch1 (Z : Valuation τ sig (Elt F)) :
    StableHlo.after hostOps1 Z (Proc.devRef .tc main_v24) = Take.idx1 (Z (Proc.devRef .tc main_arg7) : IVec S2x100000x16 32) := by
  simp only [hostOps1]
  after_results_simp
  rfl

/-- The second stretch is the take, from the embeddings and the index words it finds. -/
theorem takeStretch1 (Y : Valuation τ sig (Elt F)) :
    StableHlo.after hostOps1_1 Y (Proc.devRef .tc main_v25)
      = (TRef.of main_v25 : TRef sig ⟨S100000x16x128, .f32⟩).toBuf
          (takeRowsF ((TRef.of main_v22 : TRef sig ⟨S100000x128, .f32⟩).ofBuf (Y (Proc.devRef .tc main_v22)))
            ((TRef.of main_v24 : TRef sig ⟨S100000x16, .i32⟩).ofBuf (Y (Proc.devRef .tc main_v24)))) := by
  simp only [hostOps1_1]
  after_results_simp
  simp only [ofBuf_toBuf]
  unfold takeRowsF Take.keepMask Take.wrapCol
  rfl

/-- The third stretch adds the taken rows over the 16 neighbours. -/
theorem sumStretch1 (X : Valuation τ sig (Elt F)) :
    StableHlo.after hostOps1_2 X (Proc.devRef .tc main_v26)
      = Host.reduceAdd (X (Proc.devRef .tc main_v25) : FVec F S100000x16x128 .f32) (constant (F := F) S_ .f32 0x00000000#32)
          Gen.reducesTo_S100000x16x128_S100000x128_d1 Gen.h_S_ := by
  simp only [hostOps1_2]
  after_results_simp

/-- The casts at the take's two inputs and at its output are identities. -/
theorem ofBuf_emb1 (v : FVec F S100000x128 .f32) :
    (TRef.of main_v22 : TRef sig ⟨S100000x128, .f32⟩).ofBuf (Val := Elt F) v = v := rfl
theorem ofBuf_idx1 (v : IVec S100000x16 32) :
    (TRef.of main_v24 : TRef sig ⟨S100000x16, .i32⟩).ofBuf (Val := Elt F) v = v := rfl
theorem toBuf_take1 (v : FVec F S100000x16x128 .f32) :
    ((TRef.of main_v25 : TRef sig ⟨S100000x16x128, .f32⟩).toBuf (Val := Elt F) v : FVec F S100000x16x128 .f32) = v := rfl

/-- The first stretch of layer 1 leaves the embeddings' buffer as it finds it. -/
theorem keepEmb1 (Z : Valuation τ sig (Elt F)) :
    StableHlo.after hostOps1 Z (Proc.devRef .tc main_v22) = Z (Proc.devRef .tc main_v22) := by
  simp only [hostOps1]
  after_results_simp

/-- The three stretches of layer 1 together: the neighbour sums from the embeddings and the index input they start from. -/
theorem nbrStretch1 (Z : Valuation τ sig (Elt F)) :
    StableHlo.after hostOps1_2 (StableHlo.after hostOps1_1 (StableHlo.after hostOps1 Z)) (Proc.devRef .tc main_v26)
      = Host.reduceAdd (takeRowsF (Z (Proc.devRef .tc main_v22) : FVec F S100000x128 .f32)
          (Take.idx1 (Z (Proc.devRef .tc main_arg7) : IVec S2x100000x16 32)))
        (constant (F := F) S_ .f32 0x00000000#32) Gen.reducesTo_S100000x16x128_S100000x128_d1 Gen.h_S_ := by
  rw [sumStretch1, takeStretch1, idxStretch1, keepEmb1]
  exact congrArg (fun t => Host.reduceAdd t (constant (F := F) S_ .f32 0x00000000#32)
      Gen.reducesTo_S100000x16x128_S100000x128_d1 Gen.h_S_)
    ((toBuf_take1 _).trans (congrArg₂ takeRowsF (ofBuf_emb1 _) (ofBuf_idx1 _)))

end Cert.KernelIdeal.Stretch

end
-- ==== Proof.LayerSpec.lean ====
/-
  One layer of the graph-sum embedding, and two of them, as functions on the extended reals.

  A node r has an embedding row o (128 entries), the sum nb of its neighbours' rows (128 entries), and the sums over its
  16 neighbours of the edge features and of the time features (32 entries each). The layer's hidden row is
      hid j = max (Σ_l nb l · W1[l, j] + Σ_l esum l · W1[128 + l, j] + Σ_l tsum l · W1[160 + l, j] + b1 j) 0,
  the three sums being the product of the row (nb | esum | tsum), 192 entries, with the 192 × 128 matrix W1, cut at 128
  and 160; the new embedding row is
      out h = Σ_l o l · W2[l, h] + Σ_l hid l · W2[128 + l, h] + b2 h,
  the product of the row (o | hid), 256 entries, with the 256 × 128 matrix W2, cut at 128.

  A sum over the 192 (or 256) joined coordinates is the sum of the sums over the pieces: addition on the extended reals
  is commutative and associative, nothing more is used.
-/
import Idealize.ShloMosaic.PureOps.Ideal
import Idealize.ShloMosaic.Lib.ValueIdx
import Mathlib.Algebra.BigOperators.Fin

noncomputable section

open scoped BigOperators

namespace Cert.GraphSum

open Idealize.ShloMosaic Idealize.ShloMosaic.ValueIdx

/-! ## One node's rows -/

/-- The hidden row of a node: the three partial products with the pieces of W1, the bias, and the positive part. -/
def hidden (nb : Fin 128 → EReal) (e tm : Fin 16 → Fin 32 → EReal)
    (wa : Fin 128 → Fin 128 → EReal) (wb wc : Fin 32 → Fin 128 → EReal) (b1 : Fin 128 → EReal) (j : Fin 128) : EReal :=
  max ((((∑ l : Fin 128, nb l * wa l j) + ∑ l : Fin 32, (∑ n : Fin 16, e n l) * wb l j)
    + ∑ l : Fin 32, (∑ n : Fin 16, tm n l) * wc l j) + b1 j) 0

/-- The new embedding row of a node: the two partial products with the halves of W2, and the bias. -/
def rowOut (o hid : Fin 128 → EReal) (va vb : Fin 128 → Fin 128 → EReal) (b2 : Fin 128 → EReal) (h : Fin 128) : EReal :=
  ((∑ l : Fin 128, o l * va l h) + ∑ l : Fin 128, hid l * vb l h) + b2 h

/-! ## The arrays -/

abbrev SNode : Shape := ⟨2, ![100000, 128]⟩
abbrev SFeat : Shape := ⟨4, ![2, 100000, 16, 32]⟩
abbrev SW1 : Shape := ⟨3, ![2, 192, 128]⟩
abbrev SW2 : Shape := ⟨3, ![2, 256, 128]⟩
abbrev SBias : Shape := ⟨2, ![2, 128]⟩

/-- Rows l, 128 + l and 160 + l of the 192 rows of W1, and rows l and 128 + l of the 256 rows of W2. -/
abbrev r192a (l : Fin 128) : Fin 192 := ⟨l.val, by omega⟩
abbrev r192b (l : Fin 32) : Fin 192 := ⟨128 + l.val, by omega⟩
abbrev r192c (l : Fin 32) : Fin 192 := ⟨160 + l.val, by omega⟩
abbrev r256a (l : Fin 128) : Fin 256 := ⟨l.val, by omega⟩
abbrev r256b (l : Fin 128) : Fin 256 := ⟨128 + l.val, by omega⟩

/-- The hidden row of node r in layer k, from the arrays. -/
def hiddenAt (k : Fin 2) (nb : SNode.Idx → EReal) (E T : SFeat.Idx → EReal) (W1 : SW1.Idx → EReal) (b1 : SBias.Idx → EReal)
    (r : Fin 100000) : Fin 128 → EReal :=
  hidden (fun l => nb (ix2 r l)) (fun n q => E (ix4 k r n q)) (fun n q => T (ix4 k r n q))
    (fun l j => W1 (ix3 k (r192a l) j)) (fun l j => W1 (ix3 k (r192b l) j)) (fun l j => W1 (ix3 k (r192c l) j))
    (fun j => b1 (ix2 k j))

/-- Layer k: the new embeddings from the old ones o, the neighbour sums nb, and the layer's slices of the inputs. -/
def layer (k : Fin 2) (o nb : SNode.Idx → EReal) (E T : SFeat.Idx → EReal) (W1 : SW1.Idx → EReal) (b1 : SBias.Idx → EReal)
    (W2 : SW2.Idx → EReal) (b2 : SBias.Idx → EReal) : SNode.Idx → EReal := fun i =>
  rowOut (fun l => o (ix2 (i 0) l)) (hiddenAt k nb E T W1 b1 (i 0))
    (fun l h => W2 (ix3 k (r256a l) h)) (fun l h => W2 (ix3 k (r256b l) h)) (fun h => b2 (ix2 k h)) (i 1)

/-- Two layers, the neighbour sums of each taken (by g0, then g1) from the embeddings the layer starts from. -/
def twoLayers (g0 g1 : (SNode.Idx → EReal) → SNode.Idx → EReal) (a0 : SNode.Idx → EReal) (E T : SFeat.Idx → EReal)
    (W1 : SW1.Idx → EReal) (b1 : SBias.Idx → EReal) (W2 : SW2.Idx → EReal) (b2 : SBias.Idx → EReal) : SNode.Idx → EReal :=
  layer 1 (layer 0 a0 (g0 a0) E T W1 b1 W2 b2) (g1 (layer 0 a0 (g0 a0) E T W1 b1 W2 b2)) E T W1 b1 W2 b2

/-! ## A sum over joined coordinates -/

/-- A sum over 192 = 128 + 32 + 32 coordinates is the sum of the three sums over the pieces. -/
theorem sum_192 (f : Fin 192 → EReal) :
    ∑ l : Fin 192, f l = ((∑ l : Fin 128, f (r192a l)) + ∑ l : Fin 32, f (r192b l)) + ∑ l : Fin 32, f (r192c l) := by
  have h1 := Fin.sum_univ_add (M := EReal) (a := 160) (b := 32) f
  have h2 := Fin.sum_univ_add (M := EReal) (a := 128) (b := 32) (fun l : Fin (128 + 32) => f (Fin.castAdd 32 l))
  rw [h1, h2]
  rfl

/-- A sum over 256 = 128 + 128 coordinates is the sum of the two sums over the halves. -/
theorem sum_256 (f : Fin 256 → EReal) :
    ∑ l : Fin 256, f l = (∑ l : Fin 128, f (r256a l)) + ∑ l : Fin 128, f (r256b l) := by
  have h1 := Fin.sum_univ_add (M := EReal) (a := 128) (b := 128) f
  rw [h1]
  rfl

end Cert.GraphSum

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.BodyRow.lean ====
/-
  The kernel body's result at one entry of its block.

  The body computes, for the 1000 nodes of its block at once, the two products of the layer. First the hidden rows: the
  neighbour-sum block times the first 128 rows of W1, plus the edge features summed over the 16 neighbours times the
  next 32 rows, plus the time features summed likewise times the last 32 rows, plus the bias row, and the maximum with
  zero. Then the new rows: the embedding block times the first 128 rows of W2, plus the hidden rows times the last 128,
  plus the bias row. At the ideal values a product into the zero accumulator read at (p, q) is the sum over the
  contracted coordinate, a sum over the neighbour axis read at (p, l) is the sum over n of the entry (p, n, l), the
  narrowing to the 16-bit format is the identity and a cast to the same shape changes nothing: so entry (p, q) is the
  layer's row function at row p of the blocks.
-/
import proofs.«429829_j21174188769660_2_alg».proof.Proof.Gen.KernelIdeal.Skeleton
import proofs.«429829_j21174188769660_2_alg».proof.Proof.LayerSpec
import proofs.«429829_j21174188769660_2_alg».proof.Proof.LibDenseLayer

noncomputable section

namespace Cert.KernelIdeal.Body

open Idealize.ShloMosaic Idealize.ShloMosaic.ValueIdx Cert.KernelIdeal Cert.KernelIdeal.Gen Cert.GraphSum
open Idealize.ShloMosaic.DenseLayer

/-- The second product of the layer at (p, q): row p of the two left blocks against column q of the two halves of W2,
    plus entry q of the bias. -/
theorem newRow_apply (A B : FVec Ideal S1000x128 .bf16) (x8 x9 : Vec Ideal S128x128 .f32) (x10 : Vec Ideal S128 .f32)
    (p : Fin 1000) (q : Fin 128) :
    k0_pay1 (F := Ideal) A B x8 x9 x10 (ix2 p q)
      = ((∑ l : Fin 128, A (ix2 p l) * x8 (ix2 l q)) + ∑ l : Fin 128, B (ix2 p l) * x9 (ix2 l q)) + x10 (ix1 q) := by
  unfold k0_pay1
  rw [shapeCast_self, shapeCast_self, shapeCast_self, addf_apply, addf_apply, bias_cast_apply]
  refine congrArg (· + x10 (ix1 q)) ?_
  refine congrArg₂ (· + ·) ?_ ?_
  · exact matmul_rows_apply dot_S1000x128_S128x128_S1000x128_1_0_0_1_n_n.wf none A (truncf .bf16 x8 bitsLt_bf16_f32) p q
  · exact matmul_rows_apply dot_S1000x128_S128x128_S1000x128_1_0_0_1_n_n.wf none B (truncf .bf16 x9 bitsLt_bf16_f32) p q

/-- The sum over the 16 neighbours of a 1000 × 16 × 32 block, read at (p, l): the inserted coordinate is the middle one. -/
theorem nbrSum_apply (x : Vec Ideal S1000x16x32 .f32) (p : Fin 1000) (l : Fin 32) :
    multiReduction (F := Ideal) .add [1] S1000x32 x 0x00000000#32 reduces_S1000x16x32_S1000x32 (.inl rfl) rfl (ix2 p l)
      = ∑ n : Fin 16, x (ix3 p n l) := by
  refine (Ideal.multiReduction_add_single x _ reduces_S1000x16x32_S1000x32 _ _ (ix2 p l)).trans ?_
  refine Finset.sum_congr rfl fun n _ => congrArg x ?_
  funext a; apply Fin.ext
  match a with
  | ⟨0, _⟩ => rfl
  | ⟨1, _⟩ => rfl
  | ⟨2, _⟩ => rfl

/-- The first product of the layer at (p, j): row p of (nb | esum | tsum) against column j of the three pieces of W1,
    plus entry j of the bias, and the positive part; the two feature sums are taken over the 16 neighbours first. -/
theorem hiddenRow_apply (x2 x3 : Vec Ideal S1000x16x32 .f32) (x0 : Vec Ideal S1000x128 .f32) (x4 : Vec Ideal S128x128 .f32)
    (x5 x6 : Vec Ideal S32x128 .f32) (x7 : Vec Ideal S128 .f32) (p : Fin 1000) (j : Fin 128) :
    k0_pay3 (F := Ideal) x2 x3 x0 x4 x5 x6 x7 (ix2 p j)
      = hidden (fun l => x0 (ix2 p l)) (fun n r => x2 (ix3 p n r)) (fun n r => x3 (ix3 p n r))
            (fun l j => x4 (ix2 l j)) (fun l j => x5 (ix2 l j)) (fun l j => x6 (ix2 l j)) (fun j => x7 (ix1 j)) j := by
  unfold k0_pay3
  rw [shapeCast_self, shapeCast_self, shapeCast_self, shapeCast_self, shapeCast_self, shapeCast_self, shapeCast_self]
  rw [truncf_apply, maximumf_apply, addf_apply, addf_apply, addf_apply, bias_cast_apply, broadcast_apply]
  unfold Cert.GraphSum.hidden
  refine congrArg₂ max (congrArg (· + x7 (ix1 j)) (congrArg₂ (· + ·) (congrArg₂ (· + ·) ?_ ?_) ?_)) Ideal.ofBits_zero_f32
  · exact matmul_rows_apply dot_S1000x128_S128x128_S1000x128_1_0_0_1_n_n.wf none (truncf .bf16 x0 bitsLt_bf16_f32)
      (truncf .bf16 x4 bitsLt_bf16_f32) p j
  · refine (matmul_rows_apply dot_S1000x32_S32x128_S1000x128_1_0_0_1_n_n.wf none _ (truncf .bf16 x5 bitsLt_bf16_f32) p j).trans ?_
    exact Finset.sum_congr rfl fun l _ => congrArg (· * x5 (ix2 l j)) (nbrSum_apply x2 p l)
  · refine (matmul_rows_apply dot_S1000x32_S32x128_S1000x128_1_0_0_1_n_n.wf none _ (truncf .bf16 x6 bitsLt_bf16_f32) p j).trans ?_
    exact Finset.sum_congr rfl fun l _ => congrArg (· * x6 (ix2 l j)) (nbrSum_apply x3 p l)

theorem body0_apply (x0 x1 : Vec Ideal S1000x128 .f32) (x2 x3 : Vec Ideal S1000x16x32 .f32) (x4 : Vec Ideal S128x128 .f32)
    (x5 x6 : Vec Ideal S32x128 .f32) (x7 : Vec Ideal S128 .f32) (x8 x9 : Vec Ideal S128x128 .f32) (x10 : Vec Ideal S128 .f32)
    (p : Fin 1000) (q : Fin 128) :
    k0_pay1 (F := Ideal) (k0_pay2 x1) (k0_pay3 x2 x3 x0 x4 x5 x6 x7) x8 x9 x10 (ix2 p q)
      = rowOut (fun l => x1 (ix2 p l))
          (hidden (fun l => x0 (ix2 p l)) (fun n r => x2 (ix3 p n r)) (fun n r => x3 (ix3 p n r))
            (fun l j => x4 (ix2 l j)) (fun l j => x5 (ix2 l j)) (fun l j => x6 (ix2 l j)) (fun j => x7 (ix1 j)))
          (fun l h => x8 (ix2 l h)) (fun l h => x9 (ix2 l h)) (fun h => x10 (ix1 h)) q := by
  -- the left block of the first sum is the narrowed embedding block, the identity entry by entry; the left block of
  -- the second sum is the hidden block, whose entry (p, l) is the hidden row of node p at l
  refine (newRow_apply _ _ x8 x9 x10 p q).trans ?_
  unfold Cert.GraphSum.rowOut
  refine congrArg (· + x10 (ix1 q)) (congrArg₂ (· + ·) rfl ?_)
  exact Finset.sum_congr rfl fun l _ => congrArg (· * x9 (ix2 l q)) (hiddenRow_apply x2 x3 x0 x4 x5 x6 x7 p l)

theorem body1_apply (x0 x1 : Vec Ideal S1000x128 .f32) (x2 x3 : Vec Ideal S1000x16x32 .f32) (x4 : Vec Ideal S128x128 .f32)
    (x5 x6 : Vec Ideal S32x128 .f32) (x7 : Vec Ideal S128 .f32) (x8 x9 : Vec Ideal S128x128 .f32) (x10 : Vec Ideal S128 .f32)
    (p : Fin 1000) (q : Fin 128) :
    k1_pay1 (F := Ideal) (k1_pay2 x1) (k1_pay3 x2 x3 x0 x4 x5 x6 x7) x8 x9 x10 (ix2 p q)
      = rowOut (fun l => x1 (ix2 p l))
          (hidden (fun l => x0 (ix2 p l)) (fun n r => x2 (ix3 p n r)) (fun n r => x3 (ix3 p n r))
            (fun l j => x4 (ix2 l j)) (fun l j => x5 (ix2 l j)) (fun l j => x6 (ix2 l j)) (fun j => x7 (ix1 j)))
          (fun l h => x8 (ix2 l h)) (fun l h => x9 (ix2 l h)) (fun h => x10 (ix1 h)) q := by
  -- the second body is the first one term for term, but for a cast of the embedding block to its own shape
  have h2 : k1_pay2 (F := Ideal) x1 = k0_pay2 x1 := by
    unfold k1_pay2 k0_pay2
    rw [shapeCast_self]
  rw [h2]
  exact body0_apply x0 x1 x2 x3 x4 x5 x6 x7 x8 x9 x10 p q

end Cert.KernelIdeal.Body

end
-- ==== Proof.Region0Value.lean ====
/-
  The first layer's kernel region: what its output array holds when the region ends.

  The region has 100 grid points. Point t reads rows 1000 t … 1000 t + 999 of the four row arrays (the neighbour sums, the
  embeddings, the edge and the time features) and the whole of the seven weight and bias arrays, and writes rows
  1000 t … 1000 t + 999 of the output. Entry (p, q) of the block it writes is the layer's row function at row p of the
  blocks it read, so entry (r, q) of the output array is the layer's row function at row r of the arrays the region found:
  the 100 blocks cover the array, block r / 1000 holding row r.
-/
import proofs.«429829_j21174188769660_2_alg».proof.Proof.Gen.KernelIdeal.Frame
import proofs.«429829_j21174188769660_2_alg».proof.Proof.BodyRow
import proofs.«429829_j21174188769660_2_alg».proof.Proof.LayerSpec
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region0

open Cert.KernelIdeal Cert.KernelIdeal.Gen Cert.GraphSum Idealize.ShloMosaic.ValueIdx

variable (V : (c : Dev nD) → (b : Ref sig .tc) → Buf (Elt Ideal) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The arrays the region finds -/

abbrev aNbr (c : Dev nD) : Vec Ideal S100000x128 .f32 := V c main_v3
abbrev aEmb (c : Dev nD) : Vec Ideal S100000x128 .f32 := V c main_arg0
abbrev aEdge (c : Dev nD) : Vec Ideal S100000x16x32 .f32 := V c main_v19
abbrev aTime (c : Dev nD) : Vec Ideal S100000x16x32 .f32 := V c main_v21
abbrev aW1a (c : Dev nD) : Vec Ideal S128x128 .f32 := V c main_v5
abbrev aW1b (c : Dev nD) : Vec Ideal S32x128 .f32 := V c main_v7
abbrev aW1c (c : Dev nD) : Vec Ideal S32x128 .f32 := V c main_v9
abbrev aB1 (c : Dev nD) : Vec Ideal S128 .f32 := V c main_v11
abbrev aW2a (c : Dev nD) : Vec Ideal S128x128 .f32 := V c main_v13
abbrev aW2b (c : Dev nD) : Vec Ideal S128x128 .f32 := V c main_v15
abbrev aB2 (c : Dev nD) : Vec Ideal S128 .f32 := V c main_v17

/-- Row r of the output: the layer's row function at row r of the arrays. -/
def rowFn (c : Dev nD) (r : Fin 100000) (q : Fin 128) : EReal :=
  rowOut (fun l => aEmb V c (ix2 r l))
    (hidden (fun l => aNbr V c (ix2 r l)) (fun n s => aEdge V c (ix3 r n s)) (fun n s => aTime V c (ix3 r n s))
      (fun l j => aW1a V c (ix2 l j)) (fun l j => aW1b V c (ix2 l j)) (fun l j => aW1c V c (ix2 l j)) (fun j => aB1 V c (ix1 j)))
    (fun l h => aW2a V c (ix2 l h)) (fun l h => aW2b V c (ix2 l h)) (fun h => aB2 V c (ix1 h)) q

/-- The output array as one function of the arrays the region finds. -/
def G (c : Dev nD) : Vec Ideal S100000x128 .f32 := fun i => rowFn V c (i 0) (i 1)

/-! ## The blocks -/

/-- Row p of block t is row 1000 t + p of the array. -/
abbrev rowAt (t : Fin cfg0.N) (p : Fin 1000) : Fin 100000 :=
  ⟨t.val * 1000 + p.val, by have h : t.val < 100 := lt_of_lt_of_eq t.isLt N_0; omega⟩

/-- The printed index maps, decided over the grid: a row window's block index is (t, 0, …), a weight window's is 0. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 1) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 1) = 0)
    ∧ (win0_11.index t (0 : Fin 2) = t.val ∧ win0_11.index t (1 : Fin 2) = 0) :=
  (by decide +kernel : ∀ t : Fin grid0.N, _)

theorem read_nbr (c : Dev nD) (t : Fin cfg0.N) (p : Fin 1000) (l : Fin 128) :
    (iblk0 V c 0 t : Vec Ideal S1000x128 .f32) (ix2 p l) = aNbr V c (ix2 (rowAt t p) l) := by
  obtain ⟨⟨e0, e1⟩, -⟩ := idx_facts t
  unfold iblk0
  rw [View.read_apply]
  show V c main_v3 _ = V c main_v3 _
  refine congrArg (V c main_v3) ?_
  funext a
  apply Fin.ext
  match a with
  | ⟨0, _⟩ => show win0_0.index t 0 * 1000 + 1 * p.val = t.val * 1000 + p.val; rw [e0]; omega
  | ⟨1, _⟩ => show win0_0.index t 1 * 128 + 1 * l.val = l.val; rw [e1]; omega

theorem read_emb (c : Dev nD) (t : Fin cfg0.N) (p : Fin 1000) (l : Fin 128) :
    (iblk0 V c 1 t : Vec Ideal S1000x128 .f32) (ix2 p l) = aEmb V c (ix2 (rowAt t p) l) := by
  obtain ⟨-, ⟨e0, e1⟩, -⟩ := idx_facts t
  unfold iblk0
  rw [View.read_apply]
  show V c main_arg0 _ = V c main_arg0 _
  refine congrArg (V c main_arg0) ?_
  funext a
  apply Fin.ext
  match a with
  | ⟨0, _⟩ => show win0_1.index t 0 * 1000 + 1 * p.val = t.val * 1000 + p.val; rw [e0]; omega
  | ⟨1, _⟩ => show win0_1.index t 1 * 128 + 1 * l.val = l.val; rw [e1]; omega

theorem read_edge (c : Dev nD) (t : Fin cfg0.N) (p : Fin 1000) (n : Fin 16) (s : Fin 32) :
    (iblk0 V c 2 t : Vec Ideal S1000x16x32 .f32) (ix3 p n s) = aEdge V c (ix3 (rowAt t p) n s) := by
  obtain ⟨-, -, ⟨e0, e1, e2⟩, -⟩ := idx_facts t
  unfold iblk0
  rw [View.read_apply]
  show V c main_v19 _ = V c main_v19 _
  refine congrArg (V c main_v19) ?_
  funext a
  apply Fin.ext
  match a with
  | ⟨0, _⟩ => show win0_2.index t 0 * 1000 + 1 * p.val = t.val * 1000 + p.val; rw [e0]; omega
  | ⟨1, _⟩ => show win0_2.index t 1 * 16 + 1 * n.val = n.val; rw [e1]; omega
  | ⟨2, _⟩ => show win0_2.index t 2 * 32 + 1 * s.val = s.val; rw [e2]; omega

theorem read_time (c : Dev nD) (t : Fin cfg0.N) (p : Fin 1000) (n : Fin 16) (s : Fin 32) :
    (iblk0 V c 3 t : Vec Ideal S1000x16x32 .f32) (ix3 p n s) = aTime V c (ix3 (rowAt t p) n s) := by
  obtain ⟨-, -, -, ⟨e0, e1, e2⟩, -⟩ := idx_facts t
  unfold iblk0
  rw [View.read_apply]
  show V c main_v21 _ = V c main_v21 _
  refine congrArg (V c main_v21) ?_
  funext a
  apply Fin.ext
  match a with
  | ⟨0, _⟩ => show win0_3.index t 0 * 1000 + 1 * p.val = t.val * 1000 + p.val; rw [e0]; omega
  | ⟨1, _⟩ => show win0_3.index t 1 * 16 + 1 * n.val = n.val; rw [e1]; omega
  | ⟨2, _⟩ => show win0_3.index t 2 * 32 + 1 * s.val = s.val; rw [e2]; omega

theorem read_w1a (c : Dev nD) (t : Fin cfg0.N) (l j : Fin 128) :
    (iblk0 V c 4 t : Vec Ideal S128x128 .f32) (ix2 l j) = aW1a V c (ix2 l j) := by
  obtain ⟨-, -, -, -, ⟨e0, e1⟩, -⟩ := idx_facts t
  unfold iblk0
  rw [View.read_apply]
  show V c main_v5 _ = V c main_v5 _
  refine congrArg (V c main_v5) ?_
  funext a
  apply Fin.ext
  match a with
  | ⟨0, _⟩ => show win0_4.index t 0 * 128 + 1 * l.val = l.val; rw [e0]; omega
  | ⟨1, _⟩ => show win0_4.index t 1 * 128 + 1 * j.val = j.val; rw [e1]; omega

theorem read_w1b (c : Dev nD) (t : Fin cfg0.N) (l : Fin 32) (j : Fin 128) :
    (iblk0 V c 5 t : Vec Ideal S32x128 .f32) (ix2 l j) = aW1b V c (ix2 l j) := by
  obtain ⟨-, -, -, -, -, ⟨e0, e1⟩, -⟩ := idx_facts t
  unfold iblk0
  rw [View.read_apply]
  show V c main_v7 _ = V c main_v7 _
  refine congrArg (V c main_v7) ?_
  funext a
  apply Fin.ext
  match a with
  | ⟨0, _⟩ => show win0_5.index t 0 * 32 + 1 * l.val = l.val; rw [e0]; omega
  | ⟨1, _⟩ => show win0_5.index t 1 * 128 + 1 * j.val = j.val; rw [e1]; omega

theorem read_w1c (c : Dev nD) (t : Fin cfg0.N) (l : Fin 32) (j : Fin 128) :
    (iblk0 V c 6 t : Vec Ideal S32x128 .f32) (ix2 l j) = aW1c V c (ix2 l j) := by
  obtain ⟨-, -, -, -, -, -, ⟨e0, e1⟩, -⟩ := idx_facts t
  unfold iblk0
  rw [View.read_apply]
  show V c main_v9 _ = V c main_v9 _
  refine congrArg (V c main_v9) ?_
  funext a
  apply Fin.ext
  match a with
  | ⟨0, _⟩ => show win0_6.index t 0 * 32 + 1 * l.val = l.val; rw [e0]; omega
  | ⟨1, _⟩ => show win0_6.index t 1 * 128 + 1 * j.val = j.val; rw [e1]; omega

theorem read_b1 (c : Dev nD) (t : Fin cfg0.N) (j : Fin 128) :
    (iblk0 V c 7 t : Vec Ideal S128 .f32) (ix1 j) = aB1 V c (ix1 j) := by
  obtain ⟨-, -, -, -, -, -, -, e0, -⟩ := idx_facts t
  unfold iblk0
  rw [View.read_apply]
  show V c main_v11 _ = V c main_v11 _
  refine congrArg (V c main_v11) ?_
  funext a
  apply Fin.ext
  match a with
  | ⟨0, _⟩ => show win0_7.index t 0 * 128 + 1 * j.val = j.val; rw [e0]; omega

theorem read_w2a (c : Dev nD) (t : Fin cfg0.N) (l h : Fin 128) :
    (iblk0 V c 8 t : Vec Ideal S128x128 .f32) (ix2 l h) = aW2a V c (ix2 l h) := by
  obtain ⟨-, -, -, -, -, -, -, -, ⟨e0, e1⟩, -⟩ := idx_facts t
  unfold iblk0
  rw [View.read_apply]
  show V c main_v13 _ = V c main_v13 _
  refine congrArg (V c main_v13) ?_
  funext a
  apply Fin.ext
  match a with
  | ⟨0, _⟩ => show win0_8.index t 0 * 128 + 1 * l.val = l.val; rw [e0]; omega
  | ⟨1, _⟩ => show win0_8.index t 1 * 128 + 1 * h.val = h.val; rw [e1]; omega

theorem read_w2b (c : Dev nD) (t : Fin cfg0.N) (l h : Fin 128) :
    (iblk0 V c 9 t : Vec Ideal S128x128 .f32) (ix2 l h) = aW2b V c (ix2 l h) := by
  obtain ⟨-, -, -, -, -, -, -, -, -, ⟨e0, e1⟩, -⟩ := idx_facts t
  unfold iblk0
  rw [View.read_apply]
  show V c main_v15 _ = V c main_v15 _
  refine congrArg (V c main_v15) ?_
  funext a
  apply Fin.ext
  match a with
  | ⟨0, _⟩ => show win0_9.index t 0 * 128 + 1 * l.val = l.val; rw [e0]; omega
  | ⟨1, _⟩ => show win0_9.index t 1 * 128 + 1 * h.val = h.val; rw [e1]; omega

theorem read_b2 (c : Dev nD) (t : Fin cfg0.N) (h : Fin 128) :
    (iblk0 V c 10 t : Vec Ideal S128 .f32) (ix1 h) = aB2 V c (ix1 h) := by
  obtain ⟨-, -, -, -, -, -, -, -, -, -, e0, -⟩ := idx_facts t
  unfold iblk0
  rw [View.read_apply]
  show V c main_v17 _ = V c main_v17 _
  refine congrArg (V c main_v17) ?_
  funext a
  apply Fin.ext
  match a with
  | ⟨0, _⟩ => show win0_10.index t 0 * 128 + 1 * h.val = h.val; rw [e0]; omega

/-! ## What a point writes back, and the array -/

/-- What point t writes back is block t of the one function G of the arrays the region found. -/
theorem flushed_eq (c : Dev nD) (t : Fin cfg0.N) :
    (dat0 V c).flushed 11 t = ((cfg0.win 11).blk t).view.read (Elt Ideal) (G V c) := by
  obtain ⟨-, -, -, -, -, -, -, -, -, -, -, ⟨e0, e1⟩⟩ := idx_facts t
  show (cfg0.win 11).cut (grid0.coords t) ((dat0 V c).after 11 t) = _
  rw [after0_11]
  unfold out0_11
  rw [View.canon_unit_zero hz2]
  simp only [View.ld_unit_zero (S := S1000x128) hz2, View.ld_unit_zero (S := S1000x16x32) hz3,
    View.ld_unit_zero (S := S128x128) hz2, View.ld_unit_zero (S := S32x128) hz2, View.ld_unit_zero (S := S128) hz1]
  funext j
  obtain ⟨p, q, rfl⟩ : ∃ (p : Fin 1000) (q : Fin 128), j = ix2 p q := ⟨j 0, j 1, eq_ix2 j⟩
  -- entry (p, q) of the block the body leaves is the row function at row p of the blocks it read
  refine (Cert.KernelIdeal.Body.body0_apply (iblk0 V c 0 t) (iblk0 V c 1 t) (iblk0 V c 2 t) (iblk0 V c 3 t) (iblk0 V c 4 t)
    (iblk0 V c 5 t) (iblk0 V c 6 t) (iblk0 V c 7 t) (iblk0 V c 8 t) (iblk0 V c 9 t) (iblk0 V c 10 t) p q).trans ?_
  -- entry (p, q) of block t of the output is entry (1000 t + p, q) of the array
  have hemb : ((cfg0.win 11).blk t).view.emb (ix2 p q) = ix2 (rowAt t p) q := by
    funext a
    apply Fin.ext
    match a with
    | ⟨0, _⟩ => show win0_11.index t 0 * 1000 + 1 * p.val = t.val * 1000 + p.val; rw [e0]; omega
    | ⟨1, _⟩ => show win0_11.index t 1 * 128 + 1 * q.val = q.val; rw [e1]; omega
  rw [View.read_apply, hemb]
  show _ = G V c (ix2 (rowAt t p) q)
  -- row p of each row block is row 1000 t + p of its array; each weight block is its whole array
  rw [funext (read_emb V c t p), funext (read_nbr V c t p),
    funext fun n => funext fun r => read_edge V c t p n r, funext fun n => funext fun r => read_time V c t p n r,
    funext fun l => funext fun j => read_w1a V c t l j, funext fun l => funext fun j => read_w1b V c t l j,
    funext fun l => funext fun j => read_w1c V c t l j, funext (read_b1 V c t),
    funext fun l => funext fun h => read_w2a V c t l h, funext fun l => funext fun h => read_w2b V c t l h,
    funext (read_b2 V c t)]
  rfl

/-- Every entry of the output array is in some point's block: row r in block r / 1000. -/
theorem covered (i : S100000x128.Idx) :
    ∃ t : Fin cfg0.N, (cfg0.win 11).flush t = true ∧ i ∈ ((cfg0.win 11).blk t).view.set := by
  have hi0 : (i 0).val < 100000 := (i 0).isLt
  have hi1 : (i 1).val < 128 := (i 1).isLt
  have ht : (i 0).val / 1000 < cfg0.N := lt_of_lt_of_eq (by omega : (i 0).val / 1000 < 100) N_0.symm
  obtain ⟨-, -, -, -, -, -, -, -, -, -, -, ⟨e0, e1⟩⟩ := idx_facts ⟨(i 0).val / 1000, ht⟩
  refine ⟨⟨(i 0).val / 1000, ht⟩, flush0_11 _, ?_⟩
  show i ∈ ((View.whole main_v22).slice (win0_11.rect ⟨(i 0).val / 1000, ht⟩)).set
  rw [View.set_slice_whole, Rect.mem_set_unit]
  intro a
  match a with
  | ⟨0, _⟩ =>
    show win0_11.index ⟨(i 0).val / 1000, ht⟩ 0 * 1000 ≤ (i 0).val
      ∧ (i 0).val < win0_11.index ⟨(i 0).val / 1000, ht⟩ 0 * 1000 + 1000
    rw [e0]
    show (i 0).val / 1000 * 1000 ≤ (i 0).val ∧ (i 0).val < (i 0).val / 1000 * 1000 + 1000
    omega
  | ⟨1, _⟩ =>
    show win0_11.index ⟨(i 0).val / 1000, ht⟩ 1 * 128 ≤ (i 1).val
      ∧ (i 1).val < win0_11.index ⟨(i 0).val / 1000, ht⟩ 1 * 128 + 128
    rw [e1]
    omega

/-- The output array when the region ends. -/
theorem arr_eq (c : Dev nD) : (dat0 V c).arrAt 11 cfg0.N = G V c :=
  (dat0 V c).arrAt_eq_of_cover 11 (G V c) (fun t _ => flushed_eq V c t) covered

end Cert.KernelIdeal.Region0

end
-- ==== Proof.Region1Value.lean ====
/-
  The second layer's kernel region: what its output array holds when the region ends.

  The region has 100 grid points. Point t reads rows 1000 t … 1000 t + 999 of the four row arrays (the neighbour sums, the
  embeddings, the edge and the time features) and the whole of the seven weight and bias arrays, and writes rows
  1000 t … 1000 t + 999 of the output. Entry (p, q) of the block it writes is the layer's row function at row p of the
  blocks it read, so entry (r, q) of the output array is the layer's row function at row r of the arrays the region found:
  the 100 blocks cover the array, block r / 1000 holding row r.
-/
import proofs.«429829_j21174188769660_2_alg».proof.Proof.Gen.KernelIdeal.Frame
import proofs.«429829_j21174188769660_2_alg».proof.Proof.BodyRow
import proofs.«429829_j21174188769660_2_alg».proof.Proof.LayerSpec
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region1

open Cert.KernelIdeal Cert.KernelIdeal.Gen Cert.GraphSum Idealize.ShloMosaic.ValueIdx

variable (V : (c : Dev nD) → (b : Ref sig .tc) → Buf (Elt Ideal) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The arrays the region finds -/

abbrev aNbr (c : Dev nD) : Vec Ideal S100000x128 .f32 := V c main_v26
abbrev aEmb (c : Dev nD) : Vec Ideal S100000x128 .f32 := V c main_v22
abbrev aEdge (c : Dev nD) : Vec Ideal S100000x16x32 .f32 := V c main_v42
abbrev aTime (c : Dev nD) : Vec Ideal S100000x16x32 .f32 := V c main_v44
abbrev aW1a (c : Dev nD) : Vec Ideal S128x128 .f32 := V c main_v28
abbrev aW1b (c : Dev nD) : Vec Ideal S32x128 .f32 := V c main_v30
abbrev aW1c (c : Dev nD) : Vec Ideal S32x128 .f32 := V c main_v32
abbrev aB1 (c : Dev nD) : Vec Ideal S128 .f32 := V c main_v34
abbrev aW2a (c : Dev nD) : Vec Ideal S128x128 .f32 := V c main_v36
abbrev aW2b (c : Dev nD) : Vec Ideal S128x128 .f32 := V c main_v38
abbrev aB2 (c : Dev nD) : Vec Ideal S128 .f32 := V c main_v40

/-- Row r of the output: the layer's row function at row r of the arrays. -/
def rowFn (c : Dev nD) (r : Fin 100000) (q : Fin 128) : EReal :=
  rowOut (fun l => aEmb V c (ix2 r l))
    (hidden (fun l => aNbr V c (ix2 r l)) (fun n s => aEdge V c (ix3 r n s)) (fun n s => aTime V c (ix3 r n s))
      (fun l j => aW1a V c (ix2 l j)) (fun l j => aW1b V c (ix2 l j)) (fun l j => aW1c V c (ix2 l j)) (fun j => aB1 V c (ix1 j)))
    (fun l h => aW2a V c (ix2 l h)) (fun l h => aW2b V c (ix2 l h)) (fun h => aB2 V c (ix1 h)) q

/-- The output array as one function of the arrays the region finds. -/
def G (c : Dev nD) : Vec Ideal S100000x128 .f32 := fun i => rowFn V c (i 0) (i 1)

/-! ## The blocks -/

/-- Row p of block t is row 1000 t + p of the array. -/
abbrev rowAt (t : Fin cfg1.N) (p : Fin 1000) : Fin 100000 :=
  ⟨t.val * 1000 + p.val, by have h : t.val < 100 := lt_of_lt_of_eq t.isLt N_1; omega⟩

/-- The printed index maps, decided over the grid: a row window's block index is (t, 0, …), a weight window's is 0. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 1) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 1) = 0)
    ∧ (win1_11.index t (0 : Fin 2) = t.val ∧ win1_11.index t (1 : Fin 2) = 0) :=
  (by decide +kernel : ∀ t : Fin grid1.N, _)

theorem read_nbr (c : Dev nD) (t : Fin cfg1.N) (p : Fin 1000) (l : Fin 128) :
    (iblk1 V c 0 t : Vec Ideal S1000x128 .f32) (ix2 p l) = aNbr V c (ix2 (rowAt t p) l) := by
  obtain ⟨⟨e0, e1⟩, -⟩ := idx_facts t
  unfold iblk1
  rw [View.read_apply]
  show V c main_v26 _ = V c main_v26 _
  refine congrArg (V c main_v26) ?_
  funext a
  apply Fin.ext
  match a with
  | ⟨0, _⟩ => show win1_0.index t 0 * 1000 + 1 * p.val = t.val * 1000 + p.val; rw [e0]; omega
  | ⟨1, _⟩ => show win1_0.index t 1 * 128 + 1 * l.val = l.val; rw [e1]; omega

theorem read_emb (c : Dev nD) (t : Fin cfg1.N) (p : Fin 1000) (l : Fin 128) :
    (iblk1 V c 1 t : Vec Ideal S1000x128 .f32) (ix2 p l) = aEmb V c (ix2 (rowAt t p) l) := by
  obtain ⟨-, ⟨e0, e1⟩, -⟩ := idx_facts t
  unfold iblk1
  rw [View.read_apply]
  show V c main_v22 _ = V c main_v22 _
  refine congrArg (V c main_v22) ?_
  funext a
  apply Fin.ext
  match a with
  | ⟨0, _⟩ => show win1_1.index t 0 * 1000 + 1 * p.val = t.val * 1000 + p.val; rw [e0]; omega
  | ⟨1, _⟩ => show win1_1.index t 1 * 128 + 1 * l.val = l.val; rw [e1]; omega

theorem read_edge (c : Dev nD) (t : Fin cfg1.N) (p : Fin 1000) (n : Fin 16) (s : Fin 32) :
    (iblk1 V c 2 t : Vec Ideal S1000x16x32 .f32) (ix3 p n s) = aEdge V c (ix3 (rowAt t p) n s) := by
  obtain ⟨-, -, ⟨e0, e1, e2⟩, -⟩ := idx_facts t
  unfold iblk1
  rw [View.read_apply]
  show V c main_v42 _ = V c main_v42 _
  refine congrArg (V c main_v42) ?_
  funext a
  apply Fin.ext
  match a with
  | ⟨0, _⟩ => show win1_2.index t 0 * 1000 + 1 * p.val = t.val * 1000 + p.val; rw [e0]; omega
  | ⟨1, _⟩ => show win1_2.index t 1 * 16 + 1 * n.val = n.val; rw [e1]; omega
  | ⟨2, _⟩ => show win1_2.index t 2 * 32 + 1 * s.val = s.val; rw [e2]; omega

theorem read_time (c : Dev nD) (t : Fin cfg1.N) (p : Fin 1000) (n : Fin 16) (s : Fin 32) :
    (iblk1 V c 3 t : Vec Ideal S1000x16x32 .f32) (ix3 p n s) = aTime V c (ix3 (rowAt t p) n s) := by
  obtain ⟨-, -, -, ⟨e0, e1, e2⟩, -⟩ := idx_facts t
  unfold iblk1
  rw [View.read_apply]
  show V c main_v44 _ = V c main_v44 _
  refine congrArg (V c main_v44) ?_
  funext a
  apply Fin.ext
  match a with
  | ⟨0, _⟩ => show win1_3.index t 0 * 1000 + 1 * p.val = t.val * 1000 + p.val; rw [e0]; omega
  | ⟨1, _⟩ => show win1_3.index t 1 * 16 + 1 * n.val = n.val; rw [e1]; omega
  | ⟨2, _⟩ => show win1_3.index t 2 * 32 + 1 * s.val = s.val; rw [e2]; omega

theorem read_w1a (c : Dev nD) (t : Fin cfg1.N) (l j : Fin 128) :
    (iblk1 V c 4 t : Vec Ideal S128x128 .f32) (ix2 l j) = aW1a V c (ix2 l j) := by
  obtain ⟨-, -, -, -, ⟨e0, e1⟩, -⟩ := idx_facts t
  unfold iblk1
  rw [View.read_apply]
  show V c main_v28 _ = V c main_v28 _
  refine congrArg (V c main_v28) ?_
  funext a
  apply Fin.ext
  match a with
  | ⟨0, _⟩ => show win1_4.index t 0 * 128 + 1 * l.val = l.val; rw [e0]; omega
  | ⟨1, _⟩ => show win1_4.index t 1 * 128 + 1 * j.val = j.val; rw [e1]; omega

theorem read_w1b (c : Dev nD) (t : Fin cfg1.N) (l : Fin 32) (j : Fin 128) :
    (iblk1 V c 5 t : Vec Ideal S32x128 .f32) (ix2 l j) = aW1b V c (ix2 l j) := by
  obtain ⟨-, -, -, -, -, ⟨e0, e1⟩, -⟩ := idx_facts t
  unfold iblk1
  rw [View.read_apply]
  show V c main_v30 _ = V c main_v30 _
  refine congrArg (V c main_v30) ?_
  funext a
  apply Fin.ext
  match a with
  | ⟨0, _⟩ => show win1_5.index t 0 * 32 + 1 * l.val = l.val; rw [e0]; omega
  | ⟨1, _⟩ => show win1_5.index t 1 * 128 + 1 * j.val = j.val; rw [e1]; omega

theorem read_w1c (c : Dev nD) (t : Fin cfg1.N) (l : Fin 32) (j : Fin 128) :
    (iblk1 V c 6 t : Vec Ideal S32x128 .f32) (ix2 l j) = aW1c V c (ix2 l j) := by
  obtain ⟨-, -, -, -, -, -, ⟨e0, e1⟩, -⟩ := idx_facts t
  unfold iblk1
  rw [View.read_apply]
  show V c main_v32 _ = V c main_v32 _
  refine congrArg (V c main_v32) ?_
  funext a
  apply Fin.ext
  match a with
  | ⟨0, _⟩ => show win1_6.index t 0 * 32 + 1 * l.val = l.val; rw [e0]; omega
  | ⟨1, _⟩ => show win1_6.index t 1 * 128 + 1 * j.val = j.val; rw [e1]; omega

theorem read_b1 (c : Dev nD) (t : Fin cfg1.N) (j : Fin 128) :
    (iblk1 V c 7 t : Vec Ideal S128 .f32) (ix1 j) = aB1 V c (ix1 j) := by
  obtain ⟨-, -, -, -, -, -, -, e0, -⟩ := idx_facts t
  unfold iblk1
  rw [View.read_apply]
  show V c main_v34 _ = V c main_v34 _
  refine congrArg (V c main_v34) ?_
  funext a
  apply Fin.ext
  match a with
  | ⟨0, _⟩ => show win1_7.index t 0 * 128 + 1 * j.val = j.val; rw [e0]; omega

theorem read_w2a (c : Dev nD) (t : Fin cfg1.N) (l h : Fin 128) :
    (iblk1 V c 8 t : Vec Ideal S128x128 .f32) (ix2 l h) = aW2a V c (ix2 l h) := by
  obtain ⟨-, -, -, -, -, -, -, -, ⟨e0, e1⟩, -⟩ := idx_facts t
  unfold iblk1
  rw [View.read_apply]
  show V c main_v36 _ = V c main_v36 _
  refine congrArg (V c main_v36) ?_
  funext a
  apply Fin.ext
  match a with
  | ⟨0, _⟩ => show win1_8.index t 0 * 128 + 1 * l.val = l.val; rw [e0]; omega
  | ⟨1, _⟩ => show win1_8.index t 1 * 128 + 1 * h.val = h.val; rw [e1]; omega

theorem read_w2b (c : Dev nD) (t : Fin cfg1.N) (l h : Fin 128) :
    (iblk1 V c 9 t : Vec Ideal S128x128 .f32) (ix2 l h) = aW2b V c (ix2 l h) := by
  obtain ⟨-, -, -, -, -, -, -, -, -, ⟨e0, e1⟩, -⟩ := idx_facts t
  unfold iblk1
  rw [View.read_apply]
  show V c main_v38 _ = V c main_v38 _
  refine congrArg (V c main_v38) ?_
  funext a
  apply Fin.ext
  match a with
  | ⟨0, _⟩ => show win1_9.index t 0 * 128 + 1 * l.val = l.val; rw [e0]; omega
  | ⟨1, _⟩ => show win1_9.index t 1 * 128 + 1 * h.val = h.val; rw [e1]; omega

theorem read_b2 (c : Dev nD) (t : Fin cfg1.N) (h : Fin 128) :
    (iblk1 V c 10 t : Vec Ideal S128 .f32) (ix1 h) = aB2 V c (ix1 h) := by
  obtain ⟨-, -, -, -, -, -, -, -, -, -, e0, -⟩ := idx_facts t
  unfold iblk1
  rw [View.read_apply]
  show V c main_v40 _ = V c main_v40 _
  refine congrArg (V c main_v40) ?_
  funext a
  apply Fin.ext
  match a with
  | ⟨0, _⟩ => show win1_10.index t 0 * 128 + 1 * h.val = h.val; rw [e0]; omega

/-! ## What a point writes back, and the array -/

/-- What point t writes back is block t of the one function G of the arrays the region found. -/
theorem flushed_eq (c : Dev nD) (t : Fin cfg1.N) :
    (dat1 V c).flushed 11 t = ((cfg1.win 11).blk t).view.read (Elt Ideal) (G V c) := by
  obtain ⟨-, -, -, -, -, -, -, -, -, -, -, ⟨e0, e1⟩⟩ := idx_facts t
  show (cfg1.win 11).cut (grid1.coords t) ((dat1 V c).after 11 t) = _
  rw [after1_11]
  unfold out1_11
  rw [View.canon_unit_zero hz2]
  simp only [View.ld_unit_zero (S := S1000x128) hz2, View.ld_unit_zero (S := S1000x16x32) hz3,
    View.ld_unit_zero (S := S128x128) hz2, View.ld_unit_zero (S := S32x128) hz2, View.ld_unit_zero (S := S128) hz1]
  funext j
  obtain ⟨p, q, rfl⟩ : ∃ (p : Fin 1000) (q : Fin 128), j = ix2 p q := ⟨j 0, j 1, eq_ix2 j⟩
  -- entry (p, q) of the block the body leaves is the row function at row p of the blocks it read
  refine (Cert.KernelIdeal.Body.body1_apply (iblk1 V c 0 t) (iblk1 V c 1 t) (iblk1 V c 2 t) (iblk1 V c 3 t) (iblk1 V c 4 t)
    (iblk1 V c 5 t) (iblk1 V c 6 t) (iblk1 V c 7 t) (iblk1 V c 8 t) (iblk1 V c 9 t) (iblk1 V c 10 t) p q).trans ?_
  -- entry (p, q) of block t of the output is entry (1000 t + p, q) of the array
  have hemb : ((cfg1.win 11).blk t).view.emb (ix2 p q) = ix2 (rowAt t p) q := by
    funext a
    apply Fin.ext
    match a with
    | ⟨0, _⟩ => show win1_11.index t 0 * 1000 + 1 * p.val = t.val * 1000 + p.val; rw [e0]; omega
    | ⟨1, _⟩ => show win1_11.index t 1 * 128 + 1 * q.val = q.val; rw [e1]; omega
  rw [View.read_apply, hemb]
  show _ = G V c (ix2 (rowAt t p) q)
  -- row p of each row block is row 1000 t + p of its array; each weight block is its whole array
  rw [funext (read_emb V c t p), funext (read_nbr V c t p),
    funext fun n => funext fun r => read_edge V c t p n r, funext fun n => funext fun r => read_time V c t p n r,
    funext fun l => funext fun j => read_w1a V c t l j, funext fun l => funext fun j => read_w1b V c t l j,
    funext fun l => funext fun j => read_w1c V c t l j, funext (read_b1 V c t),
    funext fun l => funext fun h => read_w2a V c t l h, funext fun l => funext fun h => read_w2b V c t l h,
    funext (read_b2 V c t)]
  rfl

/-- Every entry of the output array is in some point's block: row r in block r / 1000. -/
theorem covered (i : S100000x128.Idx) :
    ∃ t : Fin cfg1.N, (cfg1.win 11).flush t = true ∧ i ∈ ((cfg1.win 11).blk t).view.set := by
  have hi0 : (i 0).val < 100000 := (i 0).isLt
  have hi1 : (i 1).val < 128 := (i 1).isLt
  have ht : (i 0).val / 1000 < cfg1.N := lt_of_lt_of_eq (by omega : (i 0).val / 1000 < 100) N_1.symm
  obtain ⟨-, -, -, -, -, -, -, -, -, -, -, ⟨e0, e1⟩⟩ := idx_facts ⟨(i 0).val / 1000, ht⟩
  refine ⟨⟨(i 0).val / 1000, ht⟩, flush1_11 _, ?_⟩
  show i ∈ ((View.whole main_v45).slice (win1_11.rect ⟨(i 0).val / 1000, ht⟩)).set
  rw [View.set_slice_whole, Rect.mem_set_unit]
  intro a
  match a with
  | ⟨0, _⟩ =>
    show win1_11.index ⟨(i 0).val / 1000, ht⟩ 0 * 1000 ≤ (i 0).val
      ∧ (i 0).val < win1_11.index ⟨(i 0).val / 1000, ht⟩ 0 * 1000 + 1000
    rw [e0]
    show (i 0).val / 1000 * 1000 ≤ (i 0).val ∧ (i 0).val < (i 0).val / 1000 * 1000 + 1000
    omega
  | ⟨1, _⟩ =>
    show win1_11.index ⟨(i 0).val / 1000, ht⟩ 1 * 128 ≤ (i 1).val
      ∧ (i 1).val < win1_11.index ⟨(i 0).val / 1000, ht⟩ 1 * 128 + 128
    rw [e1]
    omega

/-- The output array when the region ends. -/
theorem arr_eq (c : Dev nD) : (dat1 V c).arrAt 11 cfg1.N = G V c :=
  (dat1 V c).arrAt_eq_of_cover 11 (G V c) (fun t _ => flushed_eq V c t) covered

end Cert.KernelIdeal.Region1

end
-- ==== Proof.SliceReads.lean ====
/-
  A slab of an array read at an index.

  The host cuts layer k's part out of a stacked input by a slice that keeps one index k on the leading axis (and, for a
  weight matrix, a range of rows from o on), then drops that unit axis. At an index the result reads the input at k on
  the leading axis, at o + l on the row axis, and at the same remaining coordinates.
-/
import Idealize.ShloMosaic.Lib.ValueIdx
import Idealize.ShloMosaic.Lib.Pipeline.Value

noncomputable section

namespace Cert.SliceReads

open Idealize.ShloMosaic Idealize.ShloMosaic.ValueIdx

variable {α : Type}

/-- Slab k of a stack of vectors: [A, C] → [1, C] → [C]. -/
theorem slab2 {A C : ℕ} (X : (⟨2, ![A, C]⟩ : Shape).Idx → α) (k : ℕ)
    (hs : (⟨2, ![A, C]⟩ : Shape).Slices ![k, 0] ⟨2, ![1, C]⟩) (hc : (⟨2, ![1, C]⟩ : Shape).ShapeCasts ⟨1, ![C]⟩)
    (hk : k < A) (j : Fin C) :
    shapeCast ⟨1, ![C]⟩ (extractStridedSlice ⟨2, ![1, C]⟩ ![k, 0] X hs) hc (ix1 j) = X (ix2 ⟨k, hk⟩ j) := by
  rw [shapeCast_dropUnit_apply]
  refine extractStridedSlice_apply _ X hs _ _ fun a => ?_
  match a with
  | ⟨0, _⟩ => show k = k + 0; omega
  | ⟨1, _⟩ => show j.val = 0 + j.val; omega

/-- Rows o … o + b − 1 of slab k of a stack of matrices: [A, B, C] → [1, b, C] → [b, C]. -/
theorem slab3 {A B C b : ℕ} (X : (⟨3, ![A, B, C]⟩ : Shape).Idx → α) (k o : ℕ)
    (hs : (⟨3, ![A, B, C]⟩ : Shape).Slices ![k, o, 0] ⟨3, ![1, b, C]⟩) (hc : (⟨3, ![1, b, C]⟩ : Shape).ShapeCasts ⟨2, ![b, C]⟩)
    (hk : k < A) (l : Fin b) (ho : o + l.val < B) (j : Fin C) :
    shapeCast ⟨2, ![b, C]⟩ (extractStridedSlice ⟨3, ![1, b, C]⟩ ![k, o, 0] X hs) hc (ix2 l j)
      = X (ix3 ⟨k, hk⟩ ⟨o + l.val, ho⟩ j) := by
  rw [shapeCast_dropUnit_apply]
  refine extractStridedSlice_apply _ X hs _ _ fun a => ?_
  match a with
  | ⟨0, _⟩ => show k = k + 0; omega
  | ⟨1, _⟩ => show o + l.val = o + l.val; rfl
  | ⟨2, _⟩ => show j.val = 0 + j.val; omega

/-- Slab k of a stack of rank-3 arrays: [A, N, K, D] → [1, N, K, D] → [N, K, D]. -/
theorem slab4 {A N K D : ℕ} (X : (⟨4, ![A, N, K, D]⟩ : Shape).Idx → α) (k : ℕ)
    (hs : (⟨4, ![A, N, K, D]⟩ : Shape).Slices ![k, 0, 0, 0] ⟨4, ![1, N, K, D]⟩)
    (hc : (⟨4, ![1, N, K, D]⟩ : Shape).ShapeCasts ⟨3, ![N, K, D]⟩) (hk : k < A) (r : Fin N) (n : Fin K) (s : Fin D) :
    shapeCast ⟨3, ![N, K, D]⟩ (extractStridedSlice ⟨4, ![1, N, K, D]⟩ ![k, 0, 0, 0] X hs) hc (ix3 r n s)
      = X (ix4 ⟨k, hk⟩ r n s) := by
  rw [shapeCast_dropUnit_apply]
  refine extractStridedSlice_apply _ X hs _ _ fun a => ?_
  match a with
  | ⟨0, _⟩ => show k = k + 0; omega
  | ⟨1, _⟩ => show r.val = 0 + r.val; omega
  | ⟨2, _⟩ => show n.val = 0 + n.val; omega
  | ⟨3, _⟩ => show s.val = 0 + s.val; omega

end Cert.SliceReads

end
-- ==== Proof.Entry0.lean ====
/-
  What the first layer's kernel region finds in its arrays, and so what it leaves in its output.

  Before the region the host takes, from the launch memory: layer 0's index words (slab 0 of the index input); the rows
  of the embeddings those words name, 16 per node, a fill value where the fill mask drops a row; their sum over the 16
  neighbours; slabs 0 of the edge and time features; rows 0–127, 128–159 and 160–191 of slab 0 of W1, slab 0 of b1, rows
  0–127 and 128–255 of slab 0 of W2, slab 0 of b2. With every index word in range the mask drops nothing, so the
  neighbour sums are the sums of the gathered rows, and the region's output is layer 0 of the specification.
-/
import proofs.«429829_j21174188769660_2_alg».proof.Proof.Gen.KernelIdeal.Frame
import proofs.«429829_j21174188769660_2_alg».proof.Proof.TakeRows
import proofs.«429829_j21174188769660_2_alg».proof.Proof.Stretches
import proofs.«429829_j21174188769660_2_alg».proof.Proof.Region0Value
import proofs.«429829_j21174188769660_2_alg».proof.Proof.SliceReads
import proofs.«429829_j21174188769660_2_alg».proof.Proof.LayerSpec
import Idealize.ShloMosaic.Lib.StableHlo.Run

set_option maxRecDepth 16384

noncomputable section

namespace Cert.KernelIdeal.Entry0

open Cert.KernelIdeal Cert.KernelIdeal.Gen Cert.GraphSum
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The launch memory's argument arrays at their literal types. -/
abbrev a0 (c : Dev nD) : FVec Ideal S100000x128 .f32 := m ((c : Thread nD τ).loc main_arg0)
abbrev a1 (c : Dev nD) : FVec Ideal S2x100000x16x32 .f32 := m ((c : Thread nD τ).loc main_arg1)
abbrev a2 (c : Dev nD) : FVec Ideal S2x100000x16x32 .f32 := m ((c : Thread nD τ).loc main_arg2)
abbrev a3 (c : Dev nD) : FVec Ideal S2x192x128 .f32 := m ((c : Thread nD τ).loc main_arg3)
abbrev a4 (c : Dev nD) : FVec Ideal S2x128 .f32 := m ((c : Thread nD τ).loc main_arg4)
abbrev a5 (c : Dev nD) : FVec Ideal S2x256x128 .f32 := m ((c : Thread nD τ).loc main_arg5)
abbrev a6 (c : Dev nD) : FVec Ideal S2x128 .f32 := m ((c : Thread nD τ).loc main_arg6)
abbrev a7 (c : Dev nD) : IVec S2x100000x16 32 := m ((c : Thread nD τ).loc main_arg7)

/-- Layer 0's neighbour sums of the embeddings x: the gathered rows added over the 16 neighbours. -/
def nbr0 (x7 : IVec S2x100000x16 32) (x : FVec Ideal S100000x128 .f32) : FVec Ideal S100000x128 .f32 :=
  Host.reduceAdd (Host.gather gather_S100000x128_S100000x16x1_S100000x16x128_2_0_n_n_0_2_1128 x (Take.wrapCol (Take.idx0 x7)))
    (constant (F := Ideal) S_ .f32 0x00000000#32) Gen.reducesTo_S100000x16x128_S100000x128_d1 Gen.h_S_

/-! ## The arrays at the region's entry -/

theorem e_nbr (c : Dev nD) : V3 m ρ c main_v3
    = Host.reduceAdd (Stretch.takeRowsF (a0 m c) (Take.idx0 (a7 m c))) (constant (F := Ideal) S_ .f32 0x00000000#32)
        Gen.reducesTo_S100000x16x128_S100000x128_d1 Gen.h_S_ :=
  Stretch.nbrStretch0 (F := Ideal) (W0 m ρ c)

theorem e_emb (c : Dev nD) : V3 m ρ c main_arg0 = a0 m c := by
  show StableHlo.after hostOps0_2 (StableHlo.after hostOps0_1 (StableHlo.after hostOps0 (W0 m ρ c))) (Proc.devRef .tc main_arg0) = _
  simp only [hostOps0_2, hostOps0_1, hostOps0]
  after_results_simp

theorem e_edge (c : Dev nD) : V3 m ρ c main_v19
    = shapeCast S100000x16x32 (extractStridedSlice S1x100000x16x32 ![0, 0, 0, 0] (a1 m c) Gen.slices_S2x100000x16x32_S1x100000x16x32_0_0_0_0)
        Gen.shapeCasts_S1x100000x16x32_S100000x16x32 := by
  show StableHlo.after hostOps0_2 (StableHlo.after hostOps0_1 (StableHlo.after hostOps0 (W0 m ρ c))) (Proc.devRef .tc main_v19) = _
  simp only [hostOps0_2, hostOps0_1, hostOps0]
  after_results_simp
  rfl

theorem e_time (c : Dev nD) : V3 m ρ c main_v21
    = shapeCast S100000x16x32 (extractStridedSlice S1x100000x16x32 ![0, 0, 0, 0] (a2 m c) Gen.slices_S2x100000x16x32_S1x100000x16x32_0_0_0_0)
        Gen.shapeCasts_S1x100000x16x32_S100000x16x32 := by
  show StableHlo.after hostOps0_2 (StableHlo.after hostOps0_1 (StableHlo.after hostOps0 (W0 m ρ c))) (Proc.devRef .tc main_v21) = _
  simp only [hostOps0_2, hostOps0_1, hostOps0]
  after_results_simp
  rfl

theorem e_w1a (c : Dev nD) : V3 m ρ c main_v5
    = shapeCast S128x128 (extractStridedSlice S1x128x128 ![0, 0, 0] (a3 m c) Gen.slices_S2x192x128_S1x128x128_0_0_0) Gen.shapeCasts_S1x128x128_S128x128 := by
  show StableHlo.after hostOps0_2 (StableHlo.after hostOps0_1 (StableHlo.after hostOps0 (W0 m ρ c))) (Proc.devRef .tc main_v5) = _
  simp only [hostOps0_2, hostOps0_1, hostOps0]
  after_results_simp
  rfl

theorem e_w1b (c : Dev nD) : V3 m ρ c main_v7
    = shapeCast S32x128 (extractStridedSlice S1x32x128 ![0, 128, 0] (a3 m c) Gen.slices_S2x192x128_S1x32x128_0_128_0) Gen.shapeCasts_S1x32x128_S32x128 := by
  show StableHlo.after hostOps0_2 (StableHlo.after hostOps0_1 (StableHlo.after hostOps0 (W0 m ρ c))) (Proc.devRef .tc main_v7) = _
  simp only [hostOps0_2, hostOps0_1, hostOps0]
  after_results_simp
  rfl

theorem e_w1c (c : Dev nD) : V3 m ρ c main_v9
    = shapeCast S32x128 (extractStridedSlice S1x32x128 ![0, 160, 0] (a3 m c) Gen.slices_S2x192x128_S1x32x128_0_160_0) Gen.shapeCasts_S1x32x128_S32x128 := by
  show StableHlo.after hostOps0_2 (StableHlo.after hostOps0_1 (StableHlo.after hostOps0 (W0 m ρ c))) (Proc.devRef .tc main_v9) = _
  simp only [hostOps0_2, hostOps0_1, hostOps0]
  after_results_simp
  rfl

theorem e_b1 (c : Dev nD) : V3 m ρ c main_v11
    = shapeCast S128 (extractStridedSlice S1x128 ![0, 0] (a4 m c) Gen.slices_S2x128_S1x128_0_0) Gen.shapeCasts_S1x128_S128 := by
  show StableHlo.after hostOps0_2 (StableHlo.after hostOps0_1 (StableHlo.after hostOps0 (W0 m ρ c))) (Proc.devRef .tc main_v11) = _
  simp only [hostOps0_2, hostOps0_1, hostOps0]
  after_results_simp
  rfl

theorem e_w2a (c : Dev nD) : V3 m ρ c main_v13
    = shapeCast S128x128 (extractStridedSlice S1x128x128 ![0, 0, 0] (a5 m c) Gen.slices_S2x256x128_S1x128x128_0_0_0) Gen.shapeCasts_S1x128x128_S128x128 := by
  show StableHlo.after hostOps0_2 (StableHlo.after hostOps0_1 (StableHlo.after hostOps0 (W0 m ρ c))) (Proc.devRef .tc main_v13) = _
  simp only [hostOps0_2, hostOps0_1, hostOps0]
  after_results_simp
  rfl

theorem e_w2b (c : Dev nD) : V3 m ρ c main_v15
    = shapeCast S128x128 (extractStridedSlice S1x128x128 ![0, 128, 0] (a5 m c) Gen.slices_S2x256x128_S1x128x128_0_128_0) Gen.shapeCasts_S1x128x128_S128x128 := by
  show StableHlo.after hostOps0_2 (StableHlo.after hostOps0_1 (StableHlo.after hostOps0 (W0 m ρ c))) (Proc.devRef .tc main_v15) = _
  simp only [hostOps0_2, hostOps0_1, hostOps0]
  after_results_simp
  rfl

theorem e_b2 (c : Dev nD) : V3 m ρ c main_v17
    = shapeCast S128 (extractStridedSlice S1x128 ![0, 0] (a6 m c) Gen.slices_S2x128_S1x128_0_0) Gen.shapeCasts_S1x128_S128 := by
  show StableHlo.after hostOps0_2 (StableHlo.after hostOps0_1 (StableHlo.after hostOps0 (W0 m ρ c))) (Proc.devRef .tc main_v17) = _
  simp only [hostOps0_2, hostOps0_1, hostOps0]
  after_results_simp
  rfl

/-! ## The region's output -/

/-- With the index words in range, the region's output function at its entry contents is layer 0. -/
theorem out_eq (c : Dev nD) (hr : ∀ i, Take.InRange (a7 m c i)) :
    Region0.G (V3 m ρ) c = layer 0 (a0 m c) (nbr0 (a7 m c) (a0 m c)) (a1 m c) (a2 m c) (a3 m c) (a4 m c) (a5 m c) (a6 m c) := by
  funext i
  unfold Region0.G Region0.rowFn layer hiddenAt
  simp only [Region0.aNbr, Region0.aEmb, Region0.aEdge, Region0.aTime, Region0.aW1a, Region0.aW1b, Region0.aW1c, Region0.aB1,
    Region0.aW2a, Region0.aW2b, Region0.aB2]
  rw [e_nbr, e_emb, e_edge, e_time, e_w1a, e_w1b, e_w1c, e_b1, e_w2a, e_w2b, e_b2, Stretch.takeRowsF_ideal,
    Take.takeRows_eq _ _ (Take.idx0_inRange _ hr)]
  have hE : ∀ (n : Fin 16) (s : Fin 32), shapeCast S100000x16x32 (extractStridedSlice S1x100000x16x32 ![0, 0, 0, 0] (a1 m c)
      Gen.slices_S2x100000x16x32_S1x100000x16x32_0_0_0_0) Gen.shapeCasts_S1x100000x16x32_S100000x16x32 (ix3 (i 0) n s)
      = a1 m c (ix4 0 (i 0) n s) := fun n s => SliceReads.slab4 (a1 m c) 0 _ _ (by decide) (i 0) n s
  have hT : ∀ (n : Fin 16) (s : Fin 32), shapeCast S100000x16x32 (extractStridedSlice S1x100000x16x32 ![0, 0, 0, 0] (a2 m c)
      Gen.slices_S2x100000x16x32_S1x100000x16x32_0_0_0_0) Gen.shapeCasts_S1x100000x16x32_S100000x16x32 (ix3 (i 0) n s)
      = a2 m c (ix4 0 (i 0) n s) := fun n s => SliceReads.slab4 (a2 m c) 0 _ _ (by decide) (i 0) n s
  have hW1a : ∀ (l j : Fin 128), shapeCast S128x128 (extractStridedSlice S1x128x128 ![0, 0, 0] (a3 m c)
      Gen.slices_S2x192x128_S1x128x128_0_0_0) Gen.shapeCasts_S1x128x128_S128x128 (ix2 l j) = a3 m c (ix3 0 (r192a l) j) :=
    fun l j => (SliceReads.slab3 (a3 m c) 0 0 _ _ (by decide) l (by have := l.isLt; omega) j).trans
      (congrArg (a3 m c) (funext fun a => by
        match a with
        | ⟨0, _⟩ => rfl
        | ⟨1, _⟩ => exact Fin.ext (Nat.zero_add _)
        | ⟨2, _⟩ => rfl))
  have hW1b : ∀ (l : Fin 32) (j : Fin 128), shapeCast S32x128 (extractStridedSlice S1x32x128 ![0, 128, 0] (a3 m c)
      Gen.slices_S2x192x128_S1x32x128_0_128_0) Gen.shapeCasts_S1x32x128_S32x128 (ix2 l j) = a3 m c (ix3 0 (r192b l) j) :=
    fun l j => SliceReads.slab3 (a3 m c) 0 128 _ _ (by decide) l (by have := l.isLt; omega) j
  have hW1c : ∀ (l : Fin 32) (j : Fin 128), shapeCast S32x128 (extractStridedSlice S1x32x128 ![0, 160, 0] (a3 m c)
      Gen.slices_S2x192x128_S1x32x128_0_160_0) Gen.shapeCasts_S1x32x128_S32x128 (ix2 l j) = a3 m c (ix3 0 (r192c l) j) :=
    fun l j => SliceReads.slab3 (a3 m c) 0 160 _ _ (by decide) l (by have := l.isLt; omega) j
  have hB1 : ∀ (j : Fin 128), shapeCast S128 (extractStridedSlice S1x128 ![0, 0] (a4 m c) Gen.slices_S2x128_S1x128_0_0)
      Gen.shapeCasts_S1x128_S128 (ix1 j) = a4 m c (ix2 0 j) := fun j => SliceReads.slab2 (a4 m c) 0 _ _ (by decide) j
  have hW2a : ∀ (l h : Fin 128), shapeCast S128x128 (extractStridedSlice S1x128x128 ![0, 0, 0] (a5 m c)
      Gen.slices_S2x256x128_S1x128x128_0_0_0) Gen.shapeCasts_S1x128x128_S128x128 (ix2 l h) = a5 m c (ix3 0 (r256a l) h) :=
    fun l h => (SliceReads.slab3 (a5 m c) 0 0 _ _ (by decide) l (by have := l.isLt; omega) h).trans
      (congrArg (a5 m c) (funext fun a => by
        match a with
        | ⟨0, _⟩ => rfl
        | ⟨1, _⟩ => exact Fin.ext (Nat.zero_add _)
        | ⟨2, _⟩ => rfl))
  have hW2b : ∀ (l h : Fin 128), shapeCast S128x128 (extractStridedSlice S1x128x128 ![0, 128, 0] (a5 m c)
      Gen.slices_S2x256x128_S1x128x128_0_128_0) Gen.shapeCasts_S1x128x128_S128x128 (ix2 l h) = a5 m c (ix3 0 (r256b l) h) :=
    fun l h => SliceReads.slab3 (a5 m c) 0 128 _ _ (by decide) l (by have := l.isLt; omega) h
  have hB2 : ∀ (h : Fin 128), shapeCast S128 (extractStridedSlice S1x128 ![0, 0] (a6 m c) Gen.slices_S2x128_S1x128_0_0)
      Gen.shapeCasts_S1x128_S128 (ix1 h) = a6 m c (ix2 0 h) := fun h => SliceReads.slab2 (a6 m c) 0 _ _ (by decide) h
  simp only [hE, hT, hW1a, hW1b, hW1c, hB1, hW2a, hW2b, hB2]
  rfl

end Cert.KernelIdeal.Entry0

end
-- ==== Proof.Entry1.lean ====
/-
  What the second layer's kernel region finds in its arrays, what it leaves in its output, and so the kernel's result.

  The second region is entered from what the first one left: its embeddings input is the first region's output array,
  every argument array is still as launched. The host's stretch before it is the first one's text one slab further
  (slab 1 of the index input, of the features, of the weights and biases). With every index word in range the region's
  output is layer 1 of the specification over layer 0's output: the result array holds the two layers.
-/
import proofs.«429829_j21174188769660_2_alg».proof.Proof.Gen.KernelIdeal.Frame
import proofs.«429829_j21174188769660_2_alg».proof.Proof.TakeRows
import proofs.«429829_j21174188769660_2_alg».proof.Proof.Stretches
import proofs.«429829_j21174188769660_2_alg».proof.Proof.Region0Value
import proofs.«429829_j21174188769660_2_alg».proof.Proof.Region1Value
import proofs.«429829_j21174188769660_2_alg».proof.Proof.Entry0
import proofs.«429829_j21174188769660_2_alg».proof.Proof.SliceReads
import proofs.«429829_j21174188769660_2_alg».proof.Proof.LayerSpec
import Idealize.ShloMosaic.Lib.StableHlo.Run

set_option maxRecDepth 16384

noncomputable section

namespace Cert.KernelIdeal.Entry1

open Cert.KernelIdeal Cert.KernelIdeal.Gen Cert.GraphSum
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- Layer 1's neighbour sums of the embeddings x: the gathered rows added over the 16 neighbours. -/
def nbr1 (x7 : IVec S2x100000x16 32) (x : FVec Ideal S100000x128 .f32) : FVec Ideal S100000x128 .f32 :=
  Host.reduceAdd (Host.gather gather_S100000x128_S100000x16x1_S100000x16x128_2_0_n_n_0_2_1128 x (Take.wrapCol (Take.idx1 x7)))
    (constant (F := Ideal) S_ .f32 0x00000000#32) Gen.reducesTo_S100000x16x128_S100000x128_d1 Gen.h_S_

/-- What the first region left in its output array. -/
abbrev o1 (c : Dev nD) : FVec Ideal S100000x128 .f32 := W4 m ρ c (Proc.devRef .tc main_v22)

/-! ## The first region's exit: the arguments as launched, the output at layer 0 -/

theorem W4_a1 (c : Dev nD) : W4 m ρ c (Proc.devRef .tc main_arg1) = Entry0.a1 m c :=
  (W4_of_ne m ρ c main_arg1 (by decide)).trans (by
    show StableHlo.after hostOps0_2 (StableHlo.after hostOps0_1 (StableHlo.after hostOps0 (W0 m ρ c))) (Proc.devRef .tc main_arg1) = _
    simp only [hostOps0_2, hostOps0_1, hostOps0]
    after_results_simp)

theorem W4_a2 (c : Dev nD) : W4 m ρ c (Proc.devRef .tc main_arg2) = Entry0.a2 m c :=
  (W4_of_ne m ρ c main_arg2 (by decide)).trans (by
    show StableHlo.after hostOps0_2 (StableHlo.after hostOps0_1 (StableHlo.after hostOps0 (W0 m ρ c))) (Proc.devRef .tc main_arg2) = _
    simp only [hostOps0_2, hostOps0_1, hostOps0]
    after_results_simp)

theorem W4_a3 (c : Dev nD) : W4 m ρ c (Proc.devRef .tc main_arg3) = Entry0.a3 m c :=
  (W4_of_ne m ρ c main_arg3 (by decide)).trans (by
    show StableHlo.after hostOps0_2 (StableHlo.after hostOps0_1 (StableHlo.after hostOps0 (W0 m ρ c))) (Proc.devRef .tc main_arg3) = _
    simp only [hostOps0_2, hostOps0_1, hostOps0]
    after_results_simp)

theorem W4_a4 (c : Dev nD) : W4 m ρ c (Proc.devRef .tc main_arg4) = Entry0.a4 m c :=
  (W4_of_ne m ρ c main_arg4 (by decide)).trans (by
    show StableHlo.after hostOps0_2 (StableHlo.after hostOps0_1 (StableHlo.after hostOps0 (W0 m ρ c))) (Proc.devRef .tc main_arg4) = _
    simp only [hostOps0_2, hostOps0_1, hostOps0]
    after_results_simp)

theorem W4_a5 (c : Dev nD) : W4 m ρ c (Proc.devRef .tc main_arg5) = Entry0.a5 m c :=
  (W4_of_ne m ρ c main_arg5 (by decide)).trans (by
    show StableHlo.after hostOps0_2 (StableHlo.after hostOps0_1 (StableHlo.after hostOps0 (W0 m ρ c))) (Proc.devRef .tc main_arg5) = _
    simp only [hostOps0_2, hostOps0_1, hostOps0]
    after_results_simp)

theorem W4_a6 (c : Dev nD) : W4 m ρ c (Proc.devRef .tc main_arg6) = Entry0.a6 m c :=
  (W4_of_ne m ρ c main_arg6 (by decide)).trans (by
    show StableHlo.after hostOps0_2 (StableHlo.after hostOps0_1 (StableHlo.after hostOps0 (W0 m ρ c))) (Proc.devRef .tc main_arg6) = _
    simp only [hostOps0_2, hostOps0_1, hostOps0]
    after_results_simp)

theorem W4_a7 (c : Dev nD) : W4 m ρ c (Proc.devRef .tc main_arg7) = Entry0.a7 m c :=
  (W4_of_ne m ρ c main_arg7 (by decide)).trans (by
    show StableHlo.after hostOps0_2 (StableHlo.after hostOps0_1 (StableHlo.after hostOps0 (W0 m ρ c))) (Proc.devRef .tc main_arg7) = _
    simp only [hostOps0_2, hostOps0_1, hostOps0]
    after_results_simp)

theorem o1_eq (c : Dev nD) : o1 m ρ c = Region0.G (V3 m ρ) c :=
  (W4_arr m ρ c 11).trans (Region0.arr_eq (V3 m ρ) c)

/-! ## The arrays at the second region's entry -/

theorem e_nbr (c : Dev nD) : V7 m ρ c main_v26
    = Host.reduceAdd (Stretch.takeRowsF (o1 m ρ c) (Take.idx1 (Entry0.a7 m c))) (constant (F := Ideal) S_ .f32 0x00000000#32)
        Gen.reducesTo_S100000x16x128_S100000x128_d1 Gen.h_S_ :=
  (Stretch.nbrStretch1 (F := Ideal) (W4 m ρ c)).trans (by rw [W4_a7])

theorem e_emb (c : Dev nD) : V7 m ρ c main_v22 = o1 m ρ c := by
  show StableHlo.after hostOps1_2 (StableHlo.after hostOps1_1 (StableHlo.after hostOps1 (W4 m ρ c))) (Proc.devRef .tc main_v22) = _
  simp only [hostOps1_2, hostOps1_1, hostOps1]
  after_results_simp

theorem e_edge (c : Dev nD) : V7 m ρ c main_v42
    = shapeCast S100000x16x32 (extractStridedSlice S1x100000x16x32 ![1, 0, 0, 0] (Entry0.a1 m c) Gen.slices_S2x100000x16x32_S1x100000x16x32_1_0_0_0) Gen.shapeCasts_S1x100000x16x32_S100000x16x32 := by
  show StableHlo.after hostOps1_2 (StableHlo.after hostOps1_1 (StableHlo.after hostOps1 (W4 m ρ c))) (Proc.devRef .tc main_v42) = _
  simp only [hostOps1_2, hostOps1_1, hostOps1]
  after_results_simp
  rw [W4_a1]
  rfl

theorem e_time (c : Dev nD) : V7 m ρ c main_v44
    = shapeCast S100000x16x32 (extractStridedSlice S1x100000x16x32 ![1, 0, 0, 0] (Entry0.a2 m c) Gen.slices_S2x100000x16x32_S1x100000x16x32_1_0_0_0) Gen.shapeCasts_S1x100000x16x32_S100000x16x32 := by
  show StableHlo.after hostOps1_2 (StableHlo.after hostOps1_1 (StableHlo.after hostOps1 (W4 m ρ c))) (Proc.devRef .tc main_v44) = _
  simp only [hostOps1_2, hostOps1_1, hostOps1]
  after_results_simp
  rw [W4_a2]
  rfl

theorem e_w1a (c : Dev nD) : V7 m ρ c main_v28
    = shapeCast S128x128 (extractStridedSlice S1x128x128 ![1, 0, 0] (Entry0.a3 m c) Gen.slices_S2x192x128_S1x128x128_1_0_0) Gen.shapeCasts_S1x128x128_S128x128 := by
  show StableHlo.after hostOps1_2 (StableHlo.after hostOps1_1 (StableHlo.after hostOps1 (W4 m ρ c))) (Proc.devRef .tc main_v28) = _
  simp only [hostOps1_2, hostOps1_1, hostOps1]
  after_results_simp
  rw [W4_a3]
  rfl

theorem e_w1b (c : Dev nD) : V7 m ρ c main_v30
    = shapeCast S32x128 (extractStridedSlice S1x32x128 ![1, 128, 0] (Entry0.a3 m c) Gen.slices_S2x192x128_S1x32x128_1_128_0) Gen.shapeCasts_S1x32x128_S32x128 := by
  show StableHlo.after hostOps1_2 (StableHlo.after hostOps1_1 (StableHlo.after hostOps1 (W4 m ρ c))) (Proc.devRef .tc main_v30) = _
  simp only [hostOps1_2, hostOps1_1, hostOps1]
  after_results_simp
  rw [W4_a3]
  rfl

theorem e_w1c (c : Dev nD) : V7 m ρ c main_v32
    = shapeCast S32x128 (extractStridedSlice S1x32x128 ![1, 160, 0] (Entry0.a3 m c) Gen.slices_S2x192x128_S1x32x128_1_160_0) Gen.shapeCasts_S1x32x128_S32x128 := by
  show StableHlo.after hostOps1_2 (StableHlo.after hostOps1_1 (StableHlo.after hostOps1 (W4 m ρ c))) (Proc.devRef .tc main_v32) = _
  simp only [hostOps1_2, hostOps1_1, hostOps1]
  after_results_simp
  rw [W4_a3]
  rfl

theorem e_b1 (c : Dev nD) : V7 m ρ c main_v34
    = shapeCast S128 (extractStridedSlice S1x128 ![1, 0] (Entry0.a4 m c) Gen.slices_S2x128_S1x128_1_0) Gen.shapeCasts_S1x128_S128 := by
  show StableHlo.after hostOps1_2 (StableHlo.after hostOps1_1 (StableHlo.after hostOps1 (W4 m ρ c))) (Proc.devRef .tc main_v34) = _
  simp only [hostOps1_2, hostOps1_1, hostOps1]
  after_results_simp
  rw [W4_a4]
  rfl

theorem e_w2a (c : Dev nD) : V7 m ρ c main_v36
    = shapeCast S128x128 (extractStridedSlice S1x128x128 ![1, 0, 0] (Entry0.a5 m c) Gen.slices_S2x256x128_S1x128x128_1_0_0) Gen.shapeCasts_S1x128x128_S128x128 := by
  show StableHlo.after hostOps1_2 (StableHlo.after hostOps1_1 (StableHlo.after hostOps1 (W4 m ρ c))) (Proc.devRef .tc main_v36) = _
  simp only [hostOps1_2, hostOps1_1, hostOps1]
  after_results_simp
  rw [W4_a5]
  rfl

theorem e_w2b (c : Dev nD) : V7 m ρ c main_v38
    = shapeCast S128x128 (extractStridedSlice S1x128x128 ![1, 128, 0] (Entry0.a5 m c) Gen.slices_S2x256x128_S1x128x128_1_128_0) Gen.shapeCasts_S1x128x128_S128x128 := by
  show StableHlo.after hostOps1_2 (StableHlo.after hostOps1_1 (StableHlo.after hostOps1 (W4 m ρ c))) (Proc.devRef .tc main_v38) = _
  simp only [hostOps1_2, hostOps1_1, hostOps1]
  after_results_simp
  rw [W4_a5]
  rfl

theorem e_b2 (c : Dev nD) : V7 m ρ c main_v40
    = shapeCast S128 (extractStridedSlice S1x128 ![1, 0] (Entry0.a6 m c) Gen.slices_S2x128_S1x128_1_0) Gen.shapeCasts_S1x128_S128 := by
  show StableHlo.after hostOps1_2 (StableHlo.after hostOps1_1 (StableHlo.after hostOps1 (W4 m ρ c))) (Proc.devRef .tc main_v40) = _
  simp only [hostOps1_2, hostOps1_1, hostOps1]
  after_results_simp
  rw [W4_a6]
  rfl

/-! ## The region's output, and the kernel's result -/

/-- With the index words in range, the second region's output function at its entry contents is layer 1 over what the
    first region left. -/
theorem out_eq (c : Dev nD) (hr : ∀ i, Take.InRange (Entry0.a7 m c i)) :
    Region1.G (V7 m ρ) c = layer 1 (o1 m ρ c) (nbr1 (Entry0.a7 m c) (o1 m ρ c)) (Entry0.a1 m c) (Entry0.a2 m c)
      (Entry0.a3 m c) (Entry0.a4 m c) (Entry0.a5 m c) (Entry0.a6 m c) := by
  funext i
  unfold Region1.G Region1.rowFn layer hiddenAt
  simp only [Region1.aNbr, Region1.aEmb, Region1.aEdge, Region1.aTime, Region1.aW1a, Region1.aW1b, Region1.aW1c, Region1.aB1,
    Region1.aW2a, Region1.aW2b, Region1.aB2]
  rw [e_nbr, e_emb, e_edge, e_time, e_w1a, e_w1b, e_w1c, e_b1, e_w2a, e_w2b, e_b2, Stretch.takeRowsF_ideal,
    Take.takeRows_eq _ _ (Take.idx1_inRange _ hr)]
  have hE : ∀ (n : Fin 16) (s : Fin 32), shapeCast S100000x16x32 (extractStridedSlice S1x100000x16x32 ![1, 0, 0, 0] (Entry0.a1 m c)
      Gen.slices_S2x100000x16x32_S1x100000x16x32_1_0_0_0) Gen.shapeCasts_S1x100000x16x32_S100000x16x32 (ix3 (i 0) n s)
      = Entry0.a1 m c (ix4 1 (i 0) n s) := fun n s => SliceReads.slab4 (Entry0.a1 m c) 1 _ _ (by decide) (i 0) n s
  have hT : ∀ (n : Fin 16) (s : Fin 32), shapeCast S100000x16x32 (extractStridedSlice S1x100000x16x32 ![1, 0, 0, 0] (Entry0.a2 m c)
      Gen.slices_S2x100000x16x32_S1x100000x16x32_1_0_0_0) Gen.shapeCasts_S1x100000x16x32_S100000x16x32 (ix3 (i 0) n s)
      = Entry0.a2 m c (ix4 1 (i 0) n s) := fun n s => SliceReads.slab4 (Entry0.a2 m c) 1 _ _ (by decide) (i 0) n s
  have hW1a : ∀ (l j : Fin 128), shapeCast S128x128 (extractStridedSlice S1x128x128 ![1, 0, 0] (Entry0.a3 m c)
      Gen.slices_S2x192x128_S1x128x128_1_0_0) Gen.shapeCasts_S1x128x128_S128x128 (ix2 l j) = Entry0.a3 m c (ix3 1 (r192a l) j) :=
    fun l j => (SliceReads.slab3 (Entry0.a3 m c) 1 0 _ _ (by decide) l (by have := l.isLt; omega) j).trans
      (congrArg (Entry0.a3 m c) (funext fun a => by
        match a with
        | ⟨0, _⟩ => rfl
        | ⟨1, _⟩ => exact Fin.ext (Nat.zero_add _)
        | ⟨2, _⟩ => rfl))
  have hW1b : ∀ (l : Fin 32) (j : Fin 128), shapeCast S32x128 (extractStridedSlice S1x32x128 ![1, 128, 0] (Entry0.a3 m c)
      Gen.slices_S2x192x128_S1x32x128_1_128_0) Gen.shapeCasts_S1x32x128_S32x128 (ix2 l j) = Entry0.a3 m c (ix3 1 (r192b l) j) :=
    fun l j => SliceReads.slab3 (Entry0.a3 m c) 1 128 _ _ (by decide) l (by have := l.isLt; omega) j
  have hW1c : ∀ (l : Fin 32) (j : Fin 128), shapeCast S32x128 (extractStridedSlice S1x32x128 ![1, 160, 0] (Entry0.a3 m c)
      Gen.slices_S2x192x128_S1x32x128_1_160_0) Gen.shapeCasts_S1x32x128_S32x128 (ix2 l j) = Entry0.a3 m c (ix3 1 (r192c l) j) :=
    fun l j => SliceReads.slab3 (Entry0.a3 m c) 1 160 _ _ (by decide) l (by have := l.isLt; omega) j
  have hB1 : ∀ (j : Fin 128), shapeCast S128 (extractStridedSlice S1x128 ![1, 0] (Entry0.a4 m c) Gen.slices_S2x128_S1x128_1_0)
      Gen.shapeCasts_S1x128_S128 (ix1 j) = Entry0.a4 m c (ix2 1 j) := fun j => SliceReads.slab2 (Entry0.a4 m c) 1 _ _ (by decide) j
  have hW2a : ∀ (l h : Fin 128), shapeCast S128x128 (extractStridedSlice S1x128x128 ![1, 0, 0] (Entry0.a5 m c)
      Gen.slices_S2x256x128_S1x128x128_1_0_0) Gen.shapeCasts_S1x128x128_S128x128 (ix2 l h) = Entry0.a5 m c (ix3 1 (r256a l) h) :=
    fun l h => (SliceReads.slab3 (Entry0.a5 m c) 1 0 _ _ (by decide) l (by have := l.isLt; omega) h).trans
      (congrArg (Entry0.a5 m c) (funext fun a => by
        match a with
        | ⟨0, _⟩ => rfl
        | ⟨1, _⟩ => exact Fin.ext (Nat.zero_add _)
        | ⟨2, _⟩ => rfl))
  have hW2b : ∀ (l h : Fin 128), shapeCast S128x128 (extractStridedSlice S1x128x128 ![1, 128, 0] (Entry0.a5 m c)
      Gen.slices_S2x256x128_S1x128x128_1_128_0) Gen.shapeCasts_S1x128x128_S128x128 (ix2 l h) = Entry0.a5 m c (ix3 1 (r256b l) h) :=
    fun l h => SliceReads.slab3 (Entry0.a5 m c) 1 128 _ _ (by decide) l (by have := l.isLt; omega) h
  have hB2 : ∀ (h : Fin 128), shapeCast S128 (extractStridedSlice S1x128 ![1, 0] (Entry0.a6 m c) Gen.slices_S2x128_S1x128_1_0)
      Gen.shapeCasts_S1x128_S128 (ix1 h) = Entry0.a6 m c (ix2 1 h) := fun h => SliceReads.slab2 (Entry0.a6 m c) 1 _ _ (by decide) h
  simp only [hE, hT, hW1a, hW1b, hW1c, hB1, hW2a, hW2b, hB2]
  rfl

/-- THE KERNEL'S RESULT: with the index words in range, the result array at the last boundary holds the two layers. -/
theorem kernel_value (c : Dev nD) (hr : ∀ i, Take.InRange (Entry0.a7 m c i)) :
    (W8 m ρ c (Proc.devRef .tc main_v45) : FVec Ideal S100000x128 .f32)
      = twoLayers (Entry0.nbr0 (Entry0.a7 m c)) (nbr1 (Entry0.a7 m c)) (Entry0.a0 m c) (Entry0.a1 m c) (Entry0.a2 m c)
          (Entry0.a3 m c) (Entry0.a4 m c) (Entry0.a5 m c) (Entry0.a6 m c) := by
  have h1 : (W8 m ρ c (Proc.devRef .tc main_v45) : FVec Ideal S100000x128 .f32) = Region1.G (V7 m ρ) c :=
    (W8_arr m ρ c 11).trans (Region1.arr_eq (V7 m ρ) c)
  rw [h1, out_eq m ρ c hr, o1_eq, Entry0.out_eq m ρ c hr]
  rfl

end Cert.KernelIdeal.Entry1

end
-- ==== Proof.RefChunks.lean ====
/-
  The reference's host program read in chunks, each from contents left abstract.

  The program is two layers. A layer first takes the neighbour sums (the rows of the embeddings named by the layer's
  wrapped index words, gathered and added over the 16 neighbours) and the sums of its slabs of the edge and time features;
  joins the three along the columns, multiplies by its slab of W1, adds its slab of b1 and takes the positive part; joins
  the embeddings with that hidden array, multiplies by its slab of W2 and adds its slab of b2. The operation list is cut
  before each join, so that a join's operands are buffers of the contents the chunk starts from; the chunks' values are
  then put together into the result as one term of the launch contents.
-/
import proofs.«429829_j21174188769660_2_alg».proof.Proof.RefOps
import Idealize.ShloMosaic.Lib.StableHlo.Run
import Idealize.ShloMosaic.Lib.Pipeline.Frame

set_option maxRecDepth 16384

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- Contents moved to a typed reference's buffer type and back are the contents. -/
theorem ofBuf_toBuf {Val : EltTy → Type} {T : BufTy} (x : TRef sig T) (v : T.Contents Val) : x.ofBuf (x.toBuf v) = v := by
  obtain ⟨r, h, h1, h2⟩ := x
  subst h
  rfl

/-- One pass over a literal list of operations from contents left abstract: each operation's result at its own buffer
    is its function's value, at any other buffer what was there; a typed reference's paired casts cancel. -/
macro "chunk_results" : tactic =>
  `(tactic| simp (disch := decide) only [after_cons, after_nil, TRef.binary, TRef.unary, TRef.nullary,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', ofBuf_toBuf])

/-! ## The pieces of a layer, at any float family -/

/-- Slab `off` of the index input as a [100000, 16] array of words. -/
def idxOf (off : Fin 3 → ℕ) (hs : S2x100000x16.Slices off S1x100000x16) (x7 : IVec S2x100000x16 32) : IVec S100000x16 32 :=
  shapeCast S100000x16 (extractStridedSlice S1x100000x16 off x7 hs) shapeCasts_S1x100000x16_S100000x16

/-- The index words wrapped (a negative word has 100000 added) and laid out as a column of start indices. -/
def wrapOf (v : IVec S100000x16 32) : IVec S100000x16x1 32 :=
  broadcastInDim S100000x16x1 ![0, 1] bcast_S100000x16_S100000x16x1_0_1
    (select (cmpi .slt v (broadcastInDim S100000x16 ![] bcast_S_S100000x16 (constantI S_ 32 0#32)))
      (addi v (broadcastInDim S100000x16 ![] bcast_S_S100000x16 (constantI S_ 32 100000#32))) v)

/-- The neighbour sums: the gathered rows added over the 16 neighbours. -/
def nbrOf (x : FVec F S100000x128 .f32) (v : IVec S100000x16 32) : FVec F S100000x128 .f32 :=
  Host.reduceAdd (Host.gather gather_S100000x128_S100000x16x1_S100000x16x128_2_0_n_n_0_2_1128 x (wrapOf v))
    (constant (F := F) S_ .f32 0x00000000#32) reducesTo_S100000x16x128_S100000x128_d1 h_S_

/-- The sums over the 16 neighbours of slab `off` of a feature array. -/
def featOf (off : Fin 4 → ℕ) (hs : S2x100000x16x32.Slices off S1x100000x16x32) (E : FVec F S2x100000x16x32 .f32) :
    FVec F S100000x32 .f32 :=
  Host.reduceAdd (shapeCast S100000x16x32 (extractStridedSlice S1x100000x16x32 off E hs) shapeCasts_S1x100000x16x32_S100000x16x32)
    (constant (F := F) S_ .f32 0x00000000#32) reducesTo_S100000x16x32_S100000x32_d1 h_S_

/-- Slab `off` of W1 as a 192 × 128 matrix, of W2 as a 256 × 128 matrix, of a bias as 100000 equal rows. -/
def w1Of (off : Fin 3 → ℕ) (hs : S2x192x128.Slices off S1x192x128) (W : FVec F S2x192x128 .f32) : FVec F S192x128 .f32 :=
  shapeCast S192x128 (extractStridedSlice S1x192x128 off W hs) shapeCasts_S1x192x128_S192x128
def w2Of (off : Fin 3 → ℕ) (hs : S2x256x128.Slices off S1x256x128) (W : FVec F S2x256x128 .f32) : FVec F S256x128 .f32 :=
  shapeCast S256x128 (extractStridedSlice S1x256x128 off W hs) shapeCasts_S1x256x128_S256x128
def biasOf (off : Fin 2 → ℕ) (hs : S2x128.Slices off S1x128) (b : FVec F S2x128 .f32) : FVec F S100000x128 .f32 :=
  broadcastInDim S100000x128 ![0, 1] bcast_S1x128_S100000x128_0_1 (broadcastInDim S1x128 ![1] bcast_S128_S1x128_1
    (shapeCast S128 (extractStridedSlice S1x128 off b hs) shapeCasts_S1x128_S128))

/-- The joined row (nb | es | ts) times W1, plus the bias rows: what the positive part is taken of. -/
def preOf (nb : FVec F S100000x128 .f32) (es ts : FVec F S100000x32 .f32) (W1m : FVec F S192x128 .f32)
    (b1r : FVec F S100000x128 .f32) : FVec F S100000x128 .f32 :=
  addf (Host.dotGeneral dot_S100000x192_S192x128_S100000x128_1_0_0_1_n_n none
    (concatenate S100000x192 1 [⟨S100000x128, nb⟩, ⟨S100000x32, es⟩, ⟨S100000x32, ts⟩]
      concatenates_S100000x128_S100000x32_S100000x32_S100000x192_d1) W1m) b1r

/-- The zero rows the positive part is taken against. -/
def zeroRows : FVec F S100000x128 .f32 :=
  broadcastInDim S100000x128 ![] bcast_S_S100000x128 (constant (F := F) S_ .f32 0x00000000#32)

/-- The hidden rows. -/
def hidOf (nb : FVec F S100000x128 .f32) (es ts : FVec F S100000x32 .f32) (W1m : FVec F S192x128 .f32)
    (b1r : FVec F S100000x128 .f32) : FVec F S100000x128 .f32 :=
  maximumf (preOf nb es ts W1m b1r) zeroRows

/-- The new embedding rows: the joined row (o | hid) times W2, plus the bias rows. -/
def outOf (o hid : FVec F S100000x128 .f32) (W2m : FVec F S256x128 .f32) (b2r : FVec F S100000x128 .f32) :
    FVec F S100000x128 .f32 :=
  addf (Host.dotGeneral dot_S100000x256_S256x128_S100000x128_1_0_0_1_n_n none
    (concatenate S100000x256 1 [⟨S100000x128, o⟩, ⟨S100000x128, hid⟩]
      concatenates_S100000x128_S100000x128_S100000x256_d1) W2m) b2r

/-! ## The chunks' values -/

theorem A_v9 (X : Valuation τ sig (Elt F)) : after cA X (Proc.devRef .tc main_v9)
    = nbrOf (X (Proc.devRef .tc main_arg0)) (idxOf ![0, 0, 0] slices_S2x100000x16_S1x100000x16_0_0_0 (X (Proc.devRef .tc main_arg7))) := by
  chunk_results
  rfl
theorem A_v12 (X : Valuation τ sig (Elt F)) : after cA X (Proc.devRef .tc main_v12)
    = featOf ![0, 0, 0, 0] slices_S2x100000x16x32_S1x100000x16x32_0_0_0_0 (X (Proc.devRef .tc main_arg1)) := by
  chunk_results
  rfl
theorem A_v15 (X : Valuation τ sig (Elt F)) : after cA X (Proc.devRef .tc main_v15)
    = featOf ![0, 0, 0, 0] slices_S2x100000x16x32_S1x100000x16x32_0_0_0_0 (X (Proc.devRef .tc main_arg2)) := by
  chunk_results
  rfl

theorem B_v25 (X : Valuation τ sig (Elt F)) : after cB X (Proc.devRef .tc main_v25)
    = (TRef.of (T := ⟨S100000x128, .f32⟩) main_v25).toBuf (Val := Elt F) (maximumf
        ((TRef.of (T := ⟨S100000x128, .f32⟩) main_v24).ofBuf (Val := Elt F)
          (preOf (X (Proc.devRef .tc main_v9)) (X (Proc.devRef .tc main_v12)) (X (Proc.devRef .tc main_v15))
            (w1Of ![0, 0, 0] slices_S2x192x128_S1x192x128_0_0_0 (X (Proc.devRef .tc main_arg3)))
            (biasOf ![0, 0] slices_S2x128_S1x128_0_0 (X (Proc.devRef .tc main_arg4))))) zeroRows) := by
  chunk_results
  rfl

theorem C_v34 (X : Valuation τ sig (Elt F)) : after cC X (Proc.devRef .tc main_v34)
    = outOf (X (Proc.devRef .tc main_arg0)) (X (Proc.devRef .tc main_v25)) (w2Of ![0, 0, 0] slices_S2x256x128_S1x256x128_0_0_0 (X (Proc.devRef .tc main_arg5)))
        (biasOf ![0, 0] slices_S2x128_S1x128_0_0 (X (Proc.devRef .tc main_arg6))) := by
  chunk_results
  rfl

theorem D_v44 (X : Valuation τ sig (Elt F)) : after cD X (Proc.devRef .tc main_v44)
    = nbrOf (X (Proc.devRef .tc main_v34)) (idxOf ![1, 0, 0] slices_S2x100000x16_S1x100000x16_1_0_0 (X (Proc.devRef .tc main_arg7))) := by
  chunk_results
  rfl
theorem D_v47 (X : Valuation τ sig (Elt F)) : after cD X (Proc.devRef .tc main_v47)
    = featOf ![1, 0, 0, 0] slices_S2x100000x16x32_S1x100000x16x32_1_0_0_0 (X (Proc.devRef .tc main_arg1)) := by
  chunk_results
  rfl
theorem D_v50 (X : Valuation τ sig (Elt F)) : after cD X (Proc.devRef .tc main_v50)
    = featOf ![1, 0, 0, 0] slices_S2x100000x16x32_S1x100000x16x32_1_0_0_0 (X (Proc.devRef .tc main_arg2)) := by
  chunk_results
  rfl

theorem E_v60 (X : Valuation τ sig (Elt F)) : after cE X (Proc.devRef .tc main_v60)
    = (TRef.of (T := ⟨S100000x128, .f32⟩) main_v60).toBuf (Val := Elt F) (maximumf
        ((TRef.of (T := ⟨S100000x128, .f32⟩) main_v59).ofBuf (Val := Elt F)
          (preOf (X (Proc.devRef .tc main_v44)) (X (Proc.devRef .tc main_v47)) (X (Proc.devRef .tc main_v50))
            (w1Of ![1, 0, 0] slices_S2x192x128_S1x192x128_1_0_0 (X (Proc.devRef .tc main_arg3)))
            (biasOf ![1, 0] slices_S2x128_S1x128_1_0 (X (Proc.devRef .tc main_arg4))))) zeroRows) := by
  chunk_results
  rfl

theorem G_v69 (X : Valuation τ sig (Elt F)) : after cG X (Proc.devRef .tc main_v69)
    = outOf (X (Proc.devRef .tc main_v34)) (X (Proc.devRef .tc main_v60)) (w2Of ![1, 0, 0] slices_S2x256x128_S1x256x128_1_0_0 (X (Proc.devRef .tc main_arg5)))
        (biasOf ![1, 0] slices_S2x128_S1x128_1_0 (X (Proc.devRef .tc main_arg6))) := by
  chunk_results
  rfl

/-! ## What each chunk leaves as it finds it -/

theorem A_keep_arg0 (X : Valuation τ sig (Elt F)) : after cA X (Proc.devRef .tc main_arg0) = X (Proc.devRef .tc main_arg0) := by chunk_results
theorem A_keep_arg1 (X : Valuation τ sig (Elt F)) : after cA X (Proc.devRef .tc main_arg1) = X (Proc.devRef .tc main_arg1) := by chunk_results
theorem A_keep_arg2 (X : Valuation τ sig (Elt F)) : after cA X (Proc.devRef .tc main_arg2) = X (Proc.devRef .tc main_arg2) := by chunk_results
theorem A_keep_arg3 (X : Valuation τ sig (Elt F)) : after cA X (Proc.devRef .tc main_arg3) = X (Proc.devRef .tc main_arg3) := by chunk_results
theorem A_keep_arg4 (X : Valuation τ sig (Elt F)) : after cA X (Proc.devRef .tc main_arg4) = X (Proc.devRef .tc main_arg4) := by chunk_results
theorem A_keep_arg5 (X : Valuation τ sig (Elt F)) : after cA X (Proc.devRef .tc main_arg5) = X (Proc.devRef .tc main_arg5) := by chunk_results
theorem A_keep_arg6 (X : Valuation τ sig (Elt F)) : after cA X (Proc.devRef .tc main_arg6) = X (Proc.devRef .tc main_arg6) := by chunk_results
theorem A_keep_arg7 (X : Valuation τ sig (Elt F)) : after cA X (Proc.devRef .tc main_arg7) = X (Proc.devRef .tc main_arg7) := by chunk_results
theorem B_keep_arg0 (X : Valuation τ sig (Elt F)) : after cB X (Proc.devRef .tc main_arg0) = X (Proc.devRef .tc main_arg0) := by chunk_results
theorem B_keep_arg1 (X : Valuation τ sig (Elt F)) : after cB X (Proc.devRef .tc main_arg1) = X (Proc.devRef .tc main_arg1) := by chunk_results
theorem B_keep_arg2 (X : Valuation τ sig (Elt F)) : after cB X (Proc.devRef .tc main_arg2) = X (Proc.devRef .tc main_arg2) := by chunk_results
theorem B_keep_arg3 (X : Valuation τ sig (Elt F)) : after cB X (Proc.devRef .tc main_arg3) = X (Proc.devRef .tc main_arg3) := by chunk_results
theorem B_keep_arg4 (X : Valuation τ sig (Elt F)) : after cB X (Proc.devRef .tc main_arg4) = X (Proc.devRef .tc main_arg4) := by chunk_results
theorem B_keep_arg5 (X : Valuation τ sig (Elt F)) : after cB X (Proc.devRef .tc main_arg5) = X (Proc.devRef .tc main_arg5) := by chunk_results
theorem B_keep_arg6 (X : Valuation τ sig (Elt F)) : after cB X (Proc.devRef .tc main_arg6) = X (Proc.devRef .tc main_arg6) := by chunk_results
theorem B_keep_arg7 (X : Valuation τ sig (Elt F)) : after cB X (Proc.devRef .tc main_arg7) = X (Proc.devRef .tc main_arg7) := by chunk_results
theorem C_keep_arg1 (X : Valuation τ sig (Elt F)) : after cC X (Proc.devRef .tc main_arg1) = X (Proc.devRef .tc main_arg1) := by chunk_results
theorem C_keep_arg2 (X : Valuation τ sig (Elt F)) : after cC X (Proc.devRef .tc main_arg2) = X (Proc.devRef .tc main_arg2) := by chunk_results
theorem C_keep_arg3 (X : Valuation τ sig (Elt F)) : after cC X (Proc.devRef .tc main_arg3) = X (Proc.devRef .tc main_arg3) := by chunk_results
theorem C_keep_arg4 (X : Valuation τ sig (Elt F)) : after cC X (Proc.devRef .tc main_arg4) = X (Proc.devRef .tc main_arg4) := by chunk_results
theorem C_keep_arg5 (X : Valuation τ sig (Elt F)) : after cC X (Proc.devRef .tc main_arg5) = X (Proc.devRef .tc main_arg5) := by chunk_results
theorem C_keep_arg6 (X : Valuation τ sig (Elt F)) : after cC X (Proc.devRef .tc main_arg6) = X (Proc.devRef .tc main_arg6) := by chunk_results
theorem C_keep_arg7 (X : Valuation τ sig (Elt F)) : after cC X (Proc.devRef .tc main_arg7) = X (Proc.devRef .tc main_arg7) := by chunk_results
theorem D_keep_v34 (X : Valuation τ sig (Elt F)) : after cD X (Proc.devRef .tc main_v34) = X (Proc.devRef .tc main_v34) := by chunk_results
theorem D_keep_arg3 (X : Valuation τ sig (Elt F)) : after cD X (Proc.devRef .tc main_arg3) = X (Proc.devRef .tc main_arg3) := by chunk_results
theorem D_keep_arg4 (X : Valuation τ sig (Elt F)) : after cD X (Proc.devRef .tc main_arg4) = X (Proc.devRef .tc main_arg4) := by chunk_results
theorem D_keep_arg5 (X : Valuation τ sig (Elt F)) : after cD X (Proc.devRef .tc main_arg5) = X (Proc.devRef .tc main_arg5) := by chunk_results
theorem D_keep_arg6 (X : Valuation τ sig (Elt F)) : after cD X (Proc.devRef .tc main_arg6) = X (Proc.devRef .tc main_arg6) := by chunk_results
theorem E_keep_v34 (X : Valuation τ sig (Elt F)) : after cE X (Proc.devRef .tc main_v34) = X (Proc.devRef .tc main_v34) := by chunk_results
theorem E_keep_arg5 (X : Valuation τ sig (Elt F)) : after cE X (Proc.devRef .tc main_arg5) = X (Proc.devRef .tc main_arg5) := by chunk_results
theorem E_keep_arg6 (X : Valuation τ sig (Elt F)) : after cE X (Proc.devRef .tc main_arg6) = X (Proc.devRef .tc main_arg6) := by chunk_results

/-- The casts into and out of the two positive-part calls are identities. -/
theorem ofBuf_v24 (v : FVec F S100000x128 .f32) : (TRef.of (T := ⟨S100000x128, .f32⟩) main_v24).ofBuf (Val := Elt F) v = v := rfl
theorem toBuf_v25 (v : FVec F S100000x128 .f32) :
    ((TRef.of (T := ⟨S100000x128, .f32⟩) main_v25).toBuf (Val := Elt F) v : FVec F S100000x128 .f32) = v := rfl
theorem ofBuf_v59 (v : FVec F S100000x128 .f32) : (TRef.of (T := ⟨S100000x128, .f32⟩) main_v59).ofBuf (Val := Elt F) v = v := rfl
theorem toBuf_v60 (v : FVec F S100000x128 .f32) :
    ((TRef.of (T := ⟨S100000x128, .f32⟩) main_v60).toBuf (Val := Elt F) v : FVec F S100000x128 .f32) = v := rfl

end Cert.ReferenceIdeal.ValueP

end
-- ==== Proof.RefRun.lean ====
/-
  The reference's run: every weakly fair execution ends with the result array at two layers of the launch contents.

  The chunks' values (the cut operation list, each chunk read from contents left abstract) are put together from the
  last chunk back to the first: the result is the second layer's rows over the first layer's, each layer's neighbour
  sums taken from the embeddings the layer starts from. The run itself is the straight-line program's: it terminates
  with every buffer at the fold of the operations over its launch contents, and no operation writes an argument.
-/
import proofs.«429829_j21174188769660_2_alg».proof.Proof.RefChunks

set_option maxRecDepth 16384

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- The hidden rows of layer 0 as the second chunk leaves them, the two casts around the positive part removed. -/
theorem B_hid (X : Valuation τ sig (Elt F)) : after cB X (Proc.devRef .tc main_v25)
    = hidOf (X (Proc.devRef .tc main_v9)) (X (Proc.devRef .tc main_v12)) (X (Proc.devRef .tc main_v15))
        (w1Of ![0, 0, 0] slices_S2x192x128_S1x192x128_0_0_0 (X (Proc.devRef .tc main_arg3)))
        (biasOf ![0, 0] slices_S2x128_S1x128_0_0 (X (Proc.devRef .tc main_arg4))) :=
  (B_v25 X).trans ((toBuf_v25 _).trans (congrArg (fun t => maximumf t zeroRows) (ofBuf_v24 _)))

/-- The hidden rows of layer 1 likewise. -/
theorem E_hid (X : Valuation τ sig (Elt F)) : after cE X (Proc.devRef .tc main_v60)
    = hidOf (X (Proc.devRef .tc main_v44)) (X (Proc.devRef .tc main_v47)) (X (Proc.devRef .tc main_v50))
        (w1Of ![1, 0, 0] slices_S2x192x128_S1x192x128_1_0_0 (X (Proc.devRef .tc main_arg3)))
        (biasOf ![1, 0] slices_S2x128_S1x128_1_0 (X (Proc.devRef .tc main_arg4))) :=
  (E_v60 X).trans ((toBuf_v60 _).trans (congrArg (fun t => maximumf t zeroRows) (ofBuf_v59 _)))

/-- Layer 0 of the reference, as its operations spell it, from the argument arrays. -/
def layer0Of (x0 : FVec F S100000x128 .f32) (x1 x2 : FVec F S2x100000x16x32 .f32) (x3 : FVec F S2x192x128 .f32)
    (x4 : FVec F S2x128 .f32) (x5 : FVec F S2x256x128 .f32) (x6 : FVec F S2x128 .f32) (x7 : IVec S2x100000x16 32) :
    FVec F S100000x128 .f32 :=
  outOf x0
    (hidOf (nbrOf x0 (idxOf ![0, 0, 0] slices_S2x100000x16_S1x100000x16_0_0_0 x7))
      (featOf ![0, 0, 0, 0] slices_S2x100000x16x32_S1x100000x16x32_0_0_0_0 x1)
      (featOf ![0, 0, 0, 0] slices_S2x100000x16x32_S1x100000x16x32_0_0_0_0 x2)
      (w1Of ![0, 0, 0] slices_S2x192x128_S1x192x128_0_0_0 x3) (biasOf ![0, 0] slices_S2x128_S1x128_0_0 x4))
    (w2Of ![0, 0, 0] slices_S2x256x128_S1x256x128_0_0_0 x5) (biasOf ![0, 0] slices_S2x128_S1x128_0_0 x6)

/-- Layer 1 of the reference over the embeddings o. -/
def layer1Of (o : FVec F S100000x128 .f32) (x1 x2 : FVec F S2x100000x16x32 .f32) (x3 : FVec F S2x192x128 .f32)
    (x4 : FVec F S2x128 .f32) (x5 : FVec F S2x256x128 .f32) (x6 : FVec F S2x128 .f32) (x7 : IVec S2x100000x16 32) :
    FVec F S100000x128 .f32 :=
  outOf o
    (hidOf (nbrOf o (idxOf ![1, 0, 0] slices_S2x100000x16_S1x100000x16_1_0_0 x7))
      (featOf ![1, 0, 0, 0] slices_S2x100000x16x32_S1x100000x16x32_1_0_0_0 x1)
      (featOf ![1, 0, 0, 0] slices_S2x100000x16x32_S1x100000x16x32_1_0_0_0 x2)
      (w1Of ![1, 0, 0] slices_S2x192x128_S1x192x128_1_0_0 x3) (biasOf ![1, 0] slices_S2x128_S1x128_1_0 x4))
    (w2Of ![1, 0, 0] slices_S2x256x128_S1x256x128_1_0_0 x5) (biasOf ![1, 0] slices_S2x128_S1x128_1_0 x6)

/-- Six lists of operations laid end to end, each known by what it writes into the buffers read later and by what it
    leaves alone: the result buffer after all of them, from any contents, is layer 1 over layer 0 of the arguments. -/
theorem compose (lA lB lC lD lE lG : List (HloOp τ sig (Elt F))) (V : Valuation τ sig (Elt F))
    (hG_v69 : ∀ X : Valuation τ sig (Elt F), after lG X (Proc.devRef .tc main_v69) = outOf (X (Proc.devRef .tc main_v34)) (X (Proc.devRef .tc main_v60)) (w2Of ![1, 0, 0] slices_S2x256x128_S1x256x128_1_0_0 (X (Proc.devRef .tc main_arg5))) (biasOf ![1, 0] slices_S2x128_S1x128_1_0 (X (Proc.devRef .tc main_arg6))))
    (hE_hid : ∀ X : Valuation τ sig (Elt F), after lE X (Proc.devRef .tc main_v60) = hidOf (X (Proc.devRef .tc main_v44)) (X (Proc.devRef .tc main_v47)) (X (Proc.devRef .tc main_v50)) (w1Of ![1, 0, 0] slices_S2x192x128_S1x192x128_1_0_0 (X (Proc.devRef .tc main_arg3))) (biasOf ![1, 0] slices_S2x128_S1x128_1_0 (X (Proc.devRef .tc main_arg4))))
    (hE_keep_v34 : ∀ X : Valuation τ sig (Elt F), after lE X (Proc.devRef .tc main_v34) = X (Proc.devRef .tc main_v34))
    (hE_keep_arg5 : ∀ X : Valuation τ sig (Elt F), after lE X (Proc.devRef .tc main_arg5) = X (Proc.devRef .tc main_arg5))
    (hE_keep_arg6 : ∀ X : Valuation τ sig (Elt F), after lE X (Proc.devRef .tc main_arg6) = X (Proc.devRef .tc main_arg6))
    (hD_v44 : ∀ X : Valuation τ sig (Elt F), after lD X (Proc.devRef .tc main_v44) = nbrOf (X (Proc.devRef .tc main_v34)) (idxOf ![1, 0, 0] slices_S2x100000x16_S1x100000x16_1_0_0 (X (Proc.devRef .tc main_arg7))))
    (hD_v47 : ∀ X : Valuation τ sig (Elt F), after lD X (Proc.devRef .tc main_v47) = featOf ![1, 0, 0, 0] slices_S2x100000x16x32_S1x100000x16x32_1_0_0_0 (X (Proc.devRef .tc main_arg1)))
    (hD_v50 : ∀ X : Valuation τ sig (Elt F), after lD X (Proc.devRef .tc main_v50) = featOf ![1, 0, 0, 0] slices_S2x100000x16x32_S1x100000x16x32_1_0_0_0 (X (Proc.devRef .tc main_arg2)))
    (hD_keep_v34 : ∀ X : Valuation τ sig (Elt F), after lD X (Proc.devRef .tc main_v34) = X (Proc.devRef .tc main_v34))
    (hD_keep_arg3 : ∀ X : Valuation τ sig (Elt F), after lD X (Proc.devRef .tc main_arg3) = X (Proc.devRef .tc main_arg3))
    (hD_keep_arg4 : ∀ X : Valuation τ sig (Elt F), after lD X (Proc.devRef .tc main_arg4) = X (Proc.devRef .tc main_arg4))
    (hD_keep_arg5 : ∀ X : Valuation τ sig (Elt F), after lD X (Proc.devRef .tc main_arg5) = X (Proc.devRef .tc main_arg5))
    (hD_keep_arg6 : ∀ X : Valuation τ sig (Elt F), after lD X (Proc.devRef .tc main_arg6) = X (Proc.devRef .tc main_arg6))
    (hC_v34 : ∀ X : Valuation τ sig (Elt F), after lC X (Proc.devRef .tc main_v34) = outOf (X (Proc.devRef .tc main_arg0)) (X (Proc.devRef .tc main_v25)) (w2Of ![0, 0, 0] slices_S2x256x128_S1x256x128_0_0_0 (X (Proc.devRef .tc main_arg5))) (biasOf ![0, 0] slices_S2x128_S1x128_0_0 (X (Proc.devRef .tc main_arg6))))
    (hC_keep_arg1 : ∀ X : Valuation τ sig (Elt F), after lC X (Proc.devRef .tc main_arg1) = X (Proc.devRef .tc main_arg1))
    (hC_keep_arg2 : ∀ X : Valuation τ sig (Elt F), after lC X (Proc.devRef .tc main_arg2) = X (Proc.devRef .tc main_arg2))
    (hC_keep_arg3 : ∀ X : Valuation τ sig (Elt F), after lC X (Proc.devRef .tc main_arg3) = X (Proc.devRef .tc main_arg3))
    (hC_keep_arg4 : ∀ X : Valuation τ sig (Elt F), after lC X (Proc.devRef .tc main_arg4) = X (Proc.devRef .tc main_arg4))
    (hC_keep_arg5 : ∀ X : Valuation τ sig (Elt F), after lC X (Proc.devRef .tc main_arg5) = X (Proc.devRef .tc main_arg5))
    (hC_keep_arg6 : ∀ X : Valuation τ sig (Elt F), after lC X (Proc.devRef .tc main_arg6) = X (Proc.devRef .tc main_arg6))
    (hC_keep_arg7 : ∀ X : Valuation τ sig (Elt F), after lC X (Proc.devRef .tc main_arg7) = X (Proc.devRef .tc main_arg7))
    (hB_hid : ∀ X : Valuation τ sig (Elt F), after lB X (Proc.devRef .tc main_v25) = hidOf (X (Proc.devRef .tc main_v9)) (X (Proc.devRef .tc main_v12)) (X (Proc.devRef .tc main_v15)) (w1Of ![0, 0, 0] slices_S2x192x128_S1x192x128_0_0_0 (X (Proc.devRef .tc main_arg3))) (biasOf ![0, 0] slices_S2x128_S1x128_0_0 (X (Proc.devRef .tc main_arg4))))
    (hB_keep_arg0 : ∀ X : Valuation τ sig (Elt F), after lB X (Proc.devRef .tc main_arg0) = X (Proc.devRef .tc main_arg0))
    (hB_keep_arg1 : ∀ X : Valuation τ sig (Elt F), after lB X (Proc.devRef .tc main_arg1) = X (Proc.devRef .tc main_arg1))
    (hB_keep_arg2 : ∀ X : Valuation τ sig (Elt F), after lB X (Proc.devRef .tc main_arg2) = X (Proc.devRef .tc main_arg2))
    (hB_keep_arg3 : ∀ X : Valuation τ sig (Elt F), after lB X (Proc.devRef .tc main_arg3) = X (Proc.devRef .tc main_arg3))
    (hB_keep_arg4 : ∀ X : Valuation τ sig (Elt F), after lB X (Proc.devRef .tc main_arg4) = X (Proc.devRef .tc main_arg4))
    (hB_keep_arg5 : ∀ X : Valuation τ sig (Elt F), after lB X (Proc.devRef .tc main_arg5) = X (Proc.devRef .tc main_arg5))
    (hB_keep_arg6 : ∀ X : Valuation τ sig (Elt F), after lB X (Proc.devRef .tc main_arg6) = X (Proc.devRef .tc main_arg6))
    (hB_keep_arg7 : ∀ X : Valuation τ sig (Elt F), after lB X (Proc.devRef .tc main_arg7) = X (Proc.devRef .tc main_arg7))
    (hA_v9 : ∀ X : Valuation τ sig (Elt F), after lA X (Proc.devRef .tc main_v9) = nbrOf (X (Proc.devRef .tc main_arg0)) (idxOf ![0, 0, 0] slices_S2x100000x16_S1x100000x16_0_0_0 (X (Proc.devRef .tc main_arg7))))
    (hA_v12 : ∀ X : Valuation τ sig (Elt F), after lA X (Proc.devRef .tc main_v12) = featOf ![0, 0, 0, 0] slices_S2x100000x16x32_S1x100000x16x32_0_0_0_0 (X (Proc.devRef .tc main_arg1)))
    (hA_v15 : ∀ X : Valuation τ sig (Elt F), after lA X (Proc.devRef .tc main_v15) = featOf ![0, 0, 0, 0] slices_S2x100000x16x32_S1x100000x16x32_0_0_0_0 (X (Proc.devRef .tc main_arg2)))
    (hA_keep_arg0 : ∀ X : Valuation τ sig (Elt F), after lA X (Proc.devRef .tc main_arg0) = X (Proc.devRef .tc main_arg0))
    (hA_keep_arg1 : ∀ X : Valuation τ sig (Elt F), after lA X (Proc.devRef .tc main_arg1) = X (Proc.devRef .tc main_arg1))
    (hA_keep_arg2 : ∀ X : Valuation τ sig (Elt F), after lA X (Proc.devRef .tc main_arg2) = X (Proc.devRef .tc main_arg2))
    (hA_keep_arg3 : ∀ X : Valuation τ sig (Elt F), after lA X (Proc.devRef .tc main_arg3) = X (Proc.devRef .tc main_arg3))
    (hA_keep_arg4 : ∀ X : Valuation τ sig (Elt F), after lA X (Proc.devRef .tc main_arg4) = X (Proc.devRef .tc main_arg4))
    (hA_keep_arg5 : ∀ X : Valuation τ sig (Elt F), after lA X (Proc.devRef .tc main_arg5) = X (Proc.devRef .tc main_arg5))
    (hA_keep_arg6 : ∀ X : Valuation τ sig (Elt F), after lA X (Proc.devRef .tc main_arg6) = X (Proc.devRef .tc main_arg6))
    (hA_keep_arg7 : ∀ X : Valuation τ sig (Elt F), after lA X (Proc.devRef .tc main_arg7) = X (Proc.devRef .tc main_arg7)) :
    after (lA ++ (lB ++ (lC ++ (lD ++ (lE ++ lG))))) V (Proc.devRef .tc main_v69)
      = layer1Of (layer0Of (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)))
          (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold layer1Of layer0Of
  simp only [StableHlo.after_append, hG_v69, hE_hid, hE_keep_v34, hE_keep_arg5, hE_keep_arg6, hD_v44, hD_v47, hD_v50, hD_keep_v34, hD_keep_arg3, hD_keep_arg4, hD_keep_arg5, hD_keep_arg6, hC_v34, hC_keep_arg1, hC_keep_arg2, hC_keep_arg3, hC_keep_arg4, hC_keep_arg5, hC_keep_arg6, hC_keep_arg7, hB_hid, hB_keep_arg0, hB_keep_arg1, hB_keep_arg2, hB_keep_arg3, hB_keep_arg4, hB_keep_arg5, hB_keep_arg6, hB_keep_arg7, hA_v9, hA_v12, hA_v15, hA_keep_arg0, hA_keep_arg1, hA_keep_arg2, hA_keep_arg3, hA_keep_arg4, hA_keep_arg5, hA_keep_arg6, hA_keep_arg7]

/-- The result buffer after the six chunks of @main, from any contents. -/
theorem value_split (V : Valuation τ sig (Elt F)) :
    after (cA ++ (cB ++ (cC ++ (cD ++ (cE ++ cG))))) V (Proc.devRef .tc main_v69)
      = layer1Of (layer0Of (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)))
          (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  compose cA cB cC cD cE cG V G_v69 E_hid E_keep_v34 E_keep_arg5 E_keep_arg6 D_v44 D_v47 D_v50 D_keep_v34 D_keep_arg3 D_keep_arg4 D_keep_arg5 D_keep_arg6 C_v34 C_keep_arg1 C_keep_arg2 C_keep_arg3 C_keep_arg4 C_keep_arg5 C_keep_arg6 C_keep_arg7 B_hid B_keep_arg0 B_keep_arg1 B_keep_arg2 B_keep_arg3 B_keep_arg4 B_keep_arg5 B_keep_arg6 B_keep_arg7 A_v9 A_v12 A_v15 A_keep_arg0 A_keep_arg1 A_keep_arg2 A_keep_arg3 A_keep_arg4 A_keep_arg5 A_keep_arg6 A_keep_arg7

set_option maxHeartbeats 4000000 in
/-- On every device, from any memory with zero counters: every weakly fair execution of @main terminates with the result
    array at the two layers of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v69)
        = layer1Of (layer0Of (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
            (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v69).trans ((after_ops_split _ _).trans (value_split _)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ (fun _ => ops_fresh))

end Cert.ReferenceIdeal.ValueP

end
-- ==== Proof.RefValue.lean ====
/-
  One layer of the reference, as its operations spell it over the layer's slices of the inputs, is `layer k`.

  The layer's operations: the sums over the 16 neighbours of slice k of the edge and the time features; the joined row
  (nb | esum | tsum), 192 entries, times slice k of W1, plus row k of b1, maximum with zero; the joined row (o | hid), 256
  entries, times slice k of W2, plus row k of b2. Read at an index, the product's sum over the joined coordinates splits
  into the sums over the pieces, each piece read where the joined row took it from.
-/
import proofs.«429829_j21174188769660_2_alg».proof.Proof.Gen.ReferenceIdeal
import proofs.«429829_j21174188769660_2_alg».proof.Proof.LayerSpec
import proofs.«429829_j21174188769660_2_alg».proof.Proof.LibDenseLayer
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.GraphSum
open Cert.ReferenceIdeal.Facts₀ Cert.ReferenceIdeal.Facts

/-! ## The joined rows read piece by piece -/

/-- The row (A | B | C) of 128 + 32 + 32 entries reads A on its first 128 coordinates … -/
theorem cat3_a (A : S100000x128.Idx → EReal) (B C : S100000x32.Idx → EReal) (r : Fin 100000) (l : Fin 128) :
    concatenate S100000x192 1 [⟨S100000x128, A⟩, ⟨S100000x32, B⟩, ⟨S100000x32, C⟩]
      concatenates_S100000x128_S100000x32_S100000x32_S100000x192_d1 (ix2 r (r192a l)) = A (ix2 r l) :=
  concatenate_apply_piece (t := S100000x192) 1 _ _ (ix2 r (r192a l)) 0 (by simp) S100000x128 A rfl rfl 0 rfl (ix2 r l)
    (fun b hb => match b with
      | ⟨0, _⟩ => rfl
      | ⟨1, _⟩ => absurd rfl hb)
    (by show 0 + l.val = l.val; omega)

/-- … B on the next 32 … -/
theorem cat3_b (A : S100000x128.Idx → EReal) (B C : S100000x32.Idx → EReal) (r : Fin 100000) (l : Fin 32) :
    concatenate S100000x192 1 [⟨S100000x128, A⟩, ⟨S100000x32, B⟩, ⟨S100000x32, C⟩]
      concatenates_S100000x128_S100000x32_S100000x32_S100000x192_d1 (ix2 r (r192b l)) = B (ix2 r l) :=
  concatenate_apply_piece (t := S100000x192) 1 _ _ (ix2 r (r192b l)) 1 (by simp) S100000x32 B rfl rfl 128 rfl (ix2 r l)
    (fun b hb => match b with
      | ⟨0, _⟩ => rfl
      | ⟨1, _⟩ => absurd rfl hb)
    (by show 128 + l.val = 128 + l.val; rfl)

/-- … and C on the last 32. -/
theorem cat3_c (A : S100000x128.Idx → EReal) (B C : S100000x32.Idx → EReal) (r : Fin 100000) (l : Fin 32) :
    concatenate S100000x192 1 [⟨S100000x128, A⟩, ⟨S100000x32, B⟩, ⟨S100000x32, C⟩]
      concatenates_S100000x128_S100000x32_S100000x32_S100000x192_d1 (ix2 r (r192c l)) = C (ix2 r l) :=
  concatenate_apply_piece (t := S100000x192) 1 _ _ (ix2 r (r192c l)) 2 (by simp) S100000x32 C rfl rfl 160 rfl (ix2 r l)
    (fun b hb => match b with
      | ⟨0, _⟩ => rfl
      | ⟨1, _⟩ => absurd rfl hb)
    (by show 160 + l.val = 160 + l.val; rfl)

/-- The row (A | B) of 128 + 128 entries reads A on its first half … -/
theorem cat2_a (A B : S100000x128.Idx → EReal) (r : Fin 100000) (l : Fin 128) :
    concatenate S100000x256 1 [⟨S100000x128, A⟩, ⟨S100000x128, B⟩]
      concatenates_S100000x128_S100000x128_S100000x256_d1 (ix2 r (r256a l)) = A (ix2 r l) :=
  concatenate_apply_piece (t := S100000x256) 1 _ _ (ix2 r (r256a l)) 0 (by simp) S100000x128 A rfl rfl 0 rfl (ix2 r l)
    (fun b hb => match b with
      | ⟨0, _⟩ => rfl
      | ⟨1, _⟩ => absurd rfl hb)
    (by show 0 + l.val = l.val; omega)

/-- … and B on its second half. -/
theorem cat2_b (A B : S100000x128.Idx → EReal) (r : Fin 100000) (l : Fin 128) :
    concatenate S100000x256 1 [⟨S100000x128, A⟩, ⟨S100000x128, B⟩]
      concatenates_S100000x128_S100000x128_S100000x256_d1 (ix2 r (r256b l)) = B (ix2 r l) :=
  concatenate_apply_piece (t := S100000x256) 1 _ _ (ix2 r (r256b l)) 1 (by simp) S100000x128 B rfl rfl 128 rfl (ix2 r l)
    (fun b hb => match b with
      | ⟨0, _⟩ => rfl
      | ⟨1, _⟩ => absurd rfl hb)
    (by show 128 + l.val = 128 + l.val; rfl)

/-! ## The two products read at an index -/

theorem dot192_apply (A : S100000x192.Idx → EReal) (B : S192x128.Idx → EReal) (r : Fin 100000) (j : Fin 128) :
    Host.dotGeneral (F := Ideal) (φ₁ := .f32) (φ₂ := .f32) dot_S100000x192_S192x128_S100000x128_1_0_0_1_n_n none A B (ix2 r j)
      = ∑ l : Fin 192, A (ix2 r l) * B (ix2 l j) :=
  DenseLayer.dotGeneral_rows_apply dot_S100000x192_S192x128_S100000x128_1_0_0_1_n_n_wf none _ A B r j

theorem dot256_apply (A : S100000x256.Idx → EReal) (B : S256x128.Idx → EReal) (r : Fin 100000) (j : Fin 128) :
    Host.dotGeneral (F := Ideal) (φ₁ := .f32) (φ₂ := .f32) dot_S100000x256_S256x128_S100000x128_1_0_0_1_n_n none A B (ix2 r j)
      = ∑ l : Fin 256, A (ix2 r l) * B (ix2 l j) :=
  DenseLayer.dotGeneral_rows_apply dot_S100000x256_S256x128_S100000x128_1_0_0_1_n_n_wf none _ A B r j

/-! ## The layer's slices of the inputs read at an index -/

/-- Slice k of W1, as a 192 × 128 matrix, reads W1 at (k, a, b). -/
theorem w1_slice (k : Fin 2) (hs : S2x192x128.Slices ![k.val, 0, 0] S1x192x128) (W1 : S2x192x128.Idx → EReal)
    (a : Fin 192) (b : Fin 128) :
    shapeCast S192x128 (extractStridedSlice S1x192x128 ![k.val, 0, 0] W1 hs) shapeCasts_S1x192x128_S192x128 (ix2 a b)
      = W1 (ix3 k a b) := by
  refine (shapeCast_apply _ shapeCasts_S1x192x128_S192x128 (ix2 a b) (ix3 (0 : Fin 1) a b) ?_).trans ?_
  · rewrite [Shape.rowMajor_val_three, Shape.rowMajor_val_two]
    show (0 * 192 + a.val) * 128 + b.val = a.val * 128 + b.val
    omega
  · exact extractStridedSlice_apply _ W1 hs (ix3 (0 : Fin 1) a b) (ix3 k a b) (fun ax => match ax with
      | ⟨0, _⟩ => by show k.val = k.val + 0; omega
      | ⟨1, _⟩ => by show a.val = 0 + a.val; omega
      | ⟨2, _⟩ => by show b.val = 0 + b.val; omega)

/-- Slice k of W2, as a 256 × 128 matrix, reads W2 at (k, a, b). -/
theorem w2_slice (k : Fin 2) (hs : S2x256x128.Slices ![k.val, 0, 0] S1x256x128) (W2 : S2x256x128.Idx → EReal)
    (a : Fin 256) (b : Fin 128) :
    shapeCast S256x128 (extractStridedSlice S1x256x128 ![k.val, 0, 0] W2 hs) shapeCasts_S1x256x128_S256x128 (ix2 a b)
      = W2 (ix3 k a b) := by
  refine (shapeCast_apply _ shapeCasts_S1x256x128_S256x128 (ix2 a b) (ix3 (0 : Fin 1) a b) ?_).trans ?_
  · rewrite [Shape.rowMajor_val_three, Shape.rowMajor_val_two]
    show (0 * 256 + a.val) * 128 + b.val = a.val * 128 + b.val
    omega
  · exact extractStridedSlice_apply _ W2 hs (ix3 (0 : Fin 1) a b) (ix3 k a b) (fun ax => match ax with
      | ⟨0, _⟩ => by show k.val = k.val + 0; omega
      | ⟨1, _⟩ => by show a.val = 0 + a.val; omega
      | ⟨2, _⟩ => by show b.val = 0 + b.val; omega)

/-- Row k of a bias, laid out as one row and repeated down the 100000 rows, reads the bias at (k, j). -/
theorem bias_slice (k : Fin 2) (hs : S2x128.Slices ![k.val, 0] S1x128) (b : S2x128.Idx → EReal) (r : Fin 100000) (j : Fin 128) :
    broadcastInDim S100000x128 ![0, 1] bcast_S1x128_S100000x128_0_1 (broadcastInDim S1x128 ![1] bcast_S128_S1x128_1
      (shapeCast S128 (extractStridedSlice S1x128 ![k.val, 0] b hs) shapeCasts_S1x128_S128)) (ix2 r j) = b (ix2 k j) := by
  refine (DenseLayer.bias_inDim_apply bcast_S128_S1x128_1 bcast_S1x128_S100000x128_0_1 _ r j).trans ?_
  refine (shapeCast_apply _ shapeCasts_S1x128_S128 (ix1 j) (ix2 (0 : Fin 1) j) ?_).trans ?_
  · rewrite [Shape.rowMajor_val_two, Shape.rowMajor_val_one]
    show 0 * 128 + j.val = j.val
    omega
  · exact extractStridedSlice_apply _ b hs (ix2 (0 : Fin 1) j) (ix2 k j) (fun ax => match ax with
      | ⟨0, _⟩ => by show k.val = k.val + 0; omega
      | ⟨1, _⟩ => by show j.val = 0 + j.val; omega)

/-- The sum over the 16 neighbours of slice k of a feature array reads, at (r, q), the sum of the 16 entries (k, r, n, q). -/
theorem feat_sum (k : Fin 2) (hs : S2x100000x16x32.Slices ![k.val, 0, 0, 0] S1x100000x16x32) (E : S2x100000x16x32.Idx → EReal)
    (z : S_.Idx → EReal) (hz : ∀ i, z i = 0) (r : Fin 100000) (q : Fin 32) :
    Host.reduceAdd (F := Ideal) (φ := .f32)
        (shapeCast S100000x16x32 (extractStridedSlice S1x100000x16x32 ![k.val, 0, 0, 0] E hs) shapeCasts_S1x100000x16x32_S100000x16x32)
        z reducesTo_S100000x16x32_S100000x32_d1 h_S_ (ix2 r q)
      = ∑ n : Fin 16, E (ix4 k r n q) := by
  simp only [Host.reduceAdd, Ideal.hostReduceAdd_def]
  rw [Ideal.hostReduceAdd_single reducesTo_S100000x16x32_S100000x32_d1 (by decide), hz, zero_add]
  refine Finset.sum_congr rfl fun n _ => ?_
  refine (shapeCast_apply _ shapeCasts_S1x100000x16x32_S100000x16x32 _ (ix4 (0 : Fin 1) r n q) ?_).trans ?_
  · rewrite [Shape.rowMajor_val_four, Shape.rowMajor_val_three]
    show ((0 * 100000 + r.val) * 16 + n.val) * 32 + q.val = (r.val * 16 + n.val) * 32 + q.val
    omega
  · exact extractStridedSlice_apply _ E hs (ix4 (0 : Fin 1) r n q) (ix4 k r n q) (fun ax => match ax with
      | ⟨0, _⟩ => by show k.val = k.val + 0; omega
      | ⟨1, _⟩ => by show r.val = 0 + r.val; omega
      | ⟨2, _⟩ => by show n.val = 0 + n.val; omega
      | ⟨3, _⟩ => by show q.val = 0 + q.val; omega)

/-! ## One layer of the reference, as its operations spell it -/

/-- The hidden rows: the joined row (nb | es | ts) times the layer's W1, plus the bias rows, maximum with the zero rows. -/
def hidRows (nb : S100000x128.Idx → EReal) (es ts : S100000x32.Idx → EReal) (W1m : S192x128.Idx → EReal)
    (b1r zr : S100000x128.Idx → EReal) : S100000x128.Idx → EReal :=
  maximumf (F := Ideal) (φ := .f32)
    (addf (F := Ideal) (φ := .f32)
      (Host.dotGeneral (F := Ideal) (φ₁ := .f32) (φ₂ := .f32) dot_S100000x192_S192x128_S100000x128_1_0_0_1_n_n none
        (concatenate S100000x192 1 [⟨S100000x128, nb⟩, ⟨S100000x32, es⟩, ⟨S100000x32, ts⟩]
          concatenates_S100000x128_S100000x32_S100000x32_S100000x192_d1) W1m) b1r) zr

/-- The new embedding rows: the joined row (o | hid) times the layer's W2, plus the bias rows. -/
def outRows (o hid : S100000x128.Idx → EReal) (W2m : S256x128.Idx → EReal) (b2r : S100000x128.Idx → EReal) :
    S100000x128.Idx → EReal :=
  addf (F := Ideal) (φ := .f32)
    (Host.dotGeneral (F := Ideal) (φ₁ := .f32) (φ₂ := .f32) dot_S100000x256_S256x128_S100000x128_1_0_0_1_n_n none
      (concatenate S100000x256 1 [⟨S100000x128, o⟩, ⟨S100000x128, hid⟩]
        concatenates_S100000x128_S100000x128_S100000x256_d1) W2m) b2r

/-- The layer's slice of W1 as a matrix, of W2 as a matrix, of a bias as 100000 equal rows, and the neighbour sums of its
    slice of a feature array. -/
def w1Mat (k : Fin 2) (hs : S2x192x128.Slices ![k.val, 0, 0] S1x192x128) (W1 : S2x192x128.Idx → EReal) : S192x128.Idx → EReal :=
  shapeCast S192x128 (extractStridedSlice S1x192x128 ![k.val, 0, 0] W1 hs) shapeCasts_S1x192x128_S192x128
def w2Mat (k : Fin 2) (hs : S2x256x128.Slices ![k.val, 0, 0] S1x256x128) (W2 : S2x256x128.Idx → EReal) : S256x128.Idx → EReal :=
  shapeCast S256x128 (extractStridedSlice S1x256x128 ![k.val, 0, 0] W2 hs) shapeCasts_S1x256x128_S256x128
def biasRows (k : Fin 2) (hs : S2x128.Slices ![k.val, 0] S1x128) (b : S2x128.Idx → EReal) : S100000x128.Idx → EReal :=
  broadcastInDim S100000x128 ![0, 1] bcast_S1x128_S100000x128_0_1 (broadcastInDim S1x128 ![1] bcast_S128_S1x128_1
    (shapeCast S128 (extractStridedSlice S1x128 ![k.val, 0] b hs) shapeCasts_S1x128_S128))
def featSums (k : Fin 2) (hs : S2x100000x16x32.Slices ![k.val, 0, 0, 0] S1x100000x16x32) (E : S2x100000x16x32.Idx → EReal)
    (z : S_.Idx → EReal) : S100000x32.Idx → EReal :=
  Host.reduceAdd (F := Ideal) (φ := .f32)
    (shapeCast S100000x16x32 (extractStridedSlice S1x100000x16x32 ![k.val, 0, 0, 0] E hs) shapeCasts_S1x100000x16x32_S100000x16x32)
    z reducesTo_S100000x16x32_S100000x32_d1 h_S_

/-- The hidden rows at (r, j): the product's sum over the 192 joined coordinates, cut at 128 and 160, plus the bias. -/
theorem hidRows_apply (nb : S100000x128.Idx → EReal) (es ts : S100000x32.Idx → EReal) (W1m : S192x128.Idx → EReal)
    (b1r zr : S100000x128.Idx → EReal) (r : Fin 100000) (j : Fin 128) :
    hidRows nb es ts W1m b1r zr (ix2 r j)
      = max ((((∑ l : Fin 128, nb (ix2 r l) * W1m (ix2 (r192a l) j)) + ∑ l : Fin 32, es (ix2 r l) * W1m (ix2 (r192b l) j))
          + ∑ l : Fin 32, ts (ix2 r l) * W1m (ix2 (r192c l) j)) + b1r (ix2 r j)) (zr (ix2 r j)) := by
  show max (Host.dotGeneral (F := Ideal) (φ₁ := .f32) (φ₂ := .f32) dot_S100000x192_S192x128_S100000x128_1_0_0_1_n_n none _ W1m (ix2 r j)
    + b1r (ix2 r j)) (zr (ix2 r j)) = _
  rw [dot192_apply, sum_192]
  simp only [cat3_a, cat3_b, cat3_c]

/-- The new embedding rows at (r, h): the product's sum over the 256 joined coordinates, cut at 128, plus the bias. -/
theorem outRows_apply (o hid : S100000x128.Idx → EReal) (W2m : S256x128.Idx → EReal) (b2r : S100000x128.Idx → EReal)
    (r : Fin 100000) (h : Fin 128) :
    outRows o hid W2m b2r (ix2 r h)
      = ((∑ l : Fin 128, o (ix2 r l) * W2m (ix2 (r256a l) h)) + ∑ l : Fin 128, hid (ix2 r l) * W2m (ix2 (r256b l) h))
          + b2r (ix2 r h) := by
  show Host.dotGeneral (F := Ideal) (φ₁ := .f32) (φ₂ := .f32) dot_S100000x256_S256x128_S100000x128_1_0_0_1_n_n none _ W2m (ix2 r h)
    + b2r (ix2 r h) = _
  rw [dot256_apply, sum_256]
  simp only [cat2_a, cat2_b]

/-- One layer of the reference over the layer's slices of the inputs is `layer k`. -/
theorem layer_ref (k : Fin 2)
    (hsF : S2x100000x16x32.Slices ![k.val, 0, 0, 0] S1x100000x16x32) (hsW1 : S2x192x128.Slices ![k.val, 0, 0] S1x192x128)
    (hsB : S2x128.Slices ![k.val, 0] S1x128) (hsW2 : S2x256x128.Slices ![k.val, 0, 0] S1x256x128)
    (o nb : S100000x128.Idx → EReal) (E T : S2x100000x16x32.Idx → EReal) (W1 : S2x192x128.Idx → EReal)
    (b1 : S2x128.Idx → EReal) (W2 : S2x256x128.Idx → EReal) (b2 : S2x128.Idx → EReal)
    (z1 z2 : S_.Idx → EReal) (zr : S100000x128.Idx → EReal)
    (hz1 : ∀ i, z1 i = 0) (hz2 : ∀ i, z2 i = 0) (hzr : ∀ i, zr i = 0) :
    outRows o (hidRows nb (featSums k hsF E z1) (featSums k hsF T z2) (w1Mat k hsW1 W1) (biasRows k hsB b1) zr)
        (w2Mat k hsW2 W2) (biasRows k hsB b2)
      = layer k o nb E T W1 b1 W2 b2 := by
  funext i
  obtain ⟨r, h, rfl⟩ : ∃ r h, i = ix2 r h := ⟨i 0, i 1, eq_ix2 i⟩
  -- the hidden row of node r
  have hid : ∀ j : Fin 128,
      hidRows nb (featSums k hsF E z1) (featSums k hsF T z2) (w1Mat k hsW1 W1) (biasRows k hsB b1) zr (ix2 r j)
        = hiddenAt k nb E T W1 b1 r j := by
    intro j
    rw [hidRows_apply, hzr]
    unfold hiddenAt Cert.GraphSum.hidden
    simp only [show ∀ q, featSums k hsF E z1 (ix2 r q) = ∑ n : Fin 16, E (ix4 k r n q) from fun q => feat_sum k hsF E z1 hz1 r q,
      show ∀ q, featSums k hsF T z2 (ix2 r q) = ∑ n : Fin 16, T (ix4 k r n q) from fun q => feat_sum k hsF T z2 hz2 r q,
      show ∀ a b, w1Mat k hsW1 W1 (ix2 a b) = W1 (ix3 k a b) from fun a b => w1_slice k hsW1 W1 a b,
      show ∀ j, biasRows k hsB b1 (ix2 r j) = b1 (ix2 k j) from fun j => bias_slice k hsB b1 r j]
  show _ = rowOut (fun l => o (ix2 r l)) (hiddenAt k nb E T W1 b1 r)
    (fun l h => W2 (ix3 k (r256a l) h)) (fun l h => W2 (ix3 k (r256b l) h)) (fun h => b2 (ix2 k h)) h
  rw [outRows_apply]
  unfold rowOut
  simp only [hid, show ∀ a b, w2Mat k hsW2 W2 (ix2 a b) = W2 (ix3 k a b) from fun a b => w2_slice k hsW2 W2 a b,
    show ∀ j, biasRows k hsB b2 (ix2 r j) = b2 (ix2 k j) from fun j => bias_slice k hsB b2 r j]

end Cert.ReferenceIdeal.RefValue

end
-- ==== Proof.Claims.lean ====
/-
  The claims: the three frames, the idealization's ledger (empty), and the equivalence over the extended reals.

  The kernel's run ends with the result array at two layers of the specification, the neighbour sums of each layer
  being the gathered rows added over the 16 neighbours (under the precondition every index word is in range, so the
  take's fill mask drops nothing). The reference's run ends with its result at its own two layers, each spelt by the
  host's operations: a layer of the reference over its slabs of the inputs is a layer of the specification, and its
  neighbour sums are the kernel's: the same gathers, the same wrapped index words, the same sums. From memories that
  agree on the arguments the two results are one array.
-/
import proofs.«429829_j21174188769660_2_alg».proof.Defs
import proofs.«429829_j21174188769660_2_alg».proof.Proof.Gen.Kernel.Frame
import proofs.«429829_j21174188769660_2_alg».proof.Proof.Gen.KernelIdeal.Frame
import proofs.«429829_j21174188769660_2_alg».proof.Proof.Gen.ReferenceIdeal
import proofs.«429829_j21174188769660_2_alg».proof.Proof.Gen.Pre_finite_inputs
import proofs.«429829_j21174188769660_2_alg».proof.Proof.KernelRun
import proofs.«429829_j21174188769660_2_alg».proof.Proof.Entry1
import proofs.«429829_j21174188769660_2_alg».proof.Proof.RefRun
import proofs.«429829_j21174188769660_2_alg».proof.Proof.RefValue

set_option maxRecDepth 16384

noncomputable section

open Idealize.ShloMosaic Idealize.ShloMosaic.TcCoe Idealize.SL.Sem

namespace Cert.Proof.Claims

open Cert.GraphSum

/-! ## The neighbour sums, the kernel's spelling and the reference's -/

section Agree
variable {F : FTy → Type} [FloatOps F]

/-- Layer 0: the kernel's gathered rows added over the neighbours are the reference's, at any float family. -/
theorem nbr0_agree (x7 : IVec Cert.KernelIdeal.S2x100000x16 32) (x : FVec F Cert.KernelIdeal.S100000x128 .f32) :
    Host.reduceAdd (Host.gather Cert.KernelIdeal.gather_S100000x128_S100000x16x1_S100000x16x128_2_0_n_n_0_2_1128 x
        (Cert.KernelIdeal.Take.wrapCol (Cert.KernelIdeal.Take.idx0 x7)))
      (constant (F := F) Cert.KernelIdeal.S_ .f32 0x00000000#32) Cert.KernelIdeal.Gen.reducesTo_S100000x16x128_S100000x128_d1 Cert.KernelIdeal.Gen.h_S_
      = Cert.ReferenceIdeal.ValueP.nbrOf (F := F) x (Cert.ReferenceIdeal.ValueP.idxOf ![0, 0, 0] Cert.ReferenceIdeal.Gen.slices_S2x100000x16_S1x100000x16_0_0_0 x7) := by
  unfold Cert.KernelIdeal.Take.wrapCol Cert.KernelIdeal.Take.idx0 Cert.ReferenceIdeal.ValueP.nbrOf Cert.ReferenceIdeal.ValueP.wrapOf Cert.ReferenceIdeal.ValueP.idxOf
  rfl

/-- Layer 1 likewise. -/
theorem nbr1_agree (x7 : IVec Cert.KernelIdeal.S2x100000x16 32) (x : FVec F Cert.KernelIdeal.S100000x128 .f32) :
    Host.reduceAdd (Host.gather Cert.KernelIdeal.gather_S100000x128_S100000x16x1_S100000x16x128_2_0_n_n_0_2_1128 x
        (Cert.KernelIdeal.Take.wrapCol (Cert.KernelIdeal.Take.idx1 x7)))
      (constant (F := F) Cert.KernelIdeal.S_ .f32 0x00000000#32) Cert.KernelIdeal.Gen.reducesTo_S100000x16x128_S100000x128_d1 Cert.KernelIdeal.Gen.h_S_
      = Cert.ReferenceIdeal.ValueP.nbrOf (F := F) x (Cert.ReferenceIdeal.ValueP.idxOf ![1, 0, 0] Cert.ReferenceIdeal.Gen.slices_S2x100000x16_S1x100000x16_1_0_0 x7) := by
  unfold Cert.KernelIdeal.Take.wrapCol Cert.KernelIdeal.Take.idx1 Cert.ReferenceIdeal.ValueP.nbrOf Cert.ReferenceIdeal.ValueP.wrapOf Cert.ReferenceIdeal.ValueP.idxOf
  rfl

end Agree

/-! ## The reference's two layers are the specification's -/

section RefLayers
variable (x0 : FVec Ideal Cert.ReferenceIdeal.S100000x128 .f32) (x1 x2 : FVec Ideal Cert.ReferenceIdeal.S2x100000x16x32 .f32) (x3 : FVec Ideal Cert.ReferenceIdeal.S2x192x128 .f32)
  (x4 : FVec Ideal Cert.ReferenceIdeal.S2x128 .f32) (x5 : FVec Ideal Cert.ReferenceIdeal.S2x256x128 .f32) (x6 : FVec Ideal Cert.ReferenceIdeal.S2x128 .f32) (x7 : IVec Cert.ReferenceIdeal.S2x100000x16 32)

/-- Layer 0 of the reference is layer 0 of the specification, over the kernel's neighbour sums. -/
theorem ref_layer0 :
    Cert.ReferenceIdeal.ValueP.layer0Of (F := Ideal) x0 x1 x2 x3 x4 x5 x6 x7 = layer 0 x0 (Cert.KernelIdeal.Entry0.nbr0 x7 x0) x1 x2 x3 x4 x5 x6 := by
  have hn : Cert.KernelIdeal.Entry0.nbr0 x7 x0 = Cert.ReferenceIdeal.ValueP.nbrOf (F := Ideal) x0 (Cert.ReferenceIdeal.ValueP.idxOf ![0, 0, 0] Cert.ReferenceIdeal.Gen.slices_S2x100000x16_S1x100000x16_0_0_0 x7) :=
    nbr0_agree (F := Ideal) x7 x0
  rw [hn]
  refine Eq.trans ?_ (Cert.ReferenceIdeal.RefValue.layer_ref 0 Cert.ReferenceIdeal.Gen.slices_S2x100000x16x32_S1x100000x16x32_0_0_0_0 Cert.ReferenceIdeal.Gen.slices_S2x192x128_S1x192x128_0_0_0
      Cert.ReferenceIdeal.Gen.slices_S2x128_S1x128_0_0 Cert.ReferenceIdeal.Gen.slices_S2x256x128_S1x256x128_0_0_0 x0 (Cert.ReferenceIdeal.ValueP.nbrOf (F := Ideal) x0 (Cert.ReferenceIdeal.ValueP.idxOf ![0, 0, 0] Cert.ReferenceIdeal.Gen.slices_S2x100000x16_S1x100000x16_0_0_0 x7)) x1 x2 x3 x4 x5 x6
      (constant (F := Ideal) Cert.ReferenceIdeal.S_ .f32 0x00000000#32) (constant (F := Ideal) Cert.ReferenceIdeal.S_ .f32 0x00000000#32) (Cert.ReferenceIdeal.ValueP.zeroRows (F := Ideal))
      (fun _ => Ideal.ofBits_zero_f32) (fun _ => Ideal.ofBits_zero_f32) (fun _ => Ideal.ofBits_zero_f32))
  unfold Cert.ReferenceIdeal.ValueP.layer0Of Cert.ReferenceIdeal.ValueP.outOf Cert.ReferenceIdeal.ValueP.hidOf Cert.ReferenceIdeal.ValueP.preOf Cert.ReferenceIdeal.ValueP.featOf Cert.ReferenceIdeal.ValueP.w1Of Cert.ReferenceIdeal.ValueP.w2Of Cert.ReferenceIdeal.ValueP.biasOf
    Cert.ReferenceIdeal.RefValue.outRows Cert.ReferenceIdeal.RefValue.hidRows Cert.ReferenceIdeal.RefValue.featSums Cert.ReferenceIdeal.RefValue.w1Mat Cert.ReferenceIdeal.RefValue.w2Mat Cert.ReferenceIdeal.RefValue.biasRows
  rfl

/-- Layer 1 of the reference over embeddings o is layer 1 of the specification, over the kernel's neighbour sums. -/
theorem ref_layer1 (o : FVec Ideal Cert.ReferenceIdeal.S100000x128 .f32) :
    Cert.ReferenceIdeal.ValueP.layer1Of (F := Ideal) o x1 x2 x3 x4 x5 x6 x7 = layer 1 o (Cert.KernelIdeal.Entry1.nbr1 x7 o) x1 x2 x3 x4 x5 x6 := by
  have hn : Cert.KernelIdeal.Entry1.nbr1 x7 o = Cert.ReferenceIdeal.ValueP.nbrOf (F := Ideal) o (Cert.ReferenceIdeal.ValueP.idxOf ![1, 0, 0] Cert.ReferenceIdeal.Gen.slices_S2x100000x16_S1x100000x16_1_0_0 x7) :=
    nbr1_agree (F := Ideal) x7 o
  rw [hn]
  refine Eq.trans ?_ (Cert.ReferenceIdeal.RefValue.layer_ref 1 Cert.ReferenceIdeal.Gen.slices_S2x100000x16x32_S1x100000x16x32_1_0_0_0 Cert.ReferenceIdeal.Gen.slices_S2x192x128_S1x192x128_1_0_0
      Cert.ReferenceIdeal.Gen.slices_S2x128_S1x128_1_0 Cert.ReferenceIdeal.Gen.slices_S2x256x128_S1x256x128_1_0_0 o (Cert.ReferenceIdeal.ValueP.nbrOf (F := Ideal) o (Cert.ReferenceIdeal.ValueP.idxOf ![1, 0, 0] Cert.ReferenceIdeal.Gen.slices_S2x100000x16_S1x100000x16_1_0_0 x7)) x1 x2 x3 x4 x5 x6
      (constant (F := Ideal) Cert.ReferenceIdeal.S_ .f32 0x00000000#32) (constant (F := Ideal) Cert.ReferenceIdeal.S_ .f32 0x00000000#32) (Cert.ReferenceIdeal.ValueP.zeroRows (F := Ideal))
      (fun _ => Ideal.ofBits_zero_f32) (fun _ => Ideal.ofBits_zero_f32) (fun _ => Ideal.ofBits_zero_f32))
  unfold Cert.ReferenceIdeal.ValueP.layer1Of Cert.ReferenceIdeal.ValueP.outOf Cert.ReferenceIdeal.ValueP.hidOf Cert.ReferenceIdeal.ValueP.preOf Cert.ReferenceIdeal.ValueP.featOf Cert.ReferenceIdeal.ValueP.w1Of Cert.ReferenceIdeal.ValueP.w2Of Cert.ReferenceIdeal.ValueP.biasOf
    Cert.ReferenceIdeal.RefValue.outRows Cert.ReferenceIdeal.RefValue.hidRows Cert.ReferenceIdeal.RefValue.featSums Cert.ReferenceIdeal.RefValue.w1Mat Cert.ReferenceIdeal.RefValue.w2Mat Cert.ReferenceIdeal.RefValue.biasRows
  rfl

/-- The reference's result is the two layers. -/
theorem ref_two :
    Cert.ReferenceIdeal.ValueP.layer1Of (F := Ideal) (Cert.ReferenceIdeal.ValueP.layer0Of (F := Ideal) x0 x1 x2 x3 x4 x5 x6 x7) x1 x2 x3 x4 x5 x6 x7
      = twoLayers (Cert.KernelIdeal.Entry0.nbr0 x7) (Cert.KernelIdeal.Entry1.nbr1 x7) x0 x1 x2 x3 x4 x5 x6 := by
  rw [ref_layer1, ref_layer0]
  rfl

end RefLayers

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the two layers of the graph-sum embedding in their result arrays. -/
theorem algebraic : Cert.algebraic_KernelIdeal_ReferenceIdeal := by
  intro m ρ m' ρ' hpre hagree
  have hr : ∀ (c : Dev Cert.KernelIdeal.nD) i, Cert.KernelIdeal.Take.InRange (Cert.KernelIdeal.Entry0.a7 m c i) :=
    fun c => Cert.KernelIdeal.Take.inRange_of_pre _ _ _ _ _ _ _ _ (hpre c)
  refine ⟨fun c => twoLayers (Cert.KernelIdeal.Entry0.nbr0 (Cert.KernelIdeal.Entry0.a7 m c))
      (Cert.KernelIdeal.Entry1.nbr1 (Cert.KernelIdeal.Entry0.a7 m c)) (Cert.KernelIdeal.Entry0.a0 m c)
      (Cert.KernelIdeal.Entry0.a1 m c) (Cert.KernelIdeal.Entry0.a2 m c) (Cert.KernelIdeal.Entry0.a3 m c)
      (Cert.KernelIdeal.Entry0.a4 m c) (Cert.KernelIdeal.Entry0.a5 m c) (Cert.KernelIdeal.Entry0.a6 m c), ?_, ?_⟩
  · exact (θ_run Cert.KernelIdeal.defs _ _).mono
      (fun r h c => ⟨(h c).1.trans (Cert.KernelIdeal.Entry1.kernel_value m ρ c (hr c)), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.ValueP.run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]
    exact ref_two _ _ _ _ _ _ _ _

end Cert.Proof.Claims

end
-- ==== Proof.lean ====
/-
  The certificate of the graph-sum embedding kernel against its reference: two layers, each the sum of a node's
  neighbours' rows (a row gather and a sum on the host), the sums of its edge and time features, a dense layer with a
  positive part, and a dense layer on the node's own row joined with that hidden row — computed by the kernel block by
  block with the joined rows' products split at the joins, by the reference on whole arrays. The precondition asks
  finite inputs and index words that name rows of the 100000-row embedding array (from the front, or negative from the
  back), outside of which the reference's own indexing is out of range. The claims are proved in Proof/Claims.lean.
-/
import proofs.«429829_j21174188769660_2_alg».proof.Defs
import proofs.«429829_j21174188769660_2_alg».proof.Proof.Gen.Kernel
import proofs.«429829_j21174188769660_2_alg».proof.Proof.Gen.KernelIdeal
import proofs.«429829_j21174188769660_2_alg».proof.Proof.Gen.ReferenceIdeal
import proofs.«429829_j21174188769660_2_alg».proof.Proof.Gen.Pre_finite_inputs
import proofs.«429829_j21174188769660_2_alg».proof.Proof.Claims

noncomputable section

namespace Cert.Proof

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
